-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1792x1792 : Shape := ⟨3, ![2, 1792, 1792]⟩
abbrev S1792x128 : Shape := ⟨2, ![1792, 128]⟩
abbrev S2x128x256 : Shape := ⟨3, ![2, 128, 256]⟩
abbrev S2x256x128 : Shape := ⟨3, ![2, 256, 128]⟩
abbrev S2x1x256 : Shape := ⟨3, ![2, 1, 256]⟩
abbrev S2x1x128 : Shape := ⟨3, ![2, 1, 128]⟩
abbrev S128x256 : Shape := ⟨2, ![128, 256]⟩
abbrev S1x256 : Shape := ⟨2, ![1, 256]⟩
abbrev S256x128 : Shape := ⟨2, ![256, 128]⟩
abbrev S1x128 : Shape := ⟨2, ![1, 128]⟩
abbrev S1x1 : Shape := ⟨2, ![1, 1]⟩
abbrev S_ : Shape := ⟨0, ![]⟩

class Facts : Prop where
  bcast_S_S2x1792x1792 : S_.BroadcastsInDim S2x1792x1792 (![] : Fin 0 → Fin S2x1792x1792.rank)
  reducesTo_S2x1792x1792_S_d0_1_2 : S2x1792x1792.ReducesTo [0, 1, 2] S_
  h_S_ : 0 < S_.numel
  bcast_S_S1792x128 : S_.BroadcastsInDim S1792x128 (![] : Fin 0 → Fin S1792x128.rank)
  reducesTo_S1792x128_S_d0_1 : S1792x128.ReducesTo [0, 1] S_
  bcast_S_S2x128x256 : S_.BroadcastsInDim S2x128x256 (![] : Fin 0 → Fin S2x128x256.rank)
  reducesTo_S2x128x256_S_d0_1_2 : S2x128x256.ReducesTo [0, 1, 2] S_
  bcast_S_S2x256x128 : S_.BroadcastsInDim S2x256x128 (![] : Fin 0 → Fin S2x256x128.rank)
  reducesTo_S2x256x128_S_d0_1_2 : S2x256x128.ReducesTo [0, 1, 2] S_
  bcast_S_S2x1x256 : S_.BroadcastsInDim S2x1x256 (![] : Fin 0 → Fin S2x1x256.rank)
  reducesTo_S2x1x256_S_d0_1_2 : S2x1x256.ReducesTo [0, 1, 2] S_
  bcast_S_S2x1x128 : S_.BroadcastsInDim S2x1x128 (![] : Fin 0 → Fin S2x1x128.rank)
  reducesTo_S2x1x128_S_d0_1_2 : S2x1x128.ReducesTo [0, 1, 2] S_
  bcast_S_S128x256 : S_.BroadcastsInDim S128x256 (![] : Fin 0 → Fin S128x256.rank)
  reducesTo_S128x256_S_d0_1 : S128x256.ReducesTo [0, 1] S_
  bcast_S_S1x256 : S_.BroadcastsInDim S1x256 (![] : Fin 0 → Fin S1x256.rank)
  reducesTo_S1x256_S_d0_1 : S1x256.ReducesTo [0, 1] S_
  bcast_S_S256x128 : S_.BroadcastsInDim S256x128 (![] : Fin 0 → Fin S256x128.rank)
  reducesTo_S256x128_S_d0_1 : S256x128.ReducesTo [0, 1] S_
  bcast_S_S1x128 : S_.BroadcastsInDim S1x128 (![] : Fin 0 → Fin S1x128.rank)
  reducesTo_S1x128_S_d0_1 : S1x128.ReducesTo [0, 1] S_
  bcast_S_S1x1 : S_.BroadcastsInDim S1x1 (![] : Fin 0 → Fin S1x1.rank)
  reducesTo_S1x1_S_d0_1 : S1x1.ReducesTo [0, 1] S_

variable [Facts]

def fn_part3 {F : FTy → Type} [FloatOps F] (main_arg11 : FVec F S1x128 .f32) (main_arg12 : FVec F S1x1 .f32) (main_v48 : IVec S_ 1) (main_v49 : FVec F S1x128 .f32) (main_v50 : FVec F S1x128 .f32) : IVec S_ 1 :=
  let main_v51 : IVec S1x128 1 := cmpf .olt main_v49 main_v50
  let main_c_19 : IVec S_ 1 := constantI S_ 1 1#1
  let main_v52 : IVec S_ 1 := (fun x v => Host.reduce IntOp.andi x v reducesTo_S1x128_S_d0_1 h_S_) main_v51 main_c_19
  let main_v53 : IVec S_ 1 := andi main_v48 main_v52
  let main_v54 : FVec F S1x128 .f32 := Host.absf main_arg11
  let main_cst_20 : FVec F S_ .f32 := constant S_ .f32 0x7F800000#32
  let main_v55 : FVec F S1x128 .f32 := broadcastInDim S1x128 ![] bcast_S_S1x128 main_cst_20
  let main_v56 : IVec S1x128 1 := cmpf .olt main_v54 main_v55
  let main_c_21 : IVec S_ 1 := constantI S_ 1 1#1
  let main_v57 : IVec S_ 1 := (fun x v => Host.reduce IntOp.andi x v reducesTo_S1x128_S_d0_1 h_S_) main_v56 main_c_21
  let main_v58 : IVec S_ 1 := andi main_v53 main_v57
  let main_v59 : FVec F S1x1 .f32 := Host.absf main_arg12
  let main_cst_22 : FVec F S_ .f32 := constant S_ .f32 0x7F800000#32
  let main_v60 : FVec F S1x1 .f32 := broadcastInDim S1x1 ![] bcast_S_S1x1 main_cst_22
  let main_v61 : IVec S1x1 1 := cmpf .olt main_v59 main_v60
  let main_c_23 : IVec S_ 1 := constantI S_ 1 1#1
  let main_v62 : IVec S_ 1 := (fun x v => Host.reduce IntOp.andi x v reducesTo_S1x1_S_d0_1 h_S_) main_v61 main_c_23
  let main_v63 : IVec S_ 1 := andi main_v58 main_v62
  main_v63

def fn_part2 {F : FTy → Type} [FloatOps F] (main_arg7 : FVec F S2x128x256 .f32) (main_arg8 : FVec F S1x256 .f32) (main_arg9 : FVec F S256x128 .f32) (main_arg10 : FVec F S1x128 .f32) (main_arg11 : FVec F S1x128 .f32) (main_arg12 : FVec F S1x1 .f32) (main_v33 : IVec S_ 1) : IVec S_ 1 :=
  let main_v34 : FVec F S2x128x256 .f32 := Host.absf main_arg7
  let main_cst_12 : FVec F S_ .f32 := constant S_ .f32 0x7F800000#32
  let main_v35 : FVec F S2x128x256 .f32 := broadcastInDim S2x128x256 ![] bcast_S_S2x128x256 main_cst_12
  let main_v36 : IVec S2x128x256 1 := cmpf .olt main_v34 main_v35
  let main_c_13 : IVec S_ 1 := constantI S_ 1 1#1
  let main_v37 : IVec S_ 1 := (fun x v => Host.reduce IntOp.andi x v reducesTo_S2x128x256_S_d0_1_2 h_S_) main_v36 main_c_13
  let main_v38 : IVec S_ 1 := andi main_v33 main_v37
  let main_v39 : FVec F S1x256 .f32 := Host.absf main_arg8
  let main_cst_14 : FVec F S_ .f32 := constant S_ .f32 0x7F800000#32
  let main_v40 : FVec F S1x256 .f32 := broadcastInDim S1x256 ![] bcast_S_S1x256 main_cst_14
  let main_v41 : IVec S1x256 1 := cmpf .olt main_v39 main_v40
  let main_c_15 : IVec S_ 1 := constantI S_ 1 1#1
  let main_v42 : IVec S_ 1 := (fun x v => Host.reduce IntOp.andi x v reducesTo_S1x256_S_d0_1 h_S_) main_v41 main_c_15
  let main_v43 : IVec S_ 1 := andi main_v38 main_v42
  let main_v44 : FVec F S256x128 .f32 := Host.absf main_arg9
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S1x128 .f32 := Host.absf main_arg10
  let main_cst_18 : FVec F S_ .f32 := constant S_ .f32 0x7F800000#32
  let main_v50 : FVec F S1x128 .f32 := broadcastInDim S1x128 ![] bcast_S_S1x128 main_cst_18
  fn_part3 (F := F) main_arg11 main_arg12 main_v48 main_v49 main_v50

def fn_part1 {F : FTy → Type} [FloatOps F] (main_arg4 : FVec F S2x1x256 .f32) (main_arg5 : FVec F S2x1x128 .f32) (main_arg6 : FVec F S128x256 .f32) (main_arg7 : FVec F S2x128x256 .f32) (main_arg8 : FVec F S1x256 .f32) (main_arg9 : FVec F S256x128 .f32) (main_arg10 : FVec F S1x128 .f32) (main_arg11 : FVec F S1x128 .f32) (main_arg12 : FVec F S1x1 .f32) (main_v13 : IVec S_ 1) (main_v16 : IVec S2x256x128 1) : IVec S_ 1 :=
  let main_c_5 : IVec S_ 1 := constantI S_ 1 1#1
  let main_v17 : IVec S_ 1 := (fun x v => Host.reduce IntOp.andi x v reducesTo_S2x256x128_S_d0_1_2 h_S_) main_v16 main_c_5
  let main_v18 : IVec S_ 1 := andi main_v13 main_v17
  let main_v19 : FVec F S2x1x256 .f32 := Host.absf main_arg4
  let main_cst_6 : FVec F S_ .f32 := constant S_ .f32 0x7F800000#32
  let main_v20 : FVec F S2x1x256 .f32 := broadcastInDim S2x1x256 ![] bcast_S_S2x1x256 main_cst_6
  let main_v21 : IVec S2x1x256 1 := cmpf .olt main_v19 main_v20
  let main_c_7 : IVec S_ 1 := constantI S_ 1 1#1
  let main_v22 : IVec S_ 1 := (fun x v => Host.reduce IntOp.andi x v reducesTo_S2x1x256_S_d0_1_2 h_S_) main_v21 main_c_7
  let main_v23 : IVec S_ 1 := andi main_v18 main_v22
  let main_v24 : FVec F S2x1x128 .f32 := Host.absf main_arg5
  let main_cst_8 : FVec F S_ .f32 := constant S_ .f32 0x7F800000#32
  let main_v25 : FVec F S2x1x128 .f32 := broadcastInDim S2x1x128 ![] bcast_S_S2x1x128 main_cst_8
  let main_v26 : IVec S2x1x128 1 := cmpf .olt main_v24 main_v25
  let main_c_9 : IVec S_ 1 := constantI S_ 1 1#1
  let main_v27 : IVec S_ 1 := (fun x v => Host.reduce IntOp.andi x v reducesTo_S2x1x128_S_d0_1_2 h_S_) main_v26 main_c_9
  let main_v28 : IVec S_ 1 := andi main_v23 main_v27
  let main_v29 : FVec F S128x256 .f32 := Host.absf main_arg6
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S2x1792x1792 .f32) (main_arg1 : FVec F S1792x128 .f32) (main_arg2 : FVec F S2x128x256 .f32) (main_arg3 : FVec F S2x256x128 .f32) (main_arg4 : FVec F S2x1x256 .f32) (main_arg5 : FVec F S2x1x128 .f32) (main_arg6 : FVec F S128x256 .f32) (main_arg7 : FVec F S2x128x256 .f32) (main_arg8 : FVec F S1x256 .f32) (main_arg9 : FVec F S256x128 .f32) (main_arg10 : FVec F S1x128 .f32) (main_arg11 : FVec F S1x128 .f32) (main_arg12 : FVec F S1x1 .f32) : IVec S_ 1 :=
  let main_v0 : FVec F S2x1792x1792 .f32 := Host.absf main_arg0
  let main_cst : FVec F S_ .f32 := constant S_ .f32 0x7F800000#32
  let main_v1 : FVec F S2x1792x1792 .f32 := broadcastInDim S2x1792x1792 ![] bcast_S_S2x1792x1792 main_cst
  let main_v2 : IVec S2x1792x1792 1 := cmpf .olt main_v0 main_v1
  let main_c : IVec S_ 1 := constantI S_ 1 1#1
  let main_v3 : IVec S_ 1 := (fun x v => Host.reduce IntOp.andi x v reducesTo_S2x1792x1792_S_d0_1_2 h_S_) main_v2 main_c
  let main_v4 : FVec F S1792x128 .f32 := Host.absf main_arg1
  let main_cst_0 : FVec F S_ .f32 := constant S_ .f32 0x7F800000#32
  let main_v5 : FVec F S1792x128 .f32 := broadcastInDim S1792x128 ![] bcast_S_S1792x128 main_cst_0
  let main_v6 : IVec S1792x128 1 := cmpf .olt main_v4 main_v5
  let main_c_1 : IVec S_ 1 := constantI S_ 1 1#1
  let main_v7 : IVec S_ 1 := (fun x v => Host.reduce IntOp.andi x v reducesTo_S1792x128_S_d0_1 h_S_) main_v6 main_c_1
  let main_v8 : IVec S_ 1 := andi main_v3 main_v7
  let main_v9 : FVec F S2x128x256 .f32 := Host.absf main_arg2
  let main_cst_2 : FVec F S_ .f32 := constant S_ .f32 0x7F800000#32
  let main_v10 : FVec F S2x128x256 .f32 := broadcastInDim S2x128x256 ![] bcast_S_S2x128x256 main_cst_2
  let main_v11 : IVec S2x128x256 1 := cmpf .olt main_v9 main_v10
  let main_c_3 : IVec S_ 1 := constantI S_ 1 1#1
  let main_v12 : IVec S_ 1 := (fun x v => Host.reduce IntOp.andi x v reducesTo_S2x128x256_S_d0_1_2 h_S_) main_v11 main_c_3
  let main_v13 : IVec S_ 1 := andi main_v8 main_v12
  let main_v14 : FVec F S2x256x128 .f32 := Host.absf main_arg3
  let main_cst_4 : FVec F S_ .f32 := constant S_ .f32 0x7F800000#32
  let main_v15 : FVec F S2x256x128 .f32 := broadcastInDim S2x256x128 ![] bcast_S_S2x256x128 main_cst_4
  let main_v16 : IVec S2x256x128 1 := cmpf .olt main_v14 main_v15
  fn_part1 (F := F) main_arg4 main_arg5 main_arg6 main_arg7 main_arg8 main_arg9 main_arg10 main_arg11 main_arg12 main_v13 main_v16
-- ==== Kernel.lean ====
abbrev S2x1792x1792 : Shape := ⟨3, ![2, 1792, 1792]⟩
abbrev S1792x128 : Shape := ⟨2, ![1792, 128]⟩
abbrev S2x128x256 : Shape := ⟨3, ![2, 128, 256]⟩
abbrev S2x256x128 : Shape := ⟨3, ![2, 256, 128]⟩
abbrev S2x1x256 : Shape := ⟨3, ![2, 1, 256]⟩
abbrev S2x1x128 : Shape := ⟨3, ![2, 1, 128]⟩
abbrev S128x256 : Shape := ⟨2, ![128, 256]⟩
abbrev S1x256 : Shape := ⟨2, ![1, 256]⟩
abbrev S256x128 : Shape := ⟨2, ![256, 128]⟩
abbrev S1x128 : Shape := ⟨2, ![1, 128]⟩
abbrev S1x1 : Shape := ⟨2, ![1, 1]⟩
abbrev S1x1x128 : Shape := ⟨3, ![1, 1, 128]⟩
abbrev S1x128x256 : Shape := ⟨3, ![1, 128, 256]⟩
abbrev S2x256x1 : Shape := ⟨3, ![2, 256, 1]⟩
abbrev S1792x1 : Shape := ⟨2, ![1792, 1]⟩
abbrev S1x1792x1792 : Shape := ⟨3, ![1, 1792, 1792]⟩
abbrev S1x256x1 : Shape := ⟨3, ![1, 256, 1]⟩
abbrev S1x256x128 : Shape := ⟨3, ![1, 256, 128]⟩
abbrev S1792x256 : Shape := ⟨2, ![1792, 256]⟩
abbrev S1792x1792 : Shape := ⟨2, ![1792, 1792]⟩
abbrev S128x1792 : Shape := ⟨2, ![128, 1792]⟩
abbrev S256x1792 : Shape := ⟨2, ![256, 1792]⟩
abbrev S256x1 : Shape := ⟨2, ![256, 1]⟩
abbrev S1792 : Shape := ⟨1, ![1792]⟩

abbrev nBuf : Space → Nat
  | .hbm => 27
  | .vmem => 19
  | .smem => 0
  | _ => 0

abbrev bufTy : (tb : Table) → Fin (tcTables nBuf tb) → BufTy
  | .hbm, ⟨0, _⟩ => ⟨S2x1792x1792, .f32⟩
  | .hbm, ⟨1, _⟩ => ⟨S1792x128, .f32⟩
  | .hbm, ⟨2, _⟩ => ⟨S2x128x256, .f32⟩
  | .hbm, ⟨3, _⟩ => ⟨S2x256x128, .f32⟩
  | .hbm, ⟨4, _⟩ => ⟨S2x1x256, .f32⟩
  | .hbm, ⟨5, _⟩ => ⟨S2x1x128, .f32⟩
  | .hbm, ⟨6, _⟩ => ⟨S128x256, .f32⟩
  | .hbm, ⟨7, _⟩ => ⟨S2x128x256, .f32⟩
  | .hbm, ⟨8, _⟩ => ⟨S1x256, .f32⟩
  | .hbm, ⟨9, _⟩ => ⟨S256x128, .f32⟩
  | .hbm, ⟨10, _⟩ => ⟨S1x128, .f32⟩
  | .hbm, ⟨11, _⟩ => ⟨S1x128, .f32⟩
  | .hbm, ⟨12, _⟩ => ⟨S1x1, .f32⟩
  | .hbm, ⟨13, _⟩ => ⟨S1x1x128, .f32⟩
  | .hbm, ⟨14, _⟩ => ⟨S1x128, .f32⟩
  | .hbm, ⟨15, _⟩ => ⟨S1x128x256, .f32⟩
  | .hbm, ⟨16, _⟩ => ⟨S128x256, .f32⟩
  | .hbm, ⟨17, _⟩ => ⟨S1x256, .f32⟩
  | .hbm, ⟨18, _⟩ => ⟨S1x256, .f32⟩
  | .hbm, ⟨19, _⟩ => ⟨S1x1x128, .f32⟩
  | .hbm, ⟨20, _⟩ => ⟨S1x128, .f32⟩
  | .hbm, ⟨21, _⟩ => ⟨S1x128x256, .f32⟩
  | .hbm, ⟨22, _⟩ => ⟨S128x256, .f32⟩
  | .hbm, ⟨23, _⟩ => ⟨S1x256, .f32⟩
  | .hbm, ⟨24, _⟩ => ⟨S1x256, .f32⟩
  | .hbm, ⟨25, _⟩ => ⟨S2x256x1, .f32⟩
  | .hbm, ⟨26, _⟩ => ⟨S1792x1, .f32⟩
  | .local _ .vmem, ⟨0, _⟩ => ⟨S1x1792x1792, .f32⟩
  | .local _ .vmem, ⟨1, _⟩ => ⟨S1x1792x1792, .f32⟩
  | .local _ .vmem, ⟨2, _⟩ => ⟨S1792x128, .f32⟩
  | .local _ .vmem, ⟨3, _⟩ => ⟨S1x128x256, .f32⟩
  | .local _ .vmem, ⟨4, _⟩ => ⟨S1x128x256, .f32⟩
  | .local _ .vmem, ⟨5, _⟩ => ⟨S1x256x1, .f32⟩
  | .local _ .vmem, ⟨6, _⟩ => ⟨S1x256x1, .f32⟩
  | .local _ .vmem, ⟨7, _⟩ => ⟨S1x256x128, .f32⟩
  | .local _ .vmem, ⟨8, _⟩ => ⟨S1x256x128, .f32⟩
  | .local _ .vmem, ⟨9, _⟩ => ⟨S1x128x256, .f32⟩
  | .local _ .vmem, ⟨10, _⟩ => ⟨S1x128x256, .f32⟩
  | .local _ .vmem, ⟨11, _⟩ => ⟨S128x256, .f32⟩
  | .local _ .vmem, ⟨12, _⟩ => ⟨S1x256, .f32⟩
  | .local _ .vmem, ⟨13, _⟩ => ⟨S256x128, .f32⟩
  | .local _ .vmem, ⟨14, _⟩ => ⟨S1x128, .f32⟩
  | .local _ .vmem, ⟨15, _⟩ => ⟨S1x128, .f32⟩
  | .local _ .vmem, ⟨16, _⟩ => ⟨S1x1, .f32⟩
  | .local _ .vmem, ⟨17, _⟩ => ⟨S1792x1, .f32⟩
  | .local _ .vmem, ⟨18, _⟩ => ⟨S1792x256, .f32⟩
  | _, _ => ⟨S2x1792x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![2], ![false]⟩

def k0_cond2 (i : grid0.Coords) : BitVec 1 :=
  let arg0 : BitVec 32 := BitVec.ofNat 32 (i 0).val
  let c1_i32 : BitVec 32 := 1#32
  let v28 : BitVec 1 := Scalar.cmpi .eq arg0 c1_i32
  let v29 : BitVec 32 := Scalar.extui v28
  let c0_i32_26 : BitVec 32 := 0#32
  let v30 : BitVec 1 := Scalar.cmpi .ne v29 c0_i32_26
  v30

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1792x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1792x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1792x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

class Facts₀ : Prop where
  slices_S2x1x128_S1x1x128_0_0_0 : S2x1x128.Slices ![0, 0, 0] S1x1x128
  shapeCasts_S1x1x128_S1x128 : S1x1x128.ShapeCasts S1x128
  slices_S2x128x256_S1x128x256_0_0_0 : S2x128x256.Slices ![0, 0, 0] S1x128x256
  shapeCasts_S1x128x256_S128x256 : S1x128x256.ShapeCasts S128x256
  slices_S2x1x128_S1x1x128_1_0_0 : S2x1x128.Slices ![1, 0, 0] S1x1x128
  slices_S2x128x256_S1x128x256_1_0_0 : S2x128x256.Slices ![1, 0, 0] S1x128x256
  transposes_S2x1x256_S2x256x1_0_2_1 : S2x1x256.Transposes [0, 2, 1] S2x256x1
  inb_S1x1792x1792_S1x1792x1792_0_0_0 : ∀ a, (![0, 0, 0] : Fin 3 → Nat) a + S1x1792x1792.size a ≤ S1x1792x1792.size a
  h_S1x1792x1792 : 0 < S1x1792x1792.numel
  shapeCasts_S1x1792x1792_S1792x1792 : S1x1792x1792.ShapeCasts S1792x1792
  inb_S1792x128_S1792x128_0_0 : ∀ a, (![0, 0] : Fin 2 → Nat) a + S1792x128.size a ≤ S1792x128.size a
  h_S1792x128 : 0 < S1792x128.numel
  inb_S1x128x256_S1x128x256_0_0_0 : ∀ a, (![0, 0, 0] : Fin 3 → Nat) a + S1x128x256.size a ≤ S1x128x256.size a
  h_S1x128x256 : 0 < S1x128x256.numel
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  broadcasts_S256x1_S256x1792 : S256x1.Broadcasts S256x1792
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1792x256 : S1x256.Broadcasts S1792x256
  inb_S1792x256_S1792x256_0_0 : ∀ a, (![0, 0] : Fin 2 → Nat) a + S1792x256.size a ≤ S1792x256.size a
  h_S1792x256 : 0 < S1792x256.numel
  shapeCasts_S1792x256_S1792x256 : S1792x256.ShapeCasts S1792x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  broadcasts_S1x128_S1792x128 : S1x128.Broadcasts S1792x128
  reduces_S1792x128_S1792 : S1792x128.Reduces [1] S1792
  shapeCasts_S1792_S1792x1 : S1792.ShapeCasts S1792x1
  inb_S1x1_S1x1_0_0 : ∀ a, (![0, 0] : Fin 2 → Nat) a + S1x1.size a ≤ S1x1.size a
  h_S1x1 : 0 < S1x1.numel
  broadcasts_S1x1_S1792x1 : S1x1.Broadcasts S1792x1
  inb_S1792x1_S1792x1_0_0 : ∀ a, (![0, 0] : Fin 2 → Nat) a + S1792x1.size a ≤ S1792x1.size a
  h_S1792x1 : 0 < S1792x1.numel
  dot_S1x128_S128x256_S1x256_1_0_0_1_n_n_wf : DotDims.WF S1x128 S128x256 S1x256 [1] [0] [0] [1] [] []
  dot_S1792x128_S1792x1792_S128x1792_0_1_1_0_n_n_wf : DotDims.WF S1792x128 S1792x1792 S128x1792 [0] [1] [1] [0] [] []
  dot_S128x256_S128x1792_S256x1792_0_0_1_1_n_n_wf : DotDims.WF S128x256 S128x1792 S256x1792 [0] [0] [1] [1] [] []
  dot_S256x128_S256x1792_S128x1792_0_0_1_1_n_n_wf : DotDims.WF S256x128 S256x1792 S128x1792 [0] [0] [1] [1] [] []
  dot_S128x1792_S1792x1792_S128x1792_1_1_0_0_n_n_wf : DotDims.WF S128x1792 S1792x1792 S128x1792 [1] [1] [0] [0] [] []
  dot_S1792x128_S128x256_S1792x256_1_0_0_1_n_n_wf : DotDims.WF S1792x128 S128x256 S1792x256 [1] [0] [0] [1] [] []
  dot_S128x1792_S128x256_S1792x256_0_0_1_1_n_n_wf : DotDims.WF S128x1792 S128x256 S1792x256 [0] [0] [1] [1] [] []
  dot_S1792x256_S256x128_S1792x128_1_0_0_1_n_n_wf : DotDims.WF S1792x256 S256x128 S1792x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1792x1792.size a ≤ S2x1792x1792.size a
  hwx0_0 : ∀ i : grid0.Coords, EltTy.bits .f32 = 32 ∨ (Rect.block (s := S2x1792x1792) S1x1792x1792.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1792x128.size a ≤ S1792x128.size a
  hwx0_1 : ∀ i : grid0.Coords, EltTy.bits .f32 = 32 ∨ (Rect.block (s := S1792x128) S1792x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x256.size a ≤ S2x128x256.size a
  hwx0_2 : ∀ i : grid0.Coords, EltTy.bits .f32 = 32 ∨ (Rect.block (s := S2x128x256) S1x128x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1.size a ≤ S2x256x1.size a
  hwx0_3 : ∀ i : grid0.Coords, EltTy.bits .f32 = 32 ∨ (Rect.block (s := S2x256x1) S1x256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x128.size a ≤ S2x256x128.size a
  hwx0_4 : ∀ i : grid0.Coords, EltTy.bits .f32 = 32 ∨ (Rect.block (s := S2x256x128) S1x256x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x256.size a ≤ S2x128x256.size a
  hwx0_5 : ∀ i : grid0.Coords, EltTy.bits .f32 = 32 ∨ (Rect.block (s := S2x128x256) S1x128x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x256.size a ≤ S128x256.size a
  hwx0_6 : ∀ i : grid0.Coords, EltTy.bits .f32 = 32 ∨ (Rect.block (s := S128x256) S128x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S256x128.size a
  hwx0_8 : ∀ i : grid0.Coords, EltTy.bits .f32 = 32 ∨ (Rect.block (s := S256x128) S256x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1792x1.size a ≤ S1792x1.size a
  hwx0_12 : ∀ i : grid0.Coords, EltTy.bits .f32 = 32 ∨ (Rect.block (s := S1792x1) S1792x1.size (cc0_transform_12 i) (hinb0_12 i)).WholeWords (EltTy.packing .f32)

variable [Facts₀]

def dot_S1x128_S128x256_S1x256_1_0_0_1_n_n : DotDims S1x128 S128x256 S1x256 where
  lhsContracting := [1]
  rhsContracting := [0]
  lhsNonContracting := [0]
  rhsNonContracting := [1]
  lhsBatch := []
  rhsBatch := []
  wf := dot_S1x128_S128x256_S1x256_1_0_0_1_n_n_wf
def dot_S1792x128_S1792x1792_S128x1792_0_1_1_0_n_n : DotDims S1792x128 S1792x1792 S128x1792 where
  lhsContracting := [0]
  rhsContracting := [1]
  lhsNonContracting := [1]
  rhsNonContracting := [0]
  lhsBatch := []
  rhsBatch := []
  wf := dot_S1792x128_S1792x1792_S128x1792_0_1_1_0_n_n_wf
def dot_S128x256_S128x1792_S256x1792_0_0_1_1_n_n : DotDims S128x256 S128x1792 S256x1792 where
  lhsContracting := [0]
  rhsContracting := [0]
  lhsNonContracting := [1]
  rhsNonContracting := [1]
  lhsBatch := []
  rhsBatch := []
  wf := dot_S128x256_S128x1792_S256x1792_0_0_1_1_n_n_wf
def dot_S256x128_S256x1792_S128x1792_0_0_1_1_n_n : DotDims S256x128 S256x1792 S128x1792 where
  lhsContracting := [0]
  rhsContracting := [0]
  lhsNonContracting := [1]
  rhsNonContracting := [1]
  lhsBatch := []
  rhsBatch := []
  wf := dot_S256x128_S256x1792_S128x1792_0_0_1_1_n_n_wf
def dot_S128x1792_S1792x1792_S128x1792_1_1_0_0_n_n : DotDims S128x1792 S1792x1792 S128x1792 where
  lhsContracting := [1]
  rhsContracting := [1]
  lhsNonContracting := [0]
  rhsNonContracting := [0]
  lhsBatch := []
  rhsBatch := []
  wf := dot_S128x1792_S1792x1792_S128x1792_1_1_0_0_n_n_wf
def dot_S1792x128_S128x256_S1792x256_1_0_0_1_n_n : DotDims S1792x128 S128x256 S1792x256 where
  lhsContracting := [1]
  rhsContracting := [0]
  lhsNonContracting := [0]
  rhsNonContracting := [1]
  lhsBatch := []
  rhsBatch := []
  wf := dot_S1792x128_S128x256_S1792x256_1_0_0_1_n_n_wf
def dot_S128x1792_S128x256_S1792x256_0_0_1_1_n_n : DotDims S128x1792 S128x256 S1792x256 where
  lhsContracting := [0]
  rhsContracting := [0]
  lhsNonContracting := [1]
  rhsNonContracting := [1]
  lhsBatch := []
  rhsBatch := []
  wf := dot_S128x1792_S128x256_S1792x256_0_0_1_1_n_n_wf
def dot_S1792x256_S256x128_S1792x128_1_0_0_1_n_n : DotDims S1792x256 S256x128 S1792x128 where
  lhsContracting := [1]
  rhsContracting := [0]
  lhsNonContracting := [0]
  rhsNonContracting := [1]
  lhsBatch := []
  rhsBatch := []
  wf := dot_S1792x256_S256x128_S1792x128_1_0_0_1_n_n_wf

abbrev win0_0 : Pipeline.Window sig grid0 :=
  Pipeline.Window.ofSpec (Memref.whole main_arg0) S1x1792x1792.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1792x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1x256x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S1x128x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S256x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v13) S1792x1.size cc0_transform_12 reads0_12 true true 1 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev idle0 : Fin 13 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k0_cond2 i == 1#1) | ⟨_ + 13, h⟩ => absurd h (Nat.not_lt.2 (Nat.le_add_left _ _))

class Facts : Prop extends Facts₀ where

variable [Facts]
-- ==== ReferenceIdeal.lean ====
abbrev S2x1792x1792 : Shape := ⟨3, ![2, 1792, 1792]⟩
abbrev S1792x128 : Shape := ⟨2, ![1792, 128]⟩
abbrev S2x128x256 : Shape := ⟨3, ![2, 128, 256]⟩
abbrev S2x256x128 : Shape := ⟨3, ![2, 256, 128]⟩
abbrev S2x1x256 : Shape := ⟨3, ![2, 1, 256]⟩
abbrev S2x1x128 : Shape := ⟨3, ![2, 1, 128]⟩
abbrev S128x256 : Shape := ⟨2, ![128, 256]⟩
abbrev S1x256 : Shape := ⟨2, ![1, 256]⟩
abbrev S256x128 : Shape := ⟨2, ![256, 128]⟩
abbrev S1x128 : Shape := ⟨2, ![1, 128]⟩
abbrev S1x1 : Shape := ⟨2, ![1, 1]⟩
abbrev S1792x1 : Shape := ⟨2, ![1792, 1]⟩
abbrev S1x1792x1792 : Shape := ⟨3, ![1, 1792, 1792]⟩
abbrev S1x128x256 : Shape := ⟨3, ![1, 128, 256]⟩
abbrev S1x1x256 : Shape := ⟨3, ![1, 1, 256]⟩
abbrev S1x256x128 : Shape := ⟨3, ![1, 256, 128]⟩
abbrev S1x1x128 : Shape := ⟨3, ![1, 1, 128]⟩
abbrev S1792x256 : Shape := ⟨2, ![1792, 256]⟩
abbrev S1792x1792 : Shape := ⟨2, ![1792, 1792]⟩
abbrev S1792 : Shape := ⟨1, ![1792]⟩

abbrev nBuf : Space → Nat
  | .hbm => 14
  | .vmem => 21
  | .smem => 0
  | _ => 0

abbrev bufTy : (tb : Table) → Fin (tcTables nBuf tb) → BufTy
  | .hbm, ⟨0, _⟩ => ⟨S2x1792x1792, .f32⟩
  | .hbm, ⟨1, _⟩ => ⟨S1792x128, .f32⟩
  | .hbm, ⟨2, _⟩ => ⟨S2x128x256, .f32⟩
  | .hbm, ⟨3, _⟩ => ⟨S2x256x128, .f32⟩
  | .hbm, ⟨4, _⟩ => ⟨S2x1x256, .f32⟩
  | .hbm, ⟨5, _⟩ => ⟨S2x1x128, .f32⟩
  | .hbm, ⟨6, _⟩ => ⟨S128x256, .f32⟩
  | .hbm, ⟨7, _⟩ => ⟨S2x128x256, .f32⟩
  | .hbm, ⟨8, _⟩ => ⟨S1x256, .f32⟩
  | .hbm, ⟨9, _⟩ => ⟨S256x128, .f32⟩
  | .hbm, ⟨10, _⟩ => ⟨S1x128, .f32⟩
  | .hbm, ⟨11, _⟩ => ⟨S1x128, .f32⟩
  | .hbm, ⟨12, _⟩ => ⟨S1x1, .f32⟩
  | .hbm, ⟨13, _⟩ => ⟨S1792x1, .f32⟩
  | .local _ .vmem, ⟨0, _⟩ => ⟨S1x1792x1792, .f32⟩
  | .local _ .vmem, ⟨1, _⟩ => ⟨S1x1792x1792, .f32⟩
  | .local _ .vmem, ⟨2, _⟩ => ⟨S1792x128, .f32⟩
  | .local _ .vmem, ⟨3, _⟩ => ⟨S1x128x256, .f32⟩
  | .local _ .vmem, ⟨4, _⟩ => ⟨S1x128x256, .f32⟩
  | .local _ .vmem, ⟨5, _⟩ => ⟨S1x1x256, .f32⟩
  | .local _ .vmem, ⟨6, _⟩ => ⟨S1x1x256, .f32⟩
  | .local _ .vmem, ⟨7, _⟩ => ⟨S1x256x128, .f32⟩
  | .local _ .vmem, ⟨8, _⟩ => ⟨S1x256x128, .f32⟩
  | .local _ .vmem, ⟨9, _⟩ => ⟨S1x1x128, .f32⟩
  | .local _ .vmem, ⟨10, _⟩ => ⟨S1x1x128, .f32⟩
  | .local _ .vmem, ⟨11, _⟩ => ⟨S128x256, .f32⟩
  | .local _ .vmem, ⟨12, _⟩ => ⟨S1x128x256, .f32⟩
  | .local _ .vmem, ⟨13, _⟩ => ⟨S1x128x256, .f32⟩
  | .local _ .vmem, ⟨14, _⟩ => ⟨S1x256, .f32⟩
  | .local _ .vmem, ⟨15, _⟩ => ⟨S256x128, .f32⟩
  | .local _ .vmem, ⟨16, _⟩ => ⟨S1x128, .f32⟩
  | .local _ .vmem, ⟨17, _⟩ => ⟨S1x128, .f32⟩
  | .local _ .vmem, ⟨18, _⟩ => ⟨S1x1, .f32⟩
  | .local _ .vmem, ⟨19, _⟩ => ⟨S1792x1, .f32⟩
  | .local _ .vmem, ⟨20, _⟩ => ⟨S1792x256, .f32⟩
  | _, _ => ⟨S2x1792x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![2], ![false]⟩

def k0_cond2 (i : grid0.Coords) : BitVec 1 :=
  let arg0 : BitVec 32 := BitVec.ofNat 32 (i 0).val
  let c1_i32 : BitVec 32 := 1#32
  let v32 : BitVec 1 := Scalar.cmpi .eq arg0 c1_i32
  let v33 : BitVec 32 := Scalar.extui v32
  let c0_i32_29 : BitVec 32 := 0#32
  let v34 : BitVec 1 := Scalar.cmpi .ne v33 c0_i32_29
  v34

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1792x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1792x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1792x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

class Facts₀ : Prop where
  inb_S1x1792x1792_S1x1792x1792_0_0_0 : ∀ a, (![0, 0, 0] : Fin 3 → Nat) a + S1x1792x1792.size a ≤ S1x1792x1792.size a
  h_S1x1792x1792 : 0 < S1x1792x1792.numel
  shapeCasts_S1x1792x1792_S1792x1792 : S1x1792x1792.ShapeCasts S1792x1792
  inb_S1792x128_S1792x128_0_0 : ∀ a, (![0, 0] : Fin 2 → Nat) a + S1792x128.size a ≤ S1792x128.size a
  h_S1792x128 : 0 < S1792x128.numel
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  broadcasts_S1x256_S1792x256 : S1x256.Broadcasts S1792x256
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  broadcasts_S1x128_S1792x128 : S1x128.Broadcasts S1792x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  inb_S1792x256_S1792x256_0_0 : ∀ a, (![0, 0] : Fin 2 → Nat) a + S1792x256.size a ≤ S1792x256.size a
  h_S1792x256 : 0 < S1792x256.numel
  shapeCasts_S1792x256_S1792x256 : S1792x256.ShapeCasts S1792x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  inb_S1x1_S1x1_0_0 : ∀ a, (![0, 0] : Fin 2 → Nat) a + S1x1.size a ≤ S1x1.size a
  h_S1x1 : 0 < S1x1.numel
  reduces_S1792x128_S1792 : S1792x128.Reduces [1] S1792
  shapeCasts_S1792_S1792x1 : S1792.ShapeCasts S1792x1
  broadcasts_S1x1_S1792x1 : S1x1.Broadcasts S1792x1
  inb_S1792x1_S1792x1_0_0 : ∀ a, (![0, 0] : Fin 2 → Nat) a + S1792x1.size a ≤ S1792x1.size a
  h_S1792x1 : 0 < S1792x1.numel
  dot_S1792x128_S128x256_S1792x256_1_0_0_1_n_n_wf : DotDims.WF S1792x128 S128x256 S1792x256 [1] [0] [0] [1] [] []
  dot_S1792x1792_S1792x256_S1792x256_1_0_0_1_n_n_wf : DotDims.WF S1792x1792 S1792x256 S1792x256 [1] [0] [0] [1] [] []
  dot_S1792x256_S256x128_S1792x128_1_0_0_1_n_n_wf : DotDims.WF S1792x256 S256x128 S1792x128 [1] [0] [0] [1] [] []
  dot_S1792x1792_S1792x128_S1792x128_1_0_0_1_n_n_wf : DotDims.WF S1792x1792 S1792x128 S1792x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1792x1792.size a ≤ S2x1792x1792.size a
  hwx0_0 : ∀ i : grid0.Coords, EltTy.bits .f32 = 32 ∨ (Rect.block (s := S2x1792x1792) S1x1792x1792.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1792x128.size a ≤ S1792x128.size a
  hwx0_1 : ∀ i : grid0.Coords, EltTy.bits .f32 = 32 ∨ (Rect.block (s := S1792x128) S1792x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x256.size a ≤ S2x128x256.size a
  hwx0_2 : ∀ i : grid0.Coords, EltTy.bits .f32 = 32 ∨ (Rect.block (s := S2x128x256) S1x128x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S2x1x256.size a
  hwx0_3 : ∀ i : grid0.Coords, EltTy.bits .f32 = 32 ∨ (Rect.block (s := S2x1x256) S1x1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x128.size a ≤ S2x256x128.size a
  hwx0_4 : ∀ i : grid0.Coords, EltTy.bits .f32 = 32 ∨ (Rect.block (s := S2x256x128) S1x256x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S2x1x128.size a
  hwx0_5 : ∀ i : grid0.Coords, EltTy.bits .f32 = 32 ∨ (Rect.block (s := S2x1x128) S1x1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x256.size a ≤ S128x256.size a
  hwx0_6 : ∀ i : grid0.Coords, EltTy.bits .f32 = 32 ∨ (Rect.block (s := S128x256) S128x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128x256.size a ≤ S2x128x256.size a
  hwx0_7 : ∀ i : grid0.Coords, EltTy.bits .f32 = 32 ∨ (Rect.block (s := S2x128x256) S1x128x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S256x128.size a
  hwx0_9 : ∀ i : grid0.Coords, EltTy.bits .f32 = 32 ∨ (Rect.block (s := S256x128) S256x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1792x1.size a ≤ S1792x1.size a
  hwx0_13 : ∀ i : grid0.Coords, EltTy.bits .f32 = 32 ∨ (Rect.block (s := S1792x1) S1792x1.size (cc0_transform_13 i) (hinb0_13 i)).WholeWords (EltTy.packing .f32)

variable [Facts₀]

def dot_S1792x128_S128x256_S1792x256_1_0_0_1_n_n : DotDims S1792x128 S128x256 S1792x256 where
  lhsContracting := [1]
  rhsContracting := [0]
  lhsNonContracting := [0]
  rhsNonContracting := [1]
  lhsBatch := []
  rhsBatch := []
  wf := dot_S1792x128_S128x256_S1792x256_1_0_0_1_n_n_wf
def dot_S1792x1792_S1792x256_S1792x256_1_0_0_1_n_n : DotDims S1792x1792 S1792x256 S1792x256 where
  lhsContracting := [1]
  rhsContracting := [0]
  lhsNonContracting := [0]
  rhsNonContracting := [1]
  lhsBatch := []
  rhsBatch := []
  wf := dot_S1792x1792_S1792x256_S1792x256_1_0_0_1_n_n_wf
def dot_S1792x256_S256x128_S1792x128_1_0_0_1_n_n : DotDims S1792x256 S256x128 S1792x128 where
  lhsContracting := [1]
  rhsContracting := [0]
  lhsNonContracting := [0]
  rhsNonContracting := [1]
  lhsBatch := []
  rhsBatch := []
  wf := dot_S1792x256_S256x128_S1792x128_1_0_0_1_n_n_wf
def dot_S1792x1792_S1792x128_S1792x128_1_0_0_1_n_n : DotDims S1792x1792 S1792x128 S1792x128 where
  lhsContracting := [1]
  rhsContracting := [0]
  lhsNonContracting := [0]
  rhsNonContracting := [1]
  lhsBatch := []
  rhsBatch := []
  wf := dot_S1792x1792_S1792x128_S1792x128_1_0_0_1_n_n_wf

abbrev win0_0 : Pipeline.Window sig grid0 :=
  Pipeline.Window.ofSpec (Memref.whole main_arg0) S1x1792x1792.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1792x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1x256x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x1x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1x128x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S1x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v0) S1792x1.size cc0_transform_13 reads0_13 true true 1 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev idle0 : Fin 14 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun i => !(k0_cond2 i == 1#1) | ⟨_ + 14, h⟩ => absurd h (Nat.not_lt.2 (Nat.le_add_left _ _))

class Facts : Prop extends Facts₀ where

variable [Facts]
-- ==== Proof.KernelAcc.lean ====
/-
  The kernel's accumulator and output, point by point.

  The grid has two points, one per graph type. At the first the body resets the accumulator scratch and adds the first
  graph type's contribution; at the second it adds the second's and writes the MLP head of the finished accumulator to
  the output column. The frame run records, per point, the pieces the body's stores leave; here each piece is read
  back as the pure term of the blocks the body loaded (the stores are whole-buffer, so a piece is its payload), and the
  two points are chained: the output array ends at the head of
  `(reset + contribution₀) + contribution₁`.
-/
import proofs.«132511_g2000706234556652_pallaspilot1_280_5_alg».proof.Proof.Gen.KernelIdeal.Value

noncomputable section

open Idealize.ShloMosaic Idealize.ShloMosaic.TcCoe Idealize.SL.Sem Idealize.ShloMosaic.Tactic
open Idealize.ShloMosaic.Pipeline (Dat)

namespace Cert.KernelIdeal.Acc

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each case's stores leave, as values of the loaded blocks -/

/-- The second point's accumulator: the carried accumulator plus this graph type's contribution. -/
theorem sout_B (c : Dev nD) (i : grid0.Coords) (a1 : Memref sig .tc .vmem S1x1792x1792 .f32) (h1 : a1.IsWhole) (a2 : Memref sig .tc .vmem S1792x128 .f32) (h2 : a2.IsWhole) (a3 : Memref sig .tc .vmem S1x128x256 .f32) (h3 : a3.IsWhole) (a4 : Memref sig .tc .vmem S1x256x1 .f32) (h4 : a4.IsWhole) (a5 : Memref sig .tc .vmem S1x256x128 .f32) (h5 : a5.IsWhole) (a6 : Memref sig .tc .vmem S1x128x256 .f32) (h6 : a6.IsWhole) (a7 : Memref sig .tc .vmem S128x256 .f32) (h7 : a7.IsWhole) (a8 : Memref sig .tc .vmem S1x256 .f32) (h8 : a8.IsWhole) (a9 : Memref sig .tc .vmem S256x128 .f32) (h9 : a9.IsWhole) (a10 : Memref sig .tc .vmem S1x128 .f32) (h10 : a10.IsWhole) (a11 : Memref sig .tc .vmem S1x128 .f32) (h11 : a11.IsWhole) (a12 : Memref sig .tc .vmem S1x1 .f32) (h12 : a12.IsWhole) (a13 : Memref sig .tc .vmem S1792x1 .f32) (h13 : a13.IsWhole) (a14 : Memref sig .tc .vmem S1792x256 .f32) (h14 : a14.IsWhole) (hc0 : ¬cond0_0 i) (hc1 : cond0_1 i)
    (x0 : Vec F S1x1792x1792 .f32) (x1 : Vec F S1792x128 .f32) (x2 : Vec F S1x128x256 .f32) (x3 : Vec F S1x256x1 .f32) (x4 : Vec F S1x256x128 .f32) (x5 : Vec F S1x128x256 .f32) (x6 : Vec F S128x256 .f32) (x7 : Vec F S1x256 .f32) (x8 : Vec F S256x128 .f32) (x9 : Vec F S1x128 .f32) (x10 : Vec F S1x128 .f32) (x11 : Vec F S1x1 .f32) (xs0 : Vec F S1792x256 .f32) :
    sout0_B_0 c i a1 h1 a2 h2 a3 h3 a4 h4 a5 h5 a6 h6 a7 h7 a8 h8 a9 h9 a10 h10 a11 h11 a12 h12 a13 h13 a14 h14 hc0 hc1 x0 x1 x2 x3 x4 x5 x6 x7 x8 x9 x10 x11 xs0 = k0_pay3 x0 x1 x2 x3 x4 xs0 x5 := by
  unfold sout0_B_0
  rw [View.read_writes_eq_canon _ _ _ (scover0_B_0 c i a1 h1 a2 h2 a3 h3 a4 h4 a5 h5 a6 h6 a7 h7 a8 h8 a9 h9 a10 h10 a11 h11 a12 h12 a13 h13 a14 h14 hc0 hc1 x0 x1 x2 x3 x4 x5 x6 x7 x8 x9 x10 x11 xs0)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, h12.read_unread, h14.read_unread,
    View.ld_unit_zero (S := S1x1792x1792) hz3, View.ld_unit_zero (S := S1792x128) hz2, View.ld_unit_zero (S := S1x128x256) hz3, View.ld_unit_zero (S := S1x256x1) hz3, View.ld_unit_zero (S := S1x256x128) hz3, View.ld_unit_zero (S := S128x256) hz2, View.ld_unit_zero (S := S1x256) hz2, View.ld_unit_zero (S := S256x128) hz2, View.ld_unit_zero (S := S1x128) hz2, View.ld_unit_zero (S := S1x1) hz2, View.ld_unit_zero (S := S1792x256) hz2]

/-- The first point's accumulator: the reset value plus the first graph type's contribution (the reset is stored
    whole, read back, and overwritten whole by the sum). -/
theorem sout_A (c : Dev nD) (i : grid0.Coords) (a1 : Memref sig .tc .vmem S1x1792x1792 .f32) (h1 : a1.IsWhole) (a2 : Memref sig .tc .vmem S1792x128 .f32) (h2 : a2.IsWhole) (a3 : Memref sig .tc .vmem S1x128x256 .f32) (h3 : a3.IsWhole) (a4 : Memref sig .tc .vmem S1x256x1 .f32) (h4 : a4.IsWhole) (a5 : Memref sig .tc .vmem S1x256x128 .f32) (h5 : a5.IsWhole) (a6 : Memref sig .tc .vmem S1x128x256 .f32) (h6 : a6.IsWhole) (a7 : Memref sig .tc .vmem S128x256 .f32) (h7 : a7.IsWhole) (a8 : Memref sig .tc .vmem S1x256 .f32) (h8 : a8.IsWhole) (a9 : Memref sig .tc .vmem S256x128 .f32) (h9 : a9.IsWhole) (a10 : Memref sig .tc .vmem S1x128 .f32) (h10 : a10.IsWhole) (a11 : Memref sig .tc .vmem S1x128 .f32) (h11 : a11.IsWhole) (a12 : Memref sig .tc .vmem S1x1 .f32) (h12 : a12.IsWhole) (a13 : Memref sig .tc .vmem S1792x1 .f32) (h13 : a13.IsWhole) (a14 : Memref sig .tc .vmem S1792x256 .f32) (h14 : a14.IsWhole) (hc0 : cond0_0 i) (hc1 : ¬cond0_1 i)
    (x0 : Vec F S1x1792x1792 .f32) (x1 : Vec F S1792x128 .f32) (x2 : Vec F S1x128x256 .f32) (x3 : Vec F S1x256x1 .f32) (x4 : Vec F S1x256x128 .f32) (x5 : Vec F S1x128x256 .f32) (x6 : Vec F S128x256 .f32) (x7 : Vec F S1x256 .f32) (x8 : Vec F S256x128 .f32) (x9 : Vec F S1x128 .f32) (x10 : Vec F S1x128 .f32) (x11 : Vec F S1x1 .f32) :
    sout0_A_0 c i a1 h1 a2 h2 a3 h3 a4 h4 a5 h5 a6 h6 a7 h7 a8 h8 a9 h9 a10 h10 a11 h11 a12 h12 a13 h13 a14 h14 hc0 hc1 x0 x1 x2 x3 x4 x5 x6 x7 x8 x9 x10 x11 = k0_pay3 x0 x1 x2 x3 x4 (k0_pay2 x1 x6 x7) x5 := by
  unfold sout0_A_0
  rw [View.read_writes_eq_canon _ _ _ (scover0_A_0 c i a1 h1 a2 h2 a3 h3 a4 h4 a5 h5 a6 h6 a7 h7 a8 h8 a9 h9 a10 h10 a11 h11 a12 h12 a13 h13 a14 h14 hc0 hc1 x0 x1 x2 x3 x4 x5 x6 x7 x8 x9 x10 x11)]
  unfold kernelRun0_A
  dsimp only
  sl_unfold_words
  rw [View.canon_cons_unit_zero (S := S1792x256) hz2]
  simp only [View.readCov_unit_zero (S := S1792x256) _ hz2, View.readAt_eq_ld, h1.read_unread, h2.read_unread, h3.read_unread, h4.read_unread, h5.read_unread, h6.read_unread, h7.read_unread, h8.read_unread, h9.read_unread, h10.read_unread, h11.read_unread, h12.read_unread, h14.read_unread,
    View.ld_unit_zero (S := S1x1792x1792) hz3, View.ld_unit_zero (S := S1792x128) hz2, View.ld_unit_zero (S := S1x128x256) hz3, View.ld_unit_zero (S := S1x256x1) hz3, View.ld_unit_zero (S := S1x256x128) hz3, View.ld_unit_zero (S := S128x256) hz2, View.ld_unit_zero (S := S1x256) hz2, View.ld_unit_zero (S := S256x128) hz2, View.ld_unit_zero (S := S1x128) hz2, View.ld_unit_zero (S := S1x1) hz2, View.ld_unit_zero (S := S1792x256) hz2]

/-- The second point's output column: the head of that point's accumulator (stored whole, then read back). -/
theorem out_B (c : Dev nD) (i : grid0.Coords) (a1 : Memref sig .tc .vmem S1x1792x1792 .f32) (h1 : a1.IsWhole) (a2 : Memref sig .tc .vmem S1792x128 .f32) (h2 : a2.IsWhole) (a3 : Memref sig .tc .vmem S1x128x256 .f32) (h3 : a3.IsWhole) (a4 : Memref sig .tc .vmem S1x256x1 .f32) (h4 : a4.IsWhole) (a5 : Memref sig .tc .vmem S1x256x128 .f32) (h5 : a5.IsWhole) (a6 : Memref sig .tc .vmem S1x128x256 .f32) (h6 : a6.IsWhole) (a7 : Memref sig .tc .vmem S128x256 .f32) (h7 : a7.IsWhole) (a8 : Memref sig .tc .vmem S1x256 .f32) (h8 : a8.IsWhole) (a9 : Memref sig .tc .vmem S256x128 .f32) (h9 : a9.IsWhole) (a10 : Memref sig .tc .vmem S1x128 .f32) (h10 : a10.IsWhole) (a11 : Memref sig .tc .vmem S1x128 .f32) (h11 : a11.IsWhole) (a12 : Memref sig .tc .vmem S1x1 .f32) (h12 : a12.IsWhole) (a13 : Memref sig .tc .vmem S1792x1 .f32) (h13 : a13.IsWhole) (a14 : Memref sig .tc .vmem S1792x256 .f32) (h14 : a14.IsWhole) (hc0 : ¬cond0_0 i) (hc1 : cond0_1 i)
    (x0 : Vec F S1x1792x1792 .f32) (x1 : Vec F S1792x128 .f32) (x2 : Vec F S1x128x256 .f32) (x3 : Vec F S1x256x1 .f32) (x4 : Vec F S1x256x128 .f32) (x5 : Vec F S1x128x256 .f32) (x6 : Vec F S128x256 .f32) (x7 : Vec F S1x256 .f32) (x8 : Vec F S256x128 .f32) (x9 : Vec F S1x128 .f32) (x10 : Vec F S1x128 .f32) (x11 : Vec F S1x1 .f32) (xs0 : Vec F S1792x256 .f32) :
    out0_B_12 c i a1 h1 a2 h2 a3 h3 a4 h4 a5 h5 a6 h6 a7 h7 a8 h8 a9 h9 a10 h10 a11 h11 a12 h12 a13 h13 a14 h14 hc0 hc1 x0 x1 x2 x3 x4 x5 x6 x7 x8 x9 x10 x11 xs0 = k0_pay1 (k0_pay3 x0 x1 x2 x3 x4 xs0 x5) x8 x9 x10 x11 := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 hc0 hc1 x0 x1 x2 x3 x4 x5 x6 x7 x8 x9 x10 x11 xs0)]
  unfold kernelRun0_B
  dsimp only
  sl_unfold_words
  rw [View.canon_unit_zero hz2]
  simp only [View.readCov_unit_zero (S := S1792x256) _ hz2, View.readAt_eq_ld, h1.read_unread, h2.read_unread, h3.read_unread, h4.read_unread, h5.read_unread, h6.read_unread, h7.read_unread, h8.read_unread, h9.read_unread, h10.read_unread, h11.read_unread, h12.read_unread, h14.read_unread,
    View.ld_unit_zero (S := S1x1792x1792) hz3, View.ld_unit_zero (S := S1792x128) hz2, View.ld_unit_zero (S := S1x128x256) hz3, View.ld_unit_zero (S := S1x256x1) hz3, View.ld_unit_zero (S := S1x256x128) hz3, View.ld_unit_zero (S := S128x256) hz2, View.ld_unit_zero (S := S1x256) hz2, View.ld_unit_zero (S := S256x128) hz2, View.ld_unit_zero (S := S1x128) hz2, View.ld_unit_zero (S := S1x1) hz2, View.ld_unit_zero (S := S1792x256) hz2]

/-! ## The two points chained -/

variable (m : (ℓ : Loc nD τ sig) → Buf (Elt F) ℓ) (ρ : Dev nD → PrngReg)

/-- The accumulator after the first point: the reset value plus the first graph type's contribution, of the first
    point's blocks. -/
def acc0 (c : Dev nD) : Vec F S1792x256 .f32 :=
  k0_pay3 (iblk m c 0 t0_0) (iblk m c 1 t0_0) (iblk m c 2 t0_0) (iblk m c 3 t0_0) (iblk m c 4 t0_0)
    (k0_pay2 (iblk m c 1 t0_0) (iblk m c 6 t0_0) (iblk m c 7 t0_0)) (iblk m c 5 t0_0)

/-- The accumulator after the second point: the first point's plus the second graph type's contribution. -/
def acc1 (c : Dev nD) : Vec F S1792x256 .f32 :=
  k0_pay3 (iblk m c 0 t0_1) (iblk m c 1 t0_1) (iblk m c 2 t0_1) (iblk m c 3 t0_1) (iblk m c 4 t0_1) (acc0 m c) (iblk m c 5 t0_1)

/-- The output column: the MLP head of the finished accumulator. -/
def result (c : Dev nD) : Buf (Elt F) ((c : Thread nD τ).loc main_v13) :=
  k0_pay1 (acc1 m c) (iblk m c 8 t0_1) (iblk m c 9 t0_1) (iblk m c 10 t0_1) (iblk m c 11 t0_1)

theorem outs0 (c : Dev nD) : (outsAt0 m c t0_0.val t0_0.isLt).2 = acc0 m c := by
  rw [outsAt0_A m c t0_0 rfl (by decide)]
  dsimp only
  exact sout_A c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (ms0_11 t0_0) (hs0_11 t0_0) (ms0_12 t0_0) (hs0_12 t0_0) scM0_0 (Memref.isWhole_whole _) _ _ (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0)

theorem outs1_acc (c : Dev nD) : (outsAt0 m c t0_1.val t0_1.isLt).2 = acc1 m c := by
  rw [outsAt0_B m c t0_1 (by decide) rfl]
  dsimp only
  rw [show (outsAt0 m c (t0_1.val - 1) (Nat.lt_of_le_of_lt (Nat.sub_le _ _) t0_1.isLt)).2 = acc0 m c from outs0 m c]
  exact sout_B c (grid0.coords t0_1) (ms0_0 t0_1) (hs0_0 t0_1) (ms0_1 t0_1) (hs0_1 t0_1) (ms0_2 t0_1) (hs0_2 t0_1) (ms0_3 t0_1) (hs0_3 t0_1) (ms0_4 t0_1) (hs0_4 t0_1) (ms0_5 t0_1) (hs0_5 t0_1) (ms0_6 t0_1) (hs0_6 t0_1) (ms0_7 t0_1) (hs0_7 t0_1) (ms0_8 t0_1) (hs0_8 t0_1) (ms0_9 t0_1) (hs0_9 t0_1) (ms0_10 t0_1) (hs0_10 t0_1) (ms0_11 t0_1) (hs0_11 t0_1) (ms0_12 t0_1) (hs0_12 t0_1) scM0_0 (Memref.isWhole_whole _) _ _ (iblk m c 0 t0_1) (iblk m c 1 t0_1) (iblk m c 2 t0_1) (iblk m c 3 t0_1) (iblk m c 4 t0_1) (iblk m c 5 t0_1) (iblk m c 6 t0_1) (iblk m c 7 t0_1) (iblk m c 8 t0_1) (iblk m c 9 t0_1) (iblk m c 10 t0_1) (iblk m c 11 t0_1) (acc0 m c)

theorem outs1 (c : Dev nD) : (outsAt0 m c t0_1.val t0_1.isLt).1 = result m c := by
  rw [outsAt0_B m c t0_1 (by decide) rfl]
  dsimp only
  rw [show (outsAt0 m c (t0_1.val - 1) (Nat.lt_of_le_of_lt (Nat.sub_le _ _) t0_1.isLt)).2 = acc0 m c from outs0 m c]
  exact out_B c (grid0.coords t0_1) (ms0_0 t0_1) (hs0_0 t0_1) (ms0_1 t0_1) (hs0_1 t0_1) (ms0_2 t0_1) (hs0_2 t0_1) (ms0_3 t0_1) (hs0_3 t0_1) (ms0_4 t0_1) (hs0_4 t0_1) (ms0_5 t0_1) (hs0_5 t0_1) (ms0_6 t0_1) (hs0_6 t0_1) (ms0_7 t0_1) (hs0_7 t0_1) (ms0_8 t0_1) (hs0_8 t0_1) (ms0_9 t0_1) (hs0_9 t0_1) (ms0_10 t0_1) (hs0_10 t0_1) (ms0_11 t0_1) (hs0_11 t0_1) (ms0_12 t0_1) (hs0_12 t0_1) scM0_0 (Memref.isWhole_whole _) _ _ (iblk m c 0 t0_1) (iblk m c 1 t0_1) (iblk m c 2 t0_1) (iblk m c 3 t0_1) (iblk m c 4 t0_1) (iblk m c 5 t0_1) (iblk m c 6 t0_1) (iblk m c 7 t0_1) (iblk m c 8 t0_1) (iblk m c 9 t0_1) (iblk m c 10 t0_1) (iblk m c 11 t0_1) (acc0 m c)

/-! ## The output array after the run -/

/-- The one write-back, at the second point, writes the output column: the window's block is the whole `[1792, 1]`
    array read through zero offsets. -/
theorem flushed_eq (c : Dev nD) (t : Fin cfg0.N) (hf : (cfg0.win 12).flush t = true) :
    (dats m 0 c).flushed 12 t = ((cfg0.win 12).blk t).view.read (Elt F) (result m c) := by
  have hN : cfg0.N = 2 := N_0
  have h1 : t.val = 1 := by have := (flush0_12 t).mp hf; have := t.isLt; omega
  obtain rfl : t = t0_1 := Fin.ext h1
  rw [Value.flushed12, outs1]
  have hz' : (fun a => win0_12.index t0_1 a * main_v13.ty.shape.size a) = fun _ => 0 := funext fun a => by fin_cases a <;> decide
  exact (Memref.read_access_unit_zero (Elt F) main_v13 hz' (fun a => by rw [congrFun hz' a]; simp) (result m c)).symm

/-- So the output array ends holding the output column: the second point's block covers it. -/
theorem final (c : Dev nD) : (dats m 0 c).arrAt 12 cfg0.N = result m c :=
  (dats m 0 c).arrAt_eq_of_cover 12 (result m c) (flushed_eq m c) fun i =>
    ⟨t0_1, (flush0_12 t0_1).mpr rfl, by
      show i ∈ ((View.whole main_v13).slice (win0_12.rect t0_1)).set
      rw [View.set_slice_whole, Rect.mem_set_unit]
      intro a
      have h0 : (i 0 : Nat) < 1792 := (i 0).isLt
      have h1 : (i 1 : Nat) < 1 := (i 1).isLt
      match a with
      | ⟨0, _⟩ =>
        show win0_12.index t0_1 0 * win0_12.size 0 ≤ (i 0 : Nat) ∧ (i 0 : Nat) < win0_12.index t0_1 0 * win0_12.size 0 + win0_12.xsize (grid0.coords t0_1) 0
        rw [show win0_12.index t0_1 0 * win0_12.size 0 = 0 from by decide +kernel, show win0_12.xsize (grid0.coords t0_1) 0 = 1792 from by decide +kernel]; omega
      | ⟨1, _⟩ =>
        show win0_12.index t0_1 1 * win0_12.size 1 ≤ (i 1 : Nat) ∧ (i 1 : Nat) < win0_12.index t0_1 1 * win0_12.size 1 + win0_12.xsize (grid0.coords t0_1) 1
        rw [show win0_12.index t0_1 1 * win0_12.size 1 = 0 from by decide +kernel, show win0_12.xsize (grid0.coords t0_1) 1 = 1 from by decide +kernel]; omega⟩

/-- The run, read: the output array at the output column, every argument unchanged. -/
theorem run : θ_run defs (onTc (τ := τ) (main (F := F))) ⟨m, fun _ => 0, ρ⟩ fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final m c), (h c).2⟩) (Value.run_blocks m ρ)

end Cert.KernelIdeal.Acc

end
-- ==== Proof.LibContract2.lean ====
/-
  A matrix product with ONE contracted axis and no batch axes, read at an index.

  At the exact (extended-real) values a `tpu.matmul` into a zero accumulator, and the host's `dot_general`, are the sum over
  the contraction index of the products of the operands' entries. The contraction index of a one-axis contraction is a
  single coordinate, so that sum is a sum over `Fin K`; and with both operands and the result of rank 2 the operand
  entries are named by the result's two coordinates and the summation coordinate. There are four ways to place the
  contracted axis (first or second axis of either operand); each gets its reading:

    nn   out[p, q] = ∑ k, l[p, k] · r[k, q]        (contract the second axis of l with the first of r)
    tn   out[p, q] = ∑ k, l[k, p] · r[k, q]        (first with first)
    nt   out[p, q] = ∑ k, l[p, k] · r[q, k]        (second with second)
    tt   out[p, q] = ∑ k, l[k, p] · r[q, k]        (first of l with second of r)

  The dimension numbers enter only through equations between lists, which a printed record satisfies by `rfl`.
-/
import Idealize.ShloMosaic.Lib.ValueIdx
import Idealize.ShloMosaic.PureOps.Ideal.Laws

noncomputable section

open scoped BigOperators

namespace LibContract2

open Idealize.ShloMosaic Idealize.ShloMosaic.ValueIdx

variable {sl sr so : Shape}

/-- An index read at two positions that are the same number gives the same value. -/
theorem idx_val_congr {s : Shape} (j : s.Idx) (p q : ℕ) (hp : p < s.rank) (hq : q < s.rank) (h : p = q) :
    (j ⟨p, hp⟩).val = (j ⟨q, hq⟩).val := by subst h; rfl

/-- With no batch axes, a free axis of the left operand reads the result index at that axis's place among the left
    operand's free axes. -/
theorem lhsIdx_free_val (D : DotDims sl sr so) (hb : D.lhsBatch = []) (a : Fin sl.rank) (hn : a ∈ D.lhsNonContracting)
    (p : ℕ) (hp : p < so.rank) (hidx : D.lhsNonContracting.idxOf a = p) (j : so.Idx) (q : D.contr.Idx) :
    (D.lhsIdx j q a).val = (j ⟨p, hp⟩).val := by
  unfold DotDims.lhsIdx
  rw [dif_neg (by rw [hb]; exact List.not_mem_nil), dif_pos hn]
  simp only [Fin.val_cast]
  exact idx_val_congr j _ _ _ _ (by rw [hb, hidx, List.length_nil, Nat.zero_add])

/-- With no batch axes, a free axis of the right operand reads the result index after the left operand's free axes, at
    that axis's place among the right operand's free axes. -/
theorem rhsIdx_free_val (D : DotDims sl sr so) (hlb : D.lhsBatch = []) (hrb : D.rhsBatch = []) (a : Fin sr.rank)
    (hn : a ∈ D.rhsNonContracting) (p : ℕ) (hp : p < so.rank)
    (hidx : D.lhsNonContracting.length + D.rhsNonContracting.idxOf a = p) (j : so.Idx) (q : D.contr.Idx) :
    (D.rhsIdx j q a).val = (j ⟨p, hp⟩).val := by
  unfold DotDims.rhsIdx
  rw [dif_neg (by rw [hrb]; exact List.not_mem_nil), dif_pos hn]
  simp only [Fin.val_cast]
  exact idx_val_congr j _ _ _ _ (by rw [hlb, List.length_nil, Nat.zero_add, hidx])

/-- The contraction's sum re-indexed by its one coordinate: if at every contraction position the operand indices are,
    coordinate by coordinate, the named ones, the sum is the `Fin K`-indexed sum over the named entries. -/
theorem sum_contr1 (D : DotDims sl sr so) (K : ℕ) (hr : D.contr.rank = 1) (hs : D.contr.size ⟨0, by omega⟩ = K)
    (l : sl.Idx → EReal) (r : sr.Idx → EReal) (j : so.Idx) (li : Fin K → sl.Idx) (ri : Fin K → sr.Idx)
    (hl : ∀ (k : Fin K) (q : D.contr.Idx), (q ⟨0, by omega⟩).val = k.val → ∀ a, (D.lhsIdx j q a).val = (li k a).val)
    (hr' : ∀ (k : Fin K) (q : D.contr.Idx), (q ⟨0, by omega⟩).val = k.val → ∀ a, (D.rhsIdx j q a).val = (ri k a).val) :
    ∑ q : D.contr.Idx, l (D.lhsIdx j q) * r (D.rhsIdx j q) = ∑ k : Fin K, l (li k) * r (ri k) := by
  rw [← Equiv.sum_comp (contrEquiv1 D K hr hs).symm]
  refine Finset.sum_congr rfl fun k _ => ?_
  have hk := contrEquiv1_symm_val D K hr hs k
  rw [show D.lhsIdx j ((contrEquiv1 D K hr hs).symm k) = li k from funext fun a => Fin.ext (hl k _ hk a),
    show D.rhsIdx j ((contrEquiv1 D K hr hs).symm k) = ri k from funext fun a => Fin.ext (hr' k _ hk a)]

/-! ## Rank-2 operands: the four placements of the contracted axis -/

section Rank2

variable {M K N : ℕ} {φ₁ φ₂ : FTy}

/-- out[p, q] = ∑ k, l[p, k] · r[k, q] (the second axis of l against the first of r): the contraction's sum. -/
theorem sum_nn (D : DotDims ⟨2, ![M, K]⟩ ⟨2, ![K, N]⟩ ⟨2, ![M, N]⟩)
    (hlc : D.lhsContracting = [1]) (hrc : D.rhsContracting = [0]) (hlb : D.lhsBatch = []) (hrb : D.rhsBatch = [])
    (hln : D.lhsNonContracting = [0]) (hrn : D.rhsNonContracting = [1])
    (l : (⟨2, ![M, K]⟩ : Shape).Idx → EReal) (r : (⟨2, ![K, N]⟩ : Shape).Idx → EReal) (p : Fin M) (q : Fin N) :
    ∑ c : D.contr.Idx, l (D.lhsIdx (ix2 p q) c) * r (D.rhsIdx (ix2 p q) c) = ∑ k : Fin K, l (ix2 p k) * r (ix2 k q) := by
  have hr : D.contr.rank = 1 := by rw [D.rank_contr, hlc]; rfl
  have hs : D.contr.size ⟨0, by omega⟩ = K := by
    rw [D.size_contr 0 (by rw [hlc]; exact Nat.one_pos)]
    simp [hlc]
  refine sum_contr1 D K hr hs l r (ix2 p q) (fun k => ix2 p k) (fun k => ix2 k q) (fun k c hk a => ?_) (fun k c hk a => ?_)
  · match a with
    | ⟨0, _⟩ => exact lhsIdx_free_val D hlb 0 (by rw [hln]; exact List.mem_singleton.mpr rfl) 0 Nat.zero_lt_two (by rw [hln]; simp) _ c
    | ⟨1, _⟩ => exact (D.lhsIdx_val_of_single hlc _ c).trans hk
  · match a with
    | ⟨0, _⟩ => exact (D.rhsIdx_val_of_single hrc _ c).trans hk
    | ⟨1, _⟩ => exact rhsIdx_free_val D hlb hrb 1 (by rw [hrn]; exact List.mem_singleton.mpr rfl) 1 Nat.one_lt_two (by rw [hln, hrn]; simp) _ c

/-- out[p, q] = ∑ k, l[p, k] · r[k, q] (the second axis of l against the first of r): a `tpu.matmul` into the zero accumulator. -/
theorem matmul_nn (D : DotDims ⟨2, ![M, K]⟩ ⟨2, ![K, N]⟩ ⟨2, ![M, N]⟩)
    (hlc : D.lhsContracting = [1]) (hrc : D.rhsContracting = [0]) (hlb : D.lhsBatch = []) (hrb : D.rhsBatch = [])
    (hln : D.lhsNonContracting = [0]) (hrn : D.rhsNonContracting = [1])
    (prec : Option ContractPrecision) (l : FVec Ideal ⟨2, ![M, K]⟩ φ₁) (r : FVec Ideal ⟨2, ![K, N]⟩ φ₂) (p : Fin M) (q : Fin N) :
    matmul D prec l r (constant (F := Ideal) ⟨2, ![M, N]⟩ .f32 0x00000000#32) (ix2 p q) = ∑ k : Fin K, l (ix2 p k) * r (ix2 k q) :=
  (Ideal.matmul_constant_zero_apply D prec l r (ix2 p q)).trans (sum_nn D hlc hrc hlb hrb hln hrn l r p q)

/-- out[p, q] = ∑ k, l[p, k] · r[k, q] (the second axis of l against the first of r): the host's `dot_general`. -/
theorem dot_nn (D : DotDims ⟨2, ![M, K]⟩ ⟨2, ![K, N]⟩ ⟨2, ![M, N]⟩)
    (hlc : D.lhsContracting = [1]) (hrc : D.rhsContracting = [0]) (hlb : D.lhsBatch = []) (hrb : D.rhsBatch = [])
    (hln : D.lhsNonContracting = [0]) (hrn : D.rhsNonContracting = [1])
    (prec : Option ContractPrecision) (l : FVec Ideal ⟨2, ![M, K]⟩ φ₁) (r : FVec Ideal ⟨2, ![K, N]⟩ φ₂) (p : Fin M) (q : Fin N) :
    Host.dotGeneral D prec l r (ix2 p q) = ∑ k : Fin K, l (ix2 p k) * r (ix2 k q) :=
  (Ideal.dotGeneral_apply D prec .single l r (ix2 p q)).trans (sum_nn D hlc hrc hlb hrb hln hrn l r p q)

/-- out[p, q] = ∑ k, l[k, p] · r[k, q] (the first axis of l against the first of r): the contraction's sum. -/
theorem sum_tn (D : DotDims ⟨2, ![K, M]⟩ ⟨2, ![K, N]⟩ ⟨2, ![M, N]⟩)
    (hlc : D.lhsContracting = [0]) (hrc : D.rhsContracting = [0]) (hlb : D.lhsBatch = []) (hrb : D.rhsBatch = [])
    (hln : D.lhsNonContracting = [1]) (hrn : D.rhsNonContracting = [1])
    (l : (⟨2, ![K, M]⟩ : Shape).Idx → EReal) (r : (⟨2, ![K, N]⟩ : Shape).Idx → EReal) (p : Fin M) (q : Fin N) :
    ∑ c : D.contr.Idx, l (D.lhsIdx (ix2 p q) c) * r (D.rhsIdx (ix2 p q) c) = ∑ k : Fin K, l (ix2 k p) * r (ix2 k q) := by
  have hr : D.contr.rank = 1 := by rw [D.rank_contr, hlc]; rfl
  have hs : D.contr.size ⟨0, by omega⟩ = K := by
    rw [D.size_contr 0 (by rw [hlc]; exact Nat.one_pos)]
    simp [hlc]
  refine sum_contr1 D K hr hs l r (ix2 p q) (fun k => ix2 k p) (fun k => ix2 k q) (fun k c hk a => ?_) (fun k c hk a => ?_)
  · match a with
    | ⟨0, _⟩ => exact (D.lhsIdx_val_of_single hlc _ c).trans hk
    | ⟨1, _⟩ => exact lhsIdx_free_val D hlb 1 (by rw [hln]; exact List.mem_singleton.mpr rfl) 0 Nat.zero_lt_two (by rw [hln]; simp) _ c
  · match a with
    | ⟨0, _⟩ => exact (D.rhsIdx_val_of_single hrc _ c).trans hk
    | ⟨1, _⟩ => exact rhsIdx_free_val D hlb hrb 1 (by rw [hrn]; exact List.mem_singleton.mpr rfl) 1 Nat.one_lt_two (by rw [hln, hrn]; simp) _ c

/-- out[p, q] = ∑ k, l[k, p] · r[k, q] (the first axis of l against the first of r): a `tpu.matmul` into the zero accumulator. -/
theorem matmul_tn (D : DotDims ⟨2, ![K, M]⟩ ⟨2, ![K, N]⟩ ⟨2, ![M, N]⟩)
    (hlc : D.lhsContracting = [0]) (hrc : D.rhsContracting = [0]) (hlb : D.lhsBatch = []) (hrb : D.rhsBatch = [])
    (hln : D.lhsNonContracting = [1]) (hrn : D.rhsNonContracting = [1])
    (prec : Option ContractPrecision) (l : FVec Ideal ⟨2, ![K, M]⟩ φ₁) (r : FVec Ideal ⟨2, ![K, N]⟩ φ₂) (p : Fin M) (q : Fin N) :
    matmul D prec l r (constant (F := Ideal) ⟨2, ![M, N]⟩ .f32 0x00000000#32) (ix2 p q) = ∑ k : Fin K, l (ix2 k p) * r (ix2 k q) :=
  (Ideal.matmul_constant_zero_apply D prec l r (ix2 p q)).trans (sum_tn D hlc hrc hlb hrb hln hrn l r p q)

/-- out[p, q] = ∑ k, l[k, p] · r[k, q] (the first axis of l against the first of r): the host's `dot_general`. -/
theorem dot_tn (D : DotDims ⟨2, ![K, M]⟩ ⟨2, ![K, N]⟩ ⟨2, ![M, N]⟩)
    (hlc : D.lhsContracting = [0]) (hrc : D.rhsContracting = [0]) (hlb : D.lhsBatch = []) (hrb : D.rhsBatch = [])
    (hln : D.lhsNonContracting = [1]) (hrn : D.rhsNonContracting = [1])
    (prec : Option ContractPrecision) (l : FVec Ideal ⟨2, ![K, M]⟩ φ₁) (r : FVec Ideal ⟨2, ![K, N]⟩ φ₂) (p : Fin M) (q : Fin N) :
    Host.dotGeneral D prec l r (ix2 p q) = ∑ k : Fin K, l (ix2 k p) * r (ix2 k q) :=
  (Ideal.dotGeneral_apply D prec .single l r (ix2 p q)).trans (sum_tn D hlc hrc hlb hrb hln hrn l r p q)

/-- out[p, q] = ∑ k, l[p, k] · r[q, k] (the second axis of l against the second of r): the contraction's sum. -/
theorem sum_nt (D : DotDims ⟨2, ![M, K]⟩ ⟨2, ![N, K]⟩ ⟨2, ![M, N]⟩)
    (hlc : D.lhsContracting = [1]) (hrc : D.rhsContracting = [1]) (hlb : D.lhsBatch = []) (hrb : D.rhsBatch = [])
    (hln : D.lhsNonContracting = [0]) (hrn : D.rhsNonContracting = [0])
    (l : (⟨2, ![M, K]⟩ : Shape).Idx → EReal) (r : (⟨2, ![N, K]⟩ : Shape).Idx → EReal) (p : Fin M) (q : Fin N) :
    ∑ c : D.contr.Idx, l (D.lhsIdx (ix2 p q) c) * r (D.rhsIdx (ix2 p q) c) = ∑ k : Fin K, l (ix2 p k) * r (ix2 q k) := by
  have hr : D.contr.rank = 1 := by rw [D.rank_contr, hlc]; rfl
  have hs : D.contr.size ⟨0, by omega⟩ = K := by
    rw [D.size_contr 0 (by rw [hlc]; exact Nat.one_pos)]
    simp [hlc]
  refine sum_contr1 D K hr hs l r (ix2 p q) (fun k => ix2 p k) (fun k => ix2 q k) (fun k c hk a => ?_) (fun k c hk a => ?_)
  · match a with
    | ⟨0, _⟩ => exact lhsIdx_free_val D hlb 0 (by rw [hln]; exact List.mem_singleton.mpr rfl) 0 Nat.zero_lt_two (by rw [hln]; simp) _ c
    | ⟨1, _⟩ => exact (D.lhsIdx_val_of_single hlc _ c).trans hk
  · match a with
    | ⟨0, _⟩ => exact rhsIdx_free_val D hlb hrb 0 (by rw [hrn]; exact List.mem_singleton.mpr rfl) 1 Nat.one_lt_two (by rw [hln, hrn]; simp) _ c
    | ⟨1, _⟩ => exact (D.rhsIdx_val_of_single hrc _ c).trans hk

/-- out[p, q] = ∑ k, l[p, k] · r[q, k] (the second axis of l against the second of r): a `tpu.matmul` into the zero accumulator. -/
theorem matmul_nt (D : DotDims ⟨2, ![M, K]⟩ ⟨2, ![N, K]⟩ ⟨2, ![M, N]⟩)
    (hlc : D.lhsContracting = [1]) (hrc : D.rhsContracting = [1]) (hlb : D.lhsBatch = []) (hrb : D.rhsBatch = [])
    (hln : D.lhsNonContracting = [0]) (hrn : D.rhsNonContracting = [0])
    (prec : Option ContractPrecision) (l : FVec Ideal ⟨2, ![M, K]⟩ φ₁) (r : FVec Ideal ⟨2, ![N, K]⟩ φ₂) (p : Fin M) (q : Fin N) :
    matmul D prec l r (constant (F := Ideal) ⟨2, ![M, N]⟩ .f32 0x00000000#32) (ix2 p q) = ∑ k : Fin K, l (ix2 p k) * r (ix2 q k) :=
  (Ideal.matmul_constant_zero_apply D prec l r (ix2 p q)).trans (sum_nt D hlc hrc hlb hrb hln hrn l r p q)

/-- out[p, q] = ∑ k, l[p, k] · r[q, k] (the second axis of l against the second of r): the host's `dot_general`. -/
theorem dot_nt (D : DotDims ⟨2, ![M, K]⟩ ⟨2, ![N, K]⟩ ⟨2, ![M, N]⟩)
    (hlc : D.lhsContracting = [1]) (hrc : D.rhsContracting = [1]) (hlb : D.lhsBatch = []) (hrb : D.rhsBatch = [])
    (hln : D.lhsNonContracting = [0]) (hrn : D.rhsNonContracting = [0])
    (prec : Option ContractPrecision) (l : FVec Ideal ⟨2, ![M, K]⟩ φ₁) (r : FVec Ideal ⟨2, ![N, K]⟩ φ₂) (p : Fin M) (q : Fin N) :
    Host.dotGeneral D prec l r (ix2 p q) = ∑ k : Fin K, l (ix2 p k) * r (ix2 q k) :=
  (Ideal.dotGeneral_apply D prec .single l r (ix2 p q)).trans (sum_nt D hlc hrc hlb hrb hln hrn l r p q)

/-- out[p, q] = ∑ k, l[k, p] · r[q, k] (the first axis of l against the second of r): the contraction's sum. -/
theorem sum_tt (D : DotDims ⟨2, ![K, M]⟩ ⟨2, ![N, K]⟩ ⟨2, ![M, N]⟩)
    (hlc : D.lhsContracting = [0]) (hrc : D.rhsContracting = [1]) (hlb : D.lhsBatch = []) (hrb : D.rhsBatch = [])
    (hln : D.lhsNonContracting = [1]) (hrn : D.rhsNonContracting = [0])
    (l : (⟨2, ![K, M]⟩ : Shape).Idx → EReal) (r : (⟨2, ![N, K]⟩ : Shape).Idx → EReal) (p : Fin M) (q : Fin N) :
    ∑ c : D.contr.Idx, l (D.lhsIdx (ix2 p q) c) * r (D.rhsIdx (ix2 p q) c) = ∑ k : Fin K, l (ix2 k p) * r (ix2 q k) := by
  have hr : D.contr.rank = 1 := by rw [D.rank_contr, hlc]; rfl
  have hs : D.contr.size ⟨0, by omega⟩ = K := by
    rw [D.size_contr 0 (by rw [hlc]; exact Nat.one_pos)]
    simp [hlc]
  refine sum_contr1 D K hr hs l r (ix2 p q) (fun k => ix2 k p) (fun k => ix2 q k) (fun k c hk a => ?_) (fun k c hk a => ?_)
  · match a with
    | ⟨0, _⟩ => exact (D.lhsIdx_val_of_single hlc _ c).trans hk
    | ⟨1, _⟩ => exact lhsIdx_free_val D hlb 1 (by rw [hln]; exact List.mem_singleton.mpr rfl) 0 Nat.zero_lt_two (by rw [hln]; simp) _ c
  · match a with
    | ⟨0, _⟩ => exact rhsIdx_free_val D hlb hrb 0 (by rw [hrn]; exact List.mem_singleton.mpr rfl) 1 Nat.one_lt_two (by rw [hln, hrn]; simp) _ c
    | ⟨1, _⟩ => exact (D.rhsIdx_val_of_single hrc _ c).trans hk

/-- out[p, q] = ∑ k, l[k, p] · r[q, k] (the first axis of l against the second of r): a `tpu.matmul` into the zero accumulator. -/
theorem matmul_tt (D : DotDims ⟨2, ![K, M]⟩ ⟨2, ![N, K]⟩ ⟨2, ![M, N]⟩)
    (hlc : D.lhsContracting = [0]) (hrc : D.rhsContracting = [1]) (hlb : D.lhsBatch = []) (hrb : D.rhsBatch = [])
    (hln : D.lhsNonContracting = [1]) (hrn : D.rhsNonContracting = [0])
    (prec : Option ContractPrecision) (l : FVec Ideal ⟨2, ![K, M]⟩ φ₁) (r : FVec Ideal ⟨2, ![N, K]⟩ φ₂) (p : Fin M) (q : Fin N) :
    matmul D prec l r (constant (F := Ideal) ⟨2, ![M, N]⟩ .f32 0x00000000#32) (ix2 p q) = ∑ k : Fin K, l (ix2 k p) * r (ix2 q k) :=
  (Ideal.matmul_constant_zero_apply D prec l r (ix2 p q)).trans (sum_tt D hlc hrc hlb hrb hln hrn l r p q)

/-- out[p, q] = ∑ k, l[k, p] · r[q, k] (the first axis of l against the second of r): the host's `dot_general`. -/
theorem dot_tt (D : DotDims ⟨2, ![K, M]⟩ ⟨2, ![N, K]⟩ ⟨2, ![M, N]⟩)
    (hlc : D.lhsContracting = [0]) (hrc : D.rhsContracting = [1]) (hlb : D.lhsBatch = []) (hrb : D.rhsBatch = [])
    (hln : D.lhsNonContracting = [1]) (hrn : D.rhsNonContracting = [0])
    (prec : Option ContractPrecision) (l : FVec Ideal ⟨2, ![K, M]⟩ φ₁) (r : FVec Ideal ⟨2, ![N, K]⟩ φ₂) (p : Fin M) (q : Fin N) :
    Host.dotGeneral D prec l r (ix2 p q) = ∑ k : Fin K, l (ix2 k p) * r (ix2 q k) :=
  (Ideal.dotGeneral_apply D prec .single l r (ix2 p q)).trans (sum_tt D hlc hrc hlb hrb hln hrn l r p q)

end Rank2

end LibContract2

end
-- ==== Proof.LibColumn.lean ====
/-
  Two layout operations read at an index, in the column forms a row reduction with kept dimensions needs:
  a vector `[a]` cast to the column `[a, 1]`, and a column `[a, 1]` broadcast along its rows to `[a, b]`.
-/
import Idealize.ShloMosaic.Lib.ValueLayout

namespace LibColumn

open Idealize.ShloMosaic Idealize.ShloMosaic.ValueIdx

variable {α : Type}

/-- An `[a]` vector cast to the column `[a, 1]` reads, at `(i, u)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end LibColumn
-- ==== Proof.Algebra.lean ====
/-
  The algebra that joins the two programs, over abstract finite index sets.

  One graph type contributes to the first MLP layer's pre-activation the product `emb · Wg` of its two-layer graph
  convolution `emb = A · (relu (A · (X · W0) + B0) · W1) + B1`. It is computed in two arrangements:

  • row-major (nodes by features), as written above: `xwR`, `hidR`, `projR`, `embR`, `graphR`;
  • feature-major (every intermediate transposed), with the second bias left out: `aggK = (A · X)ᵀ`,
    `hidK = relu (W0ᵀ · aggK + B0)`, `projK = W1ᵀ · hidK`, `embK = projK · Aᵀ`, `graphK = embKᵀ · Wg`; the left-out bias
    enters once, folded through `Wg`: `biasFold = B1 · Wg`.

  Over the reals `A · (X · W0) = (A · X) · W0` (associativity of the matrix product: a sum exchanged and a factor moved
  across it), so the hidden layers agree entry by entry (`hid_eq`, `proj_eq`), and `(E + B1) · Wg = E · Wg + B1 · Wg`
  (distributivity), so `graphR = graphK + biasFold` (`graph_eq`); the MLP head `headF` is common to both and is only named. Both laws fail at infinite entries, which is why the
  statement is about reals; the definitions are written for any carrier with a sum, a product and a maximum so that the
  same text is read at the extended reals, and on real entries the extended-real reading is the coercion of the real one
  (`graphK_coe`, `graphR_coe`, `biasFold_coe`, `lin_coe`).
-/
import Mathlib.Data.EReal.Operations
import Mathlib.Algebra.BigOperators.Ring.Finset
import Mathlib.Algebra.BigOperators.Group.Finset.Sigma
import Mathlib.Tactic.Ring

open scoped BigOperators

namespace TabGnn

/-! ## The two arrangements -/

section Defs

variable {α : Type*} [AddCommMonoid α] [Mul α] [Max α]
variable {ιn ιf ιh ιo ιk : Type*} [Fintype ιn] [Fintype ιf] [Fintype ιh] [Fintype ιo] [Fintype ιk]

/-- A plain product of a matrix with a matrix, plus a row bias: `(X · W + b)[n, k]`. -/
def lin (X : ιn → ιf → α) (W : ιf → ιk → α) (b : ιk → α) (n : ιn) (k : ιk) : α := ∑ f, X n f * W f k + b k

/-- A bias row folded through a weight matrix: `(B1 · Wg)[k]`. -/
def biasFold (B1 : ιo → α) (Wg : ιo → ιk → α) (k : ιk) : α := ∑ o, B1 o * Wg o k

/-- Feature-major aggregation: `(A · X)ᵀ[f, n] = ∑ m, X[m, f] · A[n, m]`. -/
def aggK (A : ιn → ιn → α) (X : ιn → ιf → α) (f : ιf) (n : ιn) : α := ∑ m, X m f * A n m

/-- Feature-major hidden layer: `relu (W0ᵀ · aggK + B0)[h, n]`. -/
def hidK (A : ιn → ιn → α) (X : ιn → ιf → α) (W0 : ιf → ιh → α) (B0 : ιh → α) (h : ιh) (n : ιn) : α :=
  max (∑ f, W0 f h * aggK A X f n + B0 h) 0

/-- Feature-major projection: `(W1ᵀ · hidK)[o, n]`. -/
def projK (A : ιn → ιn → α) (X : ιn → ιf → α) (W0 : ιf → ιh → α) (B0 : ιh → α) (W1 : ιh → ιo → α) (o : ιo) (n : ιn) : α :=
  ∑ h, W1 h o * hidK A X W0 B0 h n

/-- Feature-major second aggregation, no bias: `(projK · Aᵀ)[o, n]`. -/
def embK (A : ιn → ιn → α) (X : ιn → ιf → α) (W0 : ιf → ιh → α) (B0 : ιh → α) (W1 : ιh → ιo → α) (o : ιo) (n : ιn) : α :=
  ∑ m, projK A X W0 B0 W1 o m * A n m

/-- The feature-major arrangement's contribution: `(embKᵀ · Wg)[n, k]`. -/
def graphK (A : ιn → ιn → α) (X : ιn → ιf → α) (W0 : ιf → ιh → α) (B0 : ιh → α) (W1 : ιh → ιo → α) (Wg : ιo → ιk → α)
    (n : ιn) (k : ιk) : α :=
  ∑ o, embK A X W0 B0 W1 o n * Wg o k

/-- Row-major first product: `(X · W0)[n, h]`. -/
def xwR (X : ιn → ιf → α) (W0 : ιf → ιh → α) (n : ιn) (h : ιh) : α := ∑ f, X n f * W0 f h

/-- Row-major hidden layer: `relu (A · xwR + B0)[n, h]`. -/
def hidR (A : ιn → ιn → α) (X : ιn → ιf → α) (W0 : ιf → ιh → α) (B0 : ιh → α) (n : ιn) (h : ιh) : α :=
  max (∑ m, A n m * xwR X W0 m h + B0 h) 0

/-- Row-major projection: `(hidR · W1)[n, o]`. -/
def projR (A : ιn → ιn → α) (X : ιn → ιf → α) (W0 : ιf → ιh → α) (B0 : ιh → α) (W1 : ιh → ιo → α) (n : ιn) (o : ιo) : α :=
  ∑ h, hidR A X W0 B0 n h * W1 h o

/-- Row-major second aggregation with its bias: `(A · projR + B1)[n, o]`. -/
def embR (A : ιn → ιn → α) (X : ιn → ιf → α) (W0 : ιf → ιh → α) (B0 : ιh → α) (W1 : ιh → ιo → α) (B1 : ιo → α)
    (n : ιn) (o : ιo) : α :=
  ∑ m, A n m * projR A X W0 B0 W1 m o + B1 o

/-- The row-major arrangement's contribution: `(embR · Wg)[n, k]`. -/
def graphR (A : ιn → ιn → α) (X : ιn → ιf → α) (W0 : ιf → ιh → α) (B0 : ιh → α) (W1 : ιh → ιo → α) (B1 : ιo → α)
    (Wg : ιo → ιk → α) (n : ιn) (k : ιk) : α :=
  ∑ o, embR A X W0 B0 W1 B1 n o * Wg o k

/-- The MLP head that both programs run on the finished accumulator: `relu`, a plain product with a row bias, `relu`,
    then the last layer as a weighted row sum plus its bias:
    `head[n] = ∑ j, relu (∑ k, relu (acc[n, k]) · M[k, j] + mb[j]) · wl[j] + bl`. -/
def headF {ιj : Type*} [Fintype ιj] (acc : ιn → ιk → α) (M : ιk → ιj → α) (mb : ιj → α) (wl : ιj → α) (bl : α) (n : ιn) : α :=
  ∑ j, max (∑ k, max (acc n k) 0 * M k j + mb j) 0 * wl j + bl

end Defs

/-! ## Over the reals the two arrangements agree up to the folded bias -/

section Real

variable {ιn ιf ιh ιo ιk : Type*} [Fintype ιn] [Fintype ιf] [Fintype ιh] [Fintype ιo] [Fintype ιk]
variable (A : ιn → ιn → ℝ) (X : ιn → ιf → ℝ) (W0 : ιf → ιh → ℝ) (B0 : ιh → ℝ) (W1 : ιh → ιo → ℝ) (B1 : ιo → ℝ)
  (Wg : ιo → ιk → ℝ)

/-- `W0ᵀ · (A · X)ᵀ = (A · (X · W0))ᵀ`: the double sum exchanged. -/
theorem agg_assoc (h : ιh) (n : ιn) : ∑ f, W0 f h * aggK A X f n = ∑ m, A n m * xwR X W0 m h := by
  simp only [aggK, xwR, Finset.mul_sum]
  rw [Finset.sum_comm]
  exact Finset.sum_congr rfl fun m _ => Finset.sum_congr rfl fun f _ => by ring

theorem hid_eq (h : ιh) (n : ιn) : hidK A X W0 B0 h n = hidR A X W0 B0 n h := by
  unfold hidK hidR
  rw [agg_assoc]

theorem proj_eq (o : ιo) (n : ιn) : projK A X W0 B0 W1 o n = projR A X W0 B0 W1 n o := by
  unfold projK projR
  exact Finset.sum_congr rfl fun h _ => by rw [hid_eq, mul_comm]

theorem emb_eq (n : ιn) (o : ιo) : embR A X W0 B0 W1 B1 n o = embK A X W0 B0 W1 o n + B1 o := by
  unfold embR embK
  exact congrArg (· + B1 o) (Finset.sum_congr rfl fun m _ => by rw [proj_eq, mul_comm])

theorem graph_eq (n : ιn) (k : ιk) :
    graphR A X W0 B0 W1 B1 Wg n k = graphK A X W0 B0 W1 Wg n k + biasFold B1 Wg k := by
  unfold graphR graphK biasFold
  rw [← Finset.sum_add_distrib]
  exact Finset.sum_congr rfl fun o _ => by rw [emb_eq, add_mul]

end Real

/-! ## On real entries the extended-real reading is the coercion of the real one -/

section Coe

variable {ιn ιf ιh ιo ιk : Type*} [Fintype ιn] [Fintype ιf] [Fintype ιh] [Fintype ιo] [Fintype ιk]

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion is monotone, so it commutes with the maximum. -/
theorem coe_max (x y : ℝ) : ((max x y : ℝ) : EReal) = max (x : EReal) (y : EReal) :=
  EReal.coe_strictMono.monotone.map_max

variable (A : ιn → ιn → ℝ) (X : ιn → ιf → ℝ) (W0 : ιf → ιh → ℝ) (B0 : ιh → ℝ) (W1 : ιh → ιo → ℝ) (B1 : ιo → ℝ)
  (Wg : ιo → ιk → ℝ)

theorem lin_coe (W : ιf → ιk → ℝ) (b : ιk → ℝ) (n : ιn) (k : ιk) :
    lin (fun n f => (X n f : EReal)) (fun f k => (W f k : EReal)) (fun k => (b k : EReal)) n k = ((lin X W b n k : ℝ) : EReal) := by
  simp only [lin, coe_sum, EReal.coe_mul, EReal.coe_add]

theorem biasFold_coe (k : ιk) :
    biasFold (fun o => (B1 o : EReal)) (fun o k => (Wg o k : EReal)) k = ((biasFold B1 Wg k : ℝ) : EReal) := by
  simp only [biasFold, coe_sum, EReal.coe_mul]

theorem graphK_coe (n : ιn) (k : ιk) :
    graphK (fun n m => (A n m : EReal)) (fun n f => (X n f : EReal)) (fun f h => (W0 f h : EReal)) (fun h => (B0 h : EReal))
        (fun h o => (W1 h o : EReal)) (fun o k => (Wg o k : EReal)) n k
      = ((graphK A X W0 B0 W1 Wg n k : ℝ) : EReal) := by
  simp only [graphK, embK, projK, hidK, aggK, coe_sum, EReal.coe_mul, EReal.coe_add, coe_max, EReal.coe_zero]

theorem graphR_coe (n : ιn) (k : ιk) :
    graphR (fun n m => (A n m : EReal)) (fun n f => (X n f : EReal)) (fun f h => (W0 f h : EReal)) (fun h => (B0 h : EReal))
        (fun h o => (W1 h o : EReal)) (fun o => (B1 o : EReal)) (fun o k => (Wg o k : EReal)) n k
      = ((graphR A X W0 B0 W1 B1 Wg n k : ℝ) : EReal) := by
  simp only [graphR, embR, projR, hidR, xwR, coe_sum, EReal.coe_mul, EReal.coe_add, coe_max, EReal.coe_zero]

end Coe

end TabGnn
-- ==== Proof.KernelPay.lean ====
/-
  The kernel's three stored values, read at an index at the exact values.

  The body stores three things. At the first grid point the accumulator is set to `x · w0x + bias` (a plain product
  plus a row bias); at every point the accumulator gains the graph type's contribution, computed feature-major
  (every intermediate transposed: see the algebra module's `graphK`); at the last point the MLP head of the finished
  accumulator goes to the output column. Each is one pure term of the blocks the body loads; read at an index
  `(n, k)`, every matrix product is the sum over its contracted coordinate, every leading unit axis reads at `0`, the
  column bias `[256, 1]` reads its row, and the splat zero is the extended real `0`.
-/
import proofs.«132511_g2000706234556652_pallaspilot1_280_5_alg».proof.Proof.Gen.KernelIdeal.Skeleton
import proofs.«132511_g2000706234556652_pallaspilot1_280_5_alg».proof.Proof.LibContract2
import proofs.«132511_g2000706234556652_pallaspilot1_280_5_alg».proof.Proof.LibColumn
import proofs.«132511_g2000706234556652_pallaspilot1_280_5_alg».proof.Proof.Algebra
import Idealize.ShloMosaic.Lib.ValueLayout

noncomputable section

open Idealize.ShloMosaic Idealize.ShloMosaic.ValueIdx

namespace Cert.KernelIdeal.Pay

open Cert.KernelIdeal Cert.KernelIdeal.Gen TabGnn

/-! ## The loaded blocks as matrices -/

/-- The adjacency block `[1, N, N]` as a matrix. -/
abbrev rdA (x : Vec Ideal S1x1792x1792 .f32) : Fin 1792 → Fin 1792 → EReal := fun n m => x (ix3 (0 : Fin 1) n m)
/-- The node features `[N, 128]`. -/
abbrev rdX (x : Vec Ideal S1792x128 .f32) : Fin 1792 → Fin 128 → EReal := fun n f => x (ix2 n f)
/-- A weight block `[1, 128, 256]` as a matrix. -/
abbrev rdW (x : Vec Ideal S1x128x256 .f32) : Fin 128 → Fin 256 → EReal := fun f h => x (ix3 (0 : Fin 1) f h)
/-- The first layer's bias block, stored as a column `[1, 256, 1]`. -/
abbrev rdB0 (x : Vec Ideal S1x256x1 .f32) : Fin 256 → EReal := fun h => x (ix3 (0 : Fin 1) h (0 : Fin 1))
/-- The second layer's weight block `[1, 256, 128]` as a matrix. -/
abbrev rdW1 (x : Vec Ideal S1x256x128 .f32) : Fin 256 → Fin 128 → EReal := fun h o => x (ix3 (0 : Fin 1) h o)
/-- A plain matrix `[128, 256]`. -/
abbrev rdM (x : Vec Ideal S128x256 .f32) : Fin 128 → Fin 256 → EReal := fun f k => x (ix2 f k)
/-- A row `[1, 256]`. -/
abbrev rdRow256 (x : Vec Ideal S1x256 .f32) : Fin 256 → EReal := fun k => x (ix2 (0 : Fin 1) k)
/-- The MLP's second weight matrix `[256, 128]`. -/
abbrev rdM2 (x : Vec Ideal S256x128 .f32) : Fin 256 → Fin 128 → EReal := fun k j => x (ix2 k j)
/-- A row `[1, 128]`. -/
abbrev rdRow128 (x : Vec Ideal S1x128 .f32) : Fin 128 → EReal := fun j => x (ix2 (0 : Fin 1) j)
/-- The accumulator `[N, 256]` as a matrix. -/
abbrev rdAcc (x : Vec Ideal S1792x256 .f32) : Fin 1792 → Fin 256 → EReal := fun n k => x (ix2 n k)

/-! ## The body's seven matrix products, each the sum over its contracted coordinate -/

theorem mm_agg (l : FVec Ideal S1792x128 .f32) (r : FVec Ideal S1792x1792 .f32) (f : Fin 128) (n : Fin 1792) :
    matmul dot_S1792x128_S1792x1792_S128x1792_0_1_1_0_n_n none l r (constant (F := Ideal) S128x1792 .f32 0x00000000#32) (ix2 f n)
      = ∑ m : Fin 1792, l (ix2 m f) * r (ix2 n m) :=
  LibContract2.matmul_tt _ rfl rfl rfl rfl rfl rfl none l r f n

theorem mm_hid (l : FVec Ideal S128x256 .f32) (r : FVec Ideal S128x1792 .f32) (h : Fin 256) (n : Fin 1792) :
    matmul dot_S128x256_S128x1792_S256x1792_0_0_1_1_n_n none l r (constant (F := Ideal) S256x1792 .f32 0x00000000#32) (ix2 h n)
      = ∑ f : Fin 128, l (ix2 f h) * r (ix2 f n) :=
  LibContract2.matmul_tn _ rfl rfl rfl rfl rfl rfl none l r h n

theorem mm_proj (l : FVec Ideal S256x128 .f32) (r : FVec Ideal S256x1792 .f32) (o : Fin 128) (n : Fin 1792) :
    matmul dot_S256x128_S256x1792_S128x1792_0_0_1_1_n_n none l r (constant (F := Ideal) S128x1792 .f32 0x00000000#32) (ix2 o n)
      = ∑ h : Fin 256, l (ix2 h o) * r (ix2 h n) :=
  LibContract2.matmul_tn _ rfl rfl rfl rfl rfl rfl none l r o n

theorem mm_emb (l : FVec Ideal S128x1792 .f32) (r : FVec Ideal S1792x1792 .f32) (o : Fin 128) (n : Fin 1792) :
    matmul dot_S128x1792_S1792x1792_S128x1792_1_1_0_0_n_n none l r (constant (F := Ideal) S128x1792 .f32 0x00000000#32) (ix2 o n)
      = ∑ m : Fin 1792, l (ix2 o m) * r (ix2 n m) :=
  LibContract2.matmul_nt _ rfl rfl rfl rfl rfl rfl none l r o n

theorem mm_out (l : FVec Ideal S128x1792 .f32) (r : FVec Ideal S128x256 .f32) (n : Fin 1792) (k : Fin 256) :
    matmul dot_S128x1792_S128x256_S1792x256_0_0_1_1_n_n none l r (constant (F := Ideal) S1792x256 .f32 0x00000000#32) (ix2 n k)
      = ∑ o : Fin 128, l (ix2 o n) * r (ix2 o k) :=
  LibContract2.matmul_tn _ rfl rfl rfl rfl rfl rfl none l r n k

theorem mm_init (l : FVec Ideal S1792x128 .f32) (r : FVec Ideal S128x256 .f32) (n : Fin 1792) (k : Fin 256) :
    matmul dot_S1792x128_S128x256_S1792x256_1_0_0_1_n_n none l r (constant (F := Ideal) S1792x256 .f32 0x00000000#32) (ix2 n k)
      = ∑ f : Fin 128, l (ix2 n f) * r (ix2 f k) :=
  LibContract2.matmul_nn _ rfl rfl rfl rfl rfl rfl none l r n k

theorem mm_mlp (l : FVec Ideal S1792x256 .f32) (r : FVec Ideal S256x128 .f32) (n : Fin 1792) (j : Fin 128) :
    matmul dot_S1792x256_S256x128_S1792x128_1_0_0_1_n_n none l r (constant (F := Ideal) S1792x128 .f32 0x00000000#32) (ix2 n j)
      = ∑ k : Fin 256, l (ix2 n k) * r (ix2 k j) :=
  LibContract2.matmul_nn _ rfl rfl rfl rfl rfl rfl none l r n j

/-- The splat zero is the extended real zero. -/
theorem zero_f32 : Scalar.ofBits (F := Ideal) .f32 0x00000000#32 = (0 : EReal) := Ideal.ofBits_zero_f32

/-- A lane sum over the second axis of an `[N, 128]` block, read at row `n`: the sum of the row's entries. -/
theorem rowsum_apply (v : FVec Ideal S1792x128 .f32) (h : S1792x128.Reduces [1] S1792) (hφ : FKind.Formats .f32)
    (hacc : (0x00000000#32 : BitVec 32) = 0x00000000#32) (n : Fin 1792) :
    multiReduction .add [1] S1792 v 0x00000000#32 h hφ hacc (ix1 n) = ∑ j : Fin 128, v (ix2 n j) := by
  refine (Ideal.multiReduction_add_single v 0x00000000#32 h hφ hacc (ix1 n)).trans ?_
  exact Finset.sum_congr rfl fun j _ => congrArg v (funext fun a => Fin.ext (by
    match a with
    | ⟨0, _⟩ => rfl
    | ⟨1, _⟩ => rfl))

/-! ## The three stored values -/

/-- The first point's reset: `x · w0x + bias`. -/
theorem pay2_apply (x1 : Vec Ideal S1792x128 .f32) (x6 : Vec Ideal S128x256 .f32) (x7 : Vec Ideal S1x256 .f32)
    (n : Fin 1792) (k : Fin 256) :
    k0_pay2 (F := Ideal) x1 x6 x7 (ix2 n k) = lin (rdX x1) (rdM x6) (rdRow256 x7) n k := by
  unfold k0_pay2
  simp only [shapeCast_self, addf_apply, mm_init, broadcastTo_1b_ab_apply]
  rfl

/-- Every point's update: the accumulator plus the graph type's feature-major contribution. -/
theorem pay3_apply (x0 : Vec Ideal S1x1792x1792 .f32) (x1 : Vec Ideal S1792x128 .f32) (x2 : Vec Ideal S1x128x256 .f32)
    (x3 : Vec Ideal S1x256x1 .f32) (x4 : Vec Ideal S1x256x128 .f32) (acc : Vec Ideal S1792x256 .f32)
    (x5 : Vec Ideal S1x128x256 .f32) (n : Fin 1792) (k : Fin 256) :
    k0_pay3 (F := Ideal) x0 x1 x2 x3 x4 acc x5 (ix2 n k)
      = acc (ix2 n k) + graphK (rdA x0) (rdX x1) (rdW x2) (rdB0 x3) (rdW1 x4) (rdW x5) n k := by
  unfold k0_pay3
  simp only [shapeCast_self, addf_apply, maximumf_apply, broadcast_apply, mm_out, mm_emb, mm_proj, mm_hid, mm_agg,
    shapeCast_1ab_ab_apply, LibColumn.broadcastTo_a1_ab_apply, zero_f32]
  rfl

/-- The last point's output column: the MLP head of the accumulator. -/
theorem pay1_apply (acc : Vec Ideal S1792x256 .f32) (x8 : Vec Ideal S256x128 .f32) (x9 x10 : Vec Ideal S1x128 .f32)
    (x11 : Vec Ideal S1x1 .f32) (n : Fin 1792) (u : Fin 1) :
    k0_pay1 (F := Ideal) acc x8 x9 x10 x11 (ix2 n u)
      = headF (rdAcc acc) (rdM2 x8) (rdRow128 x9) (rdRow128 x10) (x11 (ix2 (0 : Fin 1) (0 : Fin 1))) n := by
  obtain rfl : u = 0 := Subsingleton.elim _ _
  unfold k0_pay1
  simp only [addf_apply, LibColumn.shapeCast_a_a1_apply, broadcastTo_1b_ab_apply]
  refine congrArg (· + x11 (ix2 (0 : Fin 1) (0 : Fin 1))) ?_
  refine (rowsum_apply _ _ _ _ n).trans ?_
  simp only [mulf_apply, maximumf_apply, addf_apply, broadcast_apply, mm_mlp, broadcastTo_1b_ab_apply, zero_f32]

end Cert.KernelIdeal.Pay

end
-- ==== Proof.Spec.lean ====
/-
  What both programs compute, as ONE function of the thirteen argument arrays, and why the two are equal.

  For a node `n` the result is the MLP head (`headF`) of the first layer's pre-activation
  `acc[n, k] = (x · w0x + b0)[n, k] + ∑ over the two graph types g of (emb_g · w0g_g)[n, k]`,
  where `emb_g` is graph type `g`'s two-layer graph convolution of `x`. The reference adds the two full
  contributions to `x · w0x + b0` (`accR`); the kernel computes each contribution feature-major and without the second
  bias, which it folds once into the starting bias, `b0 + b1_0 · w0g_0 + b1_1 · w0g_1` (`accK`). On real entries the two
  accumulators agree (`accK_eq_accR`): each side's extended-real reading is the coercion of its real reading, and over the
  reals the arrangements differ by associativity and distributivity only (the algebra module's `graph_eq`).
  Without finiteness the laws fail (an infinite entry against a zero), hence the hypotheses.
-/
import Idealize.ShloMosaic.Lib.ValueIdx
import proofs.«132511_g2000706234556652_pallaspilot1_280_5_alg».proof.Proof.Algebra

noncomputable section

open scoped BigOperators

namespace TabGnn

open Idealize.ShloMosaic Idealize.ShloMosaic.ValueIdx

/-! ## The argument arrays as matrices -/

section Matrices

variable {α : Type}

/-- Graph type `g`'s slab of a stacked array `[2, a, b]` as a matrix. -/
abbrev slab {a b : ℕ} (v : (⟨3, ![2, a, b]⟩ : Shape).Idx → α) (g : Fin 2) : Fin a → Fin b → α := fun i j => v (ix3 g i j)
/-- Graph type `g`'s row of a stacked row array `[2, 1, b]`. -/
abbrev slabRow {b : ℕ} (v : (⟨3, ![2, 1, b]⟩ : Shape).Idx → α) (g : Fin 2) : Fin b → α := fun j => v (ix3 g (0 : Fin 1) j)
/-- A plain matrix `[a, b]`. -/
abbrev mat {a b : ℕ} (v : (⟨2, ![a, b]⟩ : Shape).Idx → α) : Fin a → Fin b → α := fun i j => v (ix2 i j)
/-- The one row of a `[1, b]` array. -/
abbrev row {b : ℕ} (v : (⟨2, ![1, b]⟩ : Shape).Idx → α) : Fin b → α := fun j => v (ix2 (0 : Fin 1) j)

end Matrices

/-! ## The two accumulators and the result -/

section Spec

variable {α : Type} [AddCommMonoid α] [Mul α] [Max α]
variable (ah : (⟨3, ![2, 1792, 1792]⟩ : Shape).Idx → α) (x : (⟨2, ![1792, 128]⟩ : Shape).Idx → α)
  (w0 : (⟨3, ![2, 128, 256]⟩ : Shape).Idx → α) (w1 : (⟨3, ![2, 256, 128]⟩ : Shape).Idx → α)
  (b0g : (⟨3, ![2, 1, 256]⟩ : Shape).Idx → α) (b1g : (⟨3, ![2, 1, 128]⟩ : Shape).Idx → α)
  (wx : (⟨2, ![128, 256]⟩ : Shape).Idx → α) (wg : (⟨3, ![2, 128, 256]⟩ : Shape).Idx → α) (b : (⟨2, ![1, 256]⟩ : Shape).Idx → α)

/-- The starting bias with both graph types' second biases folded in: `(b0 + b1_0 · w0g_0) + b1_1 · w0g_1`. -/
def biasK (k : Fin 256) : α :=
  row b k + biasFold (slabRow b1g 0) (slab wg 0) k + biasFold (slabRow b1g 1) (slab wg 1) k

/-- The kernel's accumulator: reset to `x · w0x + biasK`, then the two feature-major contributions in order. -/
def accK (n : Fin 1792) (k : Fin 256) : α :=
  lin (mat x) (mat wx) (biasK b1g wg b) n k
    + graphK (slab ah 0) (mat x) (slab w0 0) (slabRow b0g 0) (slab w1 0) (slab wg 0) n k
    + graphK (slab ah 1) (mat x) (slab w0 1) (slabRow b0g 1) (slab w1 1) (slab wg 1) n k

/-- The reference's accumulator: reset to `x · w0x + b0`, then the two row-major contributions in order. -/
def accR (n : Fin 1792) (k : Fin 256) : α :=
  lin (mat x) (mat wx) (row b) n k
    + graphR (slab ah 0) (mat x) (slab w0 0) (slabRow b0g 0) (slab w1 0) (slabRow b1g 0) (slab wg 0) n k
    + graphR (slab ah 1) (mat x) (slab w0 1) (slabRow b0g 1) (slab w1 1) (slabRow b1g 1) (slab wg 1) n k

end Spec

/-! ## On real entries the accumulators agree -/

section Agree

variable (ah : (⟨3, ![2, 1792, 1792]⟩ : Shape).Idx → ℝ) (x : (⟨2, ![1792, 128]⟩ : Shape).Idx → ℝ)
  (w0 : (⟨3, ![2, 128, 256]⟩ : Shape).Idx → ℝ) (w1 : (⟨3, ![2, 256, 128]⟩ : Shape).Idx → ℝ)
  (b0g : (⟨3, ![2, 1, 256]⟩ : Shape).Idx → ℝ) (b1g : (⟨3, ![2, 1, 128]⟩ : Shape).Idx → ℝ)
  (wx : (⟨2, ![128, 256]⟩ : Shape).Idx → ℝ) (wg : (⟨3, ![2, 128, 256]⟩ : Shape).Idx → ℝ) (b : (⟨2, ![1, 256]⟩ : Shape).Idx → ℝ)

/-- Over the reals: the folded biases are exactly what the feature-major contributions leave out. -/
theorem acc_eq_real (n : Fin 1792) (k : Fin 256) : accK ah x w0 w1 b0g b1g wx wg b n k = accR ah x w0 w1 b0g b1g wx wg b n k := by
  unfold accK accR lin biasK
  rw [graph_eq, graph_eq]
  ring

/-- The kernel's accumulator on coerced reals is the coercion of the real one. -/
theorem accK_coe (n : Fin 1792) (k : Fin 256) :
    accK (fun i => (ah i : EReal)) (fun i => (x i : EReal)) (fun i => (w0 i : EReal)) (fun i => (w1 i : EReal))
        (fun i => (b0g i : EReal)) (fun i => (b1g i : EReal)) (fun i => (wx i : EReal)) (fun i => (wg i : EReal))
        (fun i => (b i : EReal)) n k
      = ((accK ah x w0 w1 b0g b1g wx wg b n k : ℝ) : EReal) := by
  unfold accK
  rw [EReal.coe_add, EReal.coe_add, ← graphK_coe, ← graphK_coe, ← lin_coe]
  unfold biasK
  simp only [EReal.coe_add, ← biasFold_coe]

/-- The reference's accumulator on coerced reals is the coercion of the real one. -/
theorem accR_coe (n : Fin 1792) (k : Fin 256) :
    accR (fun i => (ah i : EReal)) (fun i => (x i : EReal)) (fun i => (w0 i : EReal)) (fun i => (w1 i : EReal))
        (fun i => (b0g i : EReal)) (fun i => (b1g i : EReal)) (fun i => (wx i : EReal)) (fun i => (wg i : EReal))
        (fun i => (b i : EReal)) n k
      = ((accR ah x w0 w1 b0g b1g wx wg b n k : ℝ) : EReal) := by
  unfold accR
  rw [EReal.coe_add, EReal.coe_add, ← graphR_coe, ← graphR_coe, ← lin_coe]

end Agree

/-- Every entry of the array is the coercion of a real number. -/
def RealValued {s : Shape} (v : s.Idx → EReal) : Prop := ∀ i, ∃ r : ℝ, v i = (r : EReal)

/-- On real-valued arrays the two accumulators are equal extended reals. -/
theorem accK_eq_accR (ah : (⟨3, ![2, 1792, 1792]⟩ : Shape).Idx → EReal) (x : (⟨2, ![1792, 128]⟩ : Shape).Idx → EReal)
    (w0 : (⟨3, ![2, 128, 256]⟩ : Shape).Idx → EReal) (w1 : (⟨3, ![2, 256, 128]⟩ : Shape).Idx → EReal)
    (b0g : (⟨3, ![2, 1, 256]⟩ : Shape).Idx → EReal) (b1g : (⟨3, ![2, 1, 128]⟩ : Shape).Idx → EReal)
    (wx : (⟨2, ![128, 256]⟩ : Shape).Idx → EReal) (wg : (⟨3, ![2, 128, 256]⟩ : Shape).Idx → EReal)
    (b : (⟨2, ![1, 256]⟩ : Shape).Idx → EReal)
    (hah : RealValued ah) (hx : RealValued x) (hw0 : RealValued w0) (hw1 : RealValued w1) (hb0g : RealValued b0g)
    (hb1g : RealValued b1g) (hwx : RealValued wx) (hwg : RealValued wg) (hb : RealValued b) (n : Fin 1792) (k : Fin 256) :
    accK ah x w0 w1 b0g b1g wx wg b n k = accR ah x w0 w1 b0g b1g wx wg b n k := by
  choose ahr e0 using hah
  choose xr e1 using hx
  choose w0r e2 using hw0
  choose w1r e3 using hw1
  choose b0r e4 using hb0g
  choose b1r e5 using hb1g
  choose wxr e6 using hwx
  choose wgr e7 using hwg
  choose br e8 using hb
  obtain rfl : ah = fun i => (ahr i : EReal) := funext e0
  obtain rfl : x = fun i => (xr i : EReal) := funext e1
  obtain rfl : w0 = fun i => (w0r i : EReal) := funext e2
  obtain rfl : w1 = fun i => (w1r i : EReal) := funext e3
  obtain rfl : b0g = fun i => (b0r i : EReal) := funext e4
  obtain rfl : b1g = fun i => (b1r i : EReal) := funext e5
  obtain rfl : wx = fun i => (wxr i : EReal) := funext e6
  obtain rfl : wg = fun i => (wgr i : EReal) := funext e7
  obtain rfl : b = fun i => (br i : EReal) := funext e8
  rw [accK_coe, accR_coe, acc_eq_real]

/-! ## The same at the extended reals, by name

A program's memory hands its arrays over at a type that only unfolds to "indices to extended reals"; these
abbreviations fix the carrier, so that the arrays can be passed as they come. -/

section AtEReal

variable (ah : (⟨3, ![2, 1792, 1792]⟩ : Shape).Idx → EReal) (x : (⟨2, ![1792, 128]⟩ : Shape).Idx → EReal)
  (w0 : (⟨3, ![2, 128, 256]⟩ : Shape).Idx → EReal) (w1 : (⟨3, ![2, 256, 128]⟩ : Shape).Idx → EReal)
  (b0g : (⟨3, ![2, 1, 256]⟩ : Shape).Idx → EReal) (b1g : (⟨3, ![2, 1, 128]⟩ : Shape).Idx → EReal)
  (wx : (⟨2, ![128, 256]⟩ : Shape).Idx → EReal) (wg : (⟨3, ![2, 128, 256]⟩ : Shape).Idx → EReal) (b : (⟨2, ![1, 256]⟩ : Shape).Idx → EReal)

/-- The kernel's starting bias at the extended reals. -/
abbrev biasKE : Fin 256 → EReal := biasK b1g wg b
/-- The kernel's accumulator at the extended reals. -/
abbrev accKE : Fin 1792 → Fin 256 → EReal := accK ah x w0 w1 b0g b1g wx wg b
/-- The reference's accumulator at the extended reals. -/
abbrev accRE : Fin 1792 → Fin 256 → EReal := accR ah x w0 w1 b0g b1g wx wg b
/-- The output column: the MLP head of an accumulator, its operands read off the last four argument arrays. -/
abbrev outE (acc : Fin 1792 → Fin 256 → EReal) (mw : (⟨2, ![256, 128]⟩ : Shape).Idx → EReal)
    (mb wl : (⟨2, ![1, 128]⟩ : Shape).Idx → EReal) (bl : (⟨2, ![1, 1]⟩ : Shape).Idx → EReal) (n : Fin 1792) : EReal :=
  headF acc (mat mw) (row mb) (row wl) (bl (ix2 (0 : Fin 1) (0 : Fin 1))) n

end AtEReal

end TabGnn

end
-- ==== Proof.KernelVal.lean ====
/-
  The kernel's output column as the common function of the argument arrays.

  The chained payloads of the two grid points are read at an index (the payload module), and every block the body
  loaded is read where it lies in its array: graph type `g`'s slab of a stacked array at the point `g`, a
  resident array whole. Two of the kernel's operands are computed by @main before the call: the first layer's bias
  transposed to columns (read back at its row), and the starting bias `b0 + b1_0 · w0g_0 + b1_1 · w0g_1`, two small host
  products (each the sum over the 128 features) added in that order. The result is the specification's `accK` under the
  MLP head.
-/
import proofs.«132511_g2000706234556652_pallaspilot1_280_5_alg».proof.Proof.KernelAcc
import proofs.«132511_g2000706234556652_pallaspilot1_280_5_alg».proof.Proof.KernelPay
import proofs.«132511_g2000706234556652_pallaspilot1_280_5_alg».proof.Proof.Spec
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen TabGnn

/-! ## Where each loaded block lies in its array -/

section Blocks

variable {F : FTy → Type} [FloatOps F]
variable (m : (ℓ : Loc nD τ sig) → Buf (Elt F) ℓ)

/-- The adjacency block at point `t` is graph type `t`'s slab of the stacked adjacency. -/
theorem blk0_apply (c : Dev nD) (t : Fin cfg0.N) (g : Fin 2) (hg : g.val = t.val) (i : Fin 1792) (j : Fin 1792) :
    (iblk m c 0 t : Vec F S1x1792x1792 .f32) (ix3 (0 : Fin 1) i j) = (V m c main_arg0 : Vec F S2x1792x1792 .f32) (ix3 g i j) := by
  have hi : win0_0.index t 0 = t.val ∧ win0_0.index t 1 = 0 ∧ win0_0.index t 2 = 0 := by
    rcases fin_N0 t with rfl | rfl <;> decide
  unfold iblk
  rw [View.read_apply]
  show V m c main_arg0 _ = V m c main_arg0 _
  congr 1
  funext a
  apply Fin.ext
  match a with
  | ⟨0, _⟩ => show win0_0.index t 0 * 1 + 1 * ((0 : Fin 1) : ℕ) = (g : ℕ); rw [hi.1]; omega
  | ⟨1, _⟩ => show win0_0.index t 1 * 1792 + 1 * (i : ℕ) = (i : ℕ); rw [hi.2.1]; omega
  | ⟨2, _⟩ => show win0_0.index t 2 * 1792 + 1 * (j : ℕ) = (j : ℕ); rw [hi.2.2]; omega

/-- The first layer's weight block at point `t` is graph type `t`'s slab. -/
theorem blk2_apply (c : Dev nD) (t : Fin cfg0.N) (g : Fin 2) (hg : g.val = t.val) (i : Fin 128) (j : Fin 256) :
    (iblk m c 2 t : Vec F S1x128x256 .f32) (ix3 (0 : Fin 1) i j) = (V m c main_arg2 : Vec F S2x128x256 .f32) (ix3 g i j) := by
  have hi : win0_2.index t 0 = t.val ∧ win0_2.index t 1 = 0 ∧ win0_2.index t 2 = 0 := by
    rcases fin_N0 t with rfl | rfl <;> decide
  unfold iblk
  rw [View.read_apply]
  show V m c main_arg2 _ = V m c main_arg2 _
  congr 1
  funext a
  apply Fin.ext
  match a with
  | ⟨0, _⟩ => show win0_2.index t 0 * 1 + 1 * ((0 : Fin 1) : ℕ) = (g : ℕ); rw [hi.1]; omega
  | ⟨1, _⟩ => show win0_2.index t 1 * 128 + 1 * (i : ℕ) = (i : ℕ); rw [hi.2.1]; omega
  | ⟨2, _⟩ => show win0_2.index t 2 * 256 + 1 * (j : ℕ) = (j : ℕ); rw [hi.2.2]; omega

/-- The first layer's bias column at point `t` is graph type `t`'s slab of the transposed bias. -/
theorem blk3_apply (c : Dev nD) (t : Fin cfg0.N) (g : Fin 2) (hg : g.val = t.val) (i : Fin 256) (j : Fin 1) :
    (iblk m c 3 t : Vec F S1x256x1 .f32) (ix3 (0 : Fin 1) i j) = (V m c main_v12 : Vec F S2x256x1 .f32) (ix3 g i j) := by
  have hi : win0_3.index t 0 = t.val ∧ win0_3.index t 1 = 0 ∧ win0_3.index t 2 = 0 := by
    rcases fin_N0 t with rfl | rfl <;> decide
  unfold iblk
  rw [View.read_apply]
  show V m c main_v12 _ = V m c main_v12 _
  congr 1
  funext a
  apply Fin.ext
  match a with
  | ⟨0, _⟩ => show win0_3.index t 0 * 1 + 1 * ((0 : Fin 1) : ℕ) = (g : ℕ); rw [hi.1]; omega
  | ⟨1, _⟩ => show win0_3.index t 1 * 256 + 1 * (i : ℕ) = (i : ℕ); rw [hi.2.1]; omega
  | ⟨2, _⟩ => show win0_3.index t 2 * 1 + 1 * (j : ℕ) = (j : ℕ); rw [hi.2.2]; omega

/-- The second layer's weight block at point `t` is graph type `t`'s slab. -/
theorem blk4_apply (c : Dev nD) (t : Fin cfg0.N) (g : Fin 2) (hg : g.val = t.val) (i : Fin 256) (j : Fin 128) :
    (iblk m c 4 t : Vec F S1x256x128 .f32) (ix3 (0 : Fin 1) i j) = (V m c main_arg3 : Vec F S2x256x128 .f32) (ix3 g i j) := by
  have hi : win0_4.index t 0 = t.val ∧ win0_4.index t 1 = 0 ∧ win0_4.index t 2 = 0 := by
    rcases fin_N0 t with rfl | rfl <;> decide
  unfold iblk
  rw [View.read_apply]
  show V m c main_arg3 _ = V m c main_arg3 _
  congr 1
  funext a
  apply Fin.ext
  match a with
  | ⟨0, _⟩ => show win0_4.index t 0 * 1 + 1 * ((0 : Fin 1) : ℕ) = (g : ℕ); rw [hi.1]; omega
  | ⟨1, _⟩ => show win0_4.index t 1 * 256 + 1 * (i : ℕ) = (i : ℕ); rw [hi.2.1]; omega
  | ⟨2, _⟩ => show win0_4.index t 2 * 128 + 1 * (j : ℕ) = (j : ℕ); rw [hi.2.2]; omega

/-- The MLP's per-graph-type weight block at point `t` is graph type `t`'s slab. -/
theorem blk5_apply (c : Dev nD) (t : Fin cfg0.N) (g : Fin 2) (hg : g.val = t.val) (i : Fin 128) (j : Fin 256) :
    (iblk m c 5 t : Vec F S1x128x256 .f32) (ix3 (0 : Fin 1) i j) = (V m c main_arg7 : Vec F S2x128x256 .f32) (ix3 g i j) := by
  have hi : win0_5.index t 0 = t.val ∧ win0_5.index t 1 = 0 ∧ win0_5.index t 2 = 0 := by
    rcases fin_N0 t with rfl | rfl <;> decide
  unfold iblk
  rw [View.read_apply]
  show V m c main_arg7 _ = V m c main_arg7 _
  congr 1
  funext a
  apply Fin.ext
  match a with
  | ⟨0, _⟩ => show win0_5.index t 0 * 1 + 1 * ((0 : Fin 1) : ℕ) = (g : ℕ); rw [hi.1]; omega
  | ⟨1, _⟩ => show win0_5.index t 1 * 128 + 1 * (i : ℕ) = (i : ℕ); rw [hi.2.1]; omega
  | ⟨2, _⟩ => show win0_5.index t 2 * 256 + 1 * (j : ℕ) = (j : ℕ); rw [hi.2.2]; omega

/-- The node features are resident: the block is the whole array. -/
theorem blk1_eq (c : Dev nD) (t : Fin cfg0.N) : (iblk m c 1 t : Vec F S1792x128 .f32) = V m c main_arg1 := by
  have hz' : (fun a => win0_1.index t a * main_arg1.ty.shape.size a) = fun _ => 0 :=
    funext fun a => by rcases fin_N0 t with rfl | rfl <;> fin_cases a <;> decide
  exact Memref.read_access_unit_zero (Elt F) main_arg1 hz' (fun a => by rw [congrFun hz' a]; simp) (V m c main_arg1)

/-- The MLP's feature weights are resident. -/
theorem blk6_eq (c : Dev nD) (t : Fin cfg0.N) : (iblk m c 6 t : Vec F S128x256 .f32) = V m c main_arg6 := by
  have hz' : (fun a => win0_6.index t a * main_arg6.ty.shape.size a) = fun _ => 0 :=
    funext fun a => by rcases fin_N0 t with rfl | rfl <;> fin_cases a <;> decide
  exact Memref.read_access_unit_zero (Elt F) main_arg6 hz' (fun a => by rw [congrFun hz' a]; simp) (V m c main_arg6)

/-- The starting bias is resident. -/
theorem blk7_eq (c : Dev nD) (t : Fin cfg0.N) : (iblk m c 7 t : Vec F S1x256 .f32) = V m c main_v11 := by
  have hz' : (fun a => win0_7.index t a * main_v11.ty.shape.size a) = fun _ => 0 :=
    funext fun a => by rcases fin_N0 t with rfl | rfl <;> fin_cases a <;> decide
  exact Memref.read_access_unit_zero (Elt F) main_v11 hz' (fun a => by rw [congrFun hz' a]; simp) (V m c main_v11)

/-- The MLP's second weight matrix is resident. -/
theorem blk8_eq (c : Dev nD) (t : Fin cfg0.N) : (iblk m c 8 t : Vec F S256x128 .f32) = V m c main_arg9 := by
  have hz' : (fun a => win0_8.index t a * main_arg9.ty.shape.size a) = fun _ => 0 :=
    funext fun a => by rcases fin_N0 t with rfl | rfl <;> fin_cases a <;> decide
  exact Memref.read_access_unit_zero (Elt F) main_arg9 hz' (fun a => by rw [congrFun hz' a]; simp) (V m c main_arg9)

/-- The MLP's second bias is resident. -/
theorem blk9_eq (c : Dev nD) (t : Fin cfg0.N) : (iblk m c 9 t : Vec F S1x128 .f32) = V m c main_arg10 := by
  have hz' : (fun a => win0_9.index t a * main_arg10.ty.shape.size a) = fun _ => 0 :=
    funext fun a => by rcases fin_N0 t with rfl | rfl <;> fin_cases a <;> decide
  exact Memref.read_access_unit_zero (Elt F) main_arg10 hz' (fun a => by rw [congrFun hz' a]; simp) (V m c main_arg10)

/-- The last layer's weight row is resident. -/
theorem blk10_eq (c : Dev nD) (t : Fin cfg0.N) : (iblk m c 10 t : Vec F S1x128 .f32) = V m c main_arg11 := by
  have hz' : (fun a => win0_10.index t a * main_arg11.ty.shape.size a) = fun _ => 0 :=
    funext fun a => by rcases fin_N0 t with rfl | rfl <;> fin_cases a <;> decide
  exact Memref.read_access_unit_zero (Elt F) main_arg11 hz' (fun a => by rw [congrFun hz' a]; simp) (V m c main_arg11)

/-- The last layer's bias is resident. -/
theorem blk11_eq (c : Dev nD) (t : Fin cfg0.N) : (iblk m c 11 t : Vec F S1x1 .f32) = V m c main_arg12 := by
  have hz' : (fun a => win0_11.index t a * main_arg12.ty.shape.size a) = fun _ => 0 :=
    funext fun a => by rcases fin_N0 t with rfl | rfl <;> fin_cases a <;> decide
  exact Memref.read_access_unit_zero (Elt F) main_arg12 hz' (fun a => by rw [congrFun hz' a]; simp) (V m c main_arg12)

/-! ## The two operands @main computes before the call -/

/-- The first layer's bias, transposed to columns. -/
theorem v12_eq (c : Dev nD) : (V m c main_v12 : Vec F S2x256x1 .f32)
    = transpose S2x256x1 [0, 2, 1] (m ((c : Thread nD τ).loc main_arg4)) transposes_S2x1x256_S2x256x1_0_2_1 := by
  dsimp only [V, hostOps0]
  after_results

/-- The starting bias: `(b0 + b1_0 · w0g_0) + b1_1 · w0g_1`, each product of a row slice with a matrix slice. -/
theorem v11_eq (c : Dev nD) : (V m c main_v11 : Vec F S1x256 .f32)
    = addf (addf (m ((c : Thread nD τ).loc main_arg8))
        (Host.dotGeneral dot_S1x128_S128x256_S1x256_1_0_0_1_n_n none
          (shapeCast S1x128 (extractStridedSlice S1x1x128 ![0, 0, 0] (m ((c : Thread nD τ).loc main_arg5)) slices_S2x1x128_S1x1x128_0_0_0) shapeCasts_S1x1x128_S1x128)
          (shapeCast S128x256 (extractStridedSlice S1x128x256 ![0, 0, 0] (m ((c : Thread nD τ).loc main_arg7)) slices_S2x128x256_S1x128x256_0_0_0) shapeCasts_S1x128x256_S128x256)))
      (Host.dotGeneral dot_S1x128_S128x256_S1x256_1_0_0_1_n_n none
        (shapeCast S1x128 (extractStridedSlice S1x1x128 ![1, 0, 0] (m ((c : Thread nD τ).loc main_arg5)) slices_S2x1x128_S1x1x128_1_0_0) shapeCasts_S1x1x128_S1x128)
        (shapeCast S128x256 (extractStridedSlice S1x128x256 ![1, 0, 0] (m ((c : Thread nD τ).loc main_arg7)) slices_S2x128x256_S1x128x256_1_0_0) shapeCasts_S1x128x256_S128x256)) := by
  dsimp only [V, hostOps0]
  after_results
  rfl

end Blocks

/-! ## The loaded blocks as the specification's matrices -/

section Value

variable (m : (ℓ : Loc nD τ sig) → Buf (Elt Ideal) ℓ) (c : Dev nD)

/-- A slice of one slab off a stacked array `[2, a, b]`, read at `(0, i, j)`: the array at `(g, i, j)`. -/
theorem slice_slab {α : Type} {a b : ℕ} (off : ℕ) (g : Fin 2) (hg : off = g.val) (v : (⟨3, ![2, a, b]⟩ : Shape).Idx → α)
    (h : (⟨3, ![2, a, b]⟩ : Shape).Slices ![off, 0, 0] ⟨3, ![1, a, b]⟩) (i : Fin a) (j : Fin b) :
    extractStridedSlice ⟨3, ![1, a, b]⟩ ![off, 0, 0] v h (ix3 (0 : Fin 1) i j) = v (ix3 g i j) :=
  extractStridedSlice_apply _ v h _ _ fun ax => by
    match ax with
    | ⟨0, _⟩ => show g.val = off + 0; omega
    | ⟨1, _⟩ => exact (Nat.zero_add _).symm
    | ⟨2, _⟩ => exact (Nat.zero_add _).symm

theorem rdA_blk (t : Fin cfg0.N) (g : Fin 2) (hg : g.val = t.val) :
    Pay.rdA (iblk m c 0 t) = slab (m ((c : Thread nD τ).loc main_arg0)) g := by
  funext n k
  exact (blk0_apply m c t g hg n k).trans (congrFun (V_main_arg0 m c) _)

theorem rdX_blk (t : Fin cfg0.N) : Pay.rdX (iblk m c 1 t) = mat (m ((c : Thread nD τ).loc main_arg1)) := by
  funext n f
  show (iblk m c 1 t : Vec Ideal S1792x128 .f32) (ix2 n f) = _
  rw [blk1_eq, V_main_arg1]

theorem rdW0_blk (t : Fin cfg0.N) (g : Fin 2) (hg : g.val = t.val) :
    Pay.rdW (iblk m c 2 t) = slab (m ((c : Thread nD τ).loc main_arg2)) g := by
  funext f h
  exact (blk2_apply m c t g hg f h).trans (congrFun (V_main_arg2 m c) _)

/-- The bias column of graph type `g` reads the bias row: the transpose undone. -/
theorem rdB0_blk (t : Fin cfg0.N) (g : Fin 2) (hg : g.val = t.val) :
    Pay.rdB0 (iblk m c 3 t) = slabRow (m ((c : Thread nD τ).loc main_arg4)) g := by
  funext h
  refine (blk3_apply m c t g hg h (0 : Fin 1)).trans ?_
  rw [v12_eq]
  exact transpose_ix3_021_apply _ _ g h (0 : Fin 1)

theorem rdW1_blk (t : Fin cfg0.N) (g : Fin 2) (hg : g.val = t.val) :
    Pay.rdW1 (iblk m c 4 t) = slab (m ((c : Thread nD τ).loc main_arg3)) g := by
  funext h o
  exact (blk4_apply m c t g hg h o).trans (congrFun (V_main_arg3 m c) _)

theorem rdWg_blk (t : Fin cfg0.N) (g : Fin 2) (hg : g.val = t.val) :
    Pay.rdW (iblk m c 5 t) = slab (m ((c : Thread nD τ).loc main_arg7)) g := by
  funext o k
  exact (blk5_apply m c t g hg o k).trans (congrFun (V_main_arg7 m c) _)

theorem rdWx_blk (t : Fin cfg0.N) : Pay.rdM (iblk m c 6 t) = mat (m ((c : Thread nD τ).loc main_arg6)) := by
  funext f k
  show (iblk m c 6 t : Vec Ideal S128x256 .f32) (ix2 f k) = _
  rw [blk6_eq, V_main_arg6]

/-- The starting bias the kernel is handed is the specification's: the bias row plus the two folded second biases. -/
theorem rdBias_blk (t : Fin cfg0.N) :
    Pay.rdRow256 (iblk m c 7 t) = biasKE (m ((c : Thread nD τ).loc main_arg5)) (m ((c : Thread nD τ).loc main_arg7)) (m ((c : Thread nD τ).loc main_arg8)) := by
  funext k
  show (iblk m c 7 t : Vec Ideal S1x256 .f32) (ix2 (0 : Fin 1) k) = _
  rw [blk7_eq, v11_eq]
  simp only [addf_apply, LibContract2.dot_nn dot_S1x128_S128x256_S1x256_1_0_0_1_n_n rfl rfl rfl rfl rfl rfl, shapeCast_1ab_ab_apply,
    slice_slab 0 (0 : Fin 2) rfl, slice_slab 1 (1 : Fin 2) rfl]
  rfl

theorem rdM2_blk (t : Fin cfg0.N) : Pay.rdM2 (iblk m c 8 t) = mat (m ((c : Thread nD τ).loc main_arg9)) := by
  funext k j
  show (iblk m c 8 t : Vec Ideal S256x128 .f32) (ix2 k j) = _
  rw [blk8_eq, V_main_arg9]

theorem rdMb_blk (t : Fin cfg0.N) : Pay.rdRow128 (iblk m c 9 t) = row (m ((c : Thread nD τ).loc main_arg10)) := by
  funext j
  show (iblk m c 9 t : Vec Ideal S1x128 .f32) (ix2 (0 : Fin 1) j) = _
  rw [blk9_eq, V_main_arg10]

theorem rdWl_blk (t : Fin cfg0.N) : Pay.rdRow128 (iblk m c 10 t) = row (m ((c : Thread nD τ).loc main_arg11)) := by
  funext j
  show (iblk m c 10 t : Vec Ideal S1x128 .f32) (ix2 (0 : Fin 1) j) = _
  rw [blk10_eq, V_main_arg11]

theorem bl_blk (t : Fin cfg0.N) :
    (iblk m c 11 t : Vec Ideal S1x1 .f32) (ix2 (0 : Fin 1) (0 : Fin 1)) = (m ((c : Thread nD τ).loc main_arg12)) (ix2 (0 : Fin 1) (0 : Fin 1)) := by
  rw [blk11_eq, V_main_arg12]

/-! ## The output column -/

/-- The finished accumulator is the specification's `accK` of the argument arrays. -/
theorem acc1_eq : Pay.rdAcc (Acc.acc1 m c)
    = accKE (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext n k
  show Acc.acc1 m c (ix2 n k) = _
  unfold Acc.acc1 Acc.acc0
  rw [Pay.pay3_apply, Pay.pay3_apply, Pay.pay2_apply]
  rw [rdA_blk m c t0_0 0 rfl, rdA_blk m c t0_1 1 rfl, rdX_blk, rdX_blk, rdW0_blk m c t0_0 0 rfl, rdW0_blk m c t0_1 1 rfl,
    rdB0_blk m c t0_0 0 rfl, rdB0_blk m c t0_1 1 rfl, rdW1_blk m c t0_0 0 rfl, rdW1_blk m c t0_1 1 rfl,
    rdWg_blk m c t0_0 0 rfl, rdWg_blk m c t0_1 1 rfl, rdWx_blk, rdBias_blk]
  rfl

/-- The kernel's output column at node `n`: the MLP head of `accK`. -/
theorem result_apply (n : Fin 1792) (u : Fin 1) :
    Acc.result m c (ix2 n u)
      = outE (accKE (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
          (m ((c : Thread nD τ).loc main_arg9)) (m ((c : Thread nD τ).loc main_arg10)) (m ((c : Thread nD τ).loc main_arg11)) (m ((c : Thread nD τ).loc main_arg12)) n := by
  unfold Acc.result
  rw [Pay.pay1_apply, acc1_eq, rdM2_blk, rdMb_blk, rdWl_blk, bl_blk]

end Value

end Cert.KernelIdeal.Val

end
-- ==== Proof.RefAcc.lean ====
/-
  The reference's accumulator and output, point by point.

  The reference's grid has two points, one per graph type, and an accumulator scratch carried between them. At the
  first point the body stores the reset value (the self term: the features times their weight, plus the bias) into the
  scratch, reads it back and stores the sum with the first graph type's contribution over it; at the second it adds the
  second graph type's contribution to what the first point left and writes the MLP head of the finished accumulator to
  the output column. The frame run records, per point, the pieces the body's stores leave; here each piece is read
  back as the pure term of the blocks the body loaded (the stores are whole-buffer, so a piece is its payload), and the
  two points are chained: the output array ends at the head of
  `(reset + contribution₀) + contribution₁`.
-/
import proofs.«132511_g2000706234556652_pallaspilot1_280_5_alg».proof.Proof.Gen.ReferenceIdeal.Value

noncomputable section

open Idealize.ShloMosaic Idealize.ShloMosaic.TcCoe Idealize.SL.Sem Idealize.ShloMosaic.Tactic
open Idealize.ShloMosaic.Pipeline (Dat)

namespace Cert.ReferenceIdeal.Acc

open Cert.ReferenceIdeal Cert.ReferenceIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each case's stores leave, as values of the loaded blocks -/

/-- The second point's accumulator: the carried accumulator plus this graph type's contribution. -/
theorem sout_B (c : Dev nD) (i : grid0.Coords) (a1 : Memref sig .tc .vmem S1x1792x1792 .f32) (h1 : a1.IsWhole) (a2 : Memref sig .tc .vmem S1792x128 .f32) (h2 : a2.IsWhole) (a3 : Memref sig .tc .vmem S1x128x256 .f32) (h3 : a3.IsWhole) (a4 : Memref sig .tc .vmem S1x1x256 .f32) (h4 : a4.IsWhole) (a5 : Memref sig .tc .vmem S1x256x128 .f32) (h5 : a5.IsWhole) (a6 : Memref sig .tc .vmem S1x1x128 .f32) (h6 : a6.IsWhole) (a7 : Memref sig .tc .vmem S128x256 .f32) (h7 : a7.IsWhole) (a8 : Memref sig .tc .vmem S1x128x256 .f32) (h8 : a8.IsWhole) (a9 : Memref sig .tc .vmem S1x256 .f32) (h9 : a9.IsWhole) (a10 : Memref sig .tc .vmem S256x128 .f32) (h10 : a10.IsWhole) (a11 : Memref sig .tc .vmem S1x128 .f32) (h11 : a11.IsWhole) (a12 : Memref sig .tc .vmem S1x128 .f32) (h12 : a12.IsWhole) (a13 : Memref sig .tc .vmem S1x1 .f32) (h13 : a13.IsWhole) (a14 : Memref sig .tc .vmem S1792x1 .f32) (h14 : a14.IsWhole) (a15 : Memref sig .tc .vmem S1792x256 .f32) (h15 : a15.IsWhole) (hc0 : ¬cond0_0 i) (hc1 : cond0_1 i)
    (x0 : Vec F S1x1792x1792 .f32) (x1 : Vec F S1792x128 .f32) (x2 : Vec F S1x128x256 .f32) (x3 : Vec F S1x1x256 .f32) (x4 : Vec F S1x256x128 .f32) (x5 : Vec F S1x1x128 .f32) (x6 : Vec F S128x256 .f32) (x7 : Vec F S1x128x256 .f32) (x8 : Vec F S1x256 .f32) (x9 : Vec F S256x128 .f32) (x10 : Vec F S1x128 .f32) (x11 : Vec F S1x128 .f32) (x12 : Vec F S1x1 .f32) (xs0 : Vec F S1792x256 .f32) :
    sout0_B_0 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 x8 x9 x10 x11 x12 xs0 = k0_pay1 xs0 (k0_pay4 x0 x1 x2 x3 x4 x5 x7) := by
  unfold sout0_B_0
  rw [View.read_writes_eq_canon _ _ _ (scover0_B_0 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 x8 x9 x10 x11 x12 xs0)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h15.read_unread,
    View.ld_unit_zero (S := S1x1792x1792) hz3, View.ld_unit_zero (S := S1792x128) hz2, View.ld_unit_zero (S := S1x128x256) hz3, View.ld_unit_zero (S := S1x1x256) hz3, View.ld_unit_zero (S := S1x256x128) hz3, View.ld_unit_zero (S := S1x1x128) hz3, View.ld_unit_zero (S := S128x256) hz2, View.ld_unit_zero (S := S1x256) hz2, View.ld_unit_zero (S := S256x128) hz2, View.ld_unit_zero (S := S1x128) hz2, View.ld_unit_zero (S := S1x1) hz2, View.ld_unit_zero (S := S1792x256) hz2]

/-- The first point's accumulator: the reset value plus the first graph type's contribution (the reset is stored
    whole, read back, and overwritten whole by the sum). -/
theorem sout_A (c : Dev nD) (i : grid0.Coords) (a1 : Memref sig .tc .vmem S1x1792x1792 .f32) (h1 : a1.IsWhole) (a2 : Memref sig .tc .vmem S1792x128 .f32) (h2 : a2.IsWhole) (a3 : Memref sig .tc .vmem S1x128x256 .f32) (h3 : a3.IsWhole) (a4 : Memref sig .tc .vmem S1x1x256 .f32) (h4 : a4.IsWhole) (a5 : Memref sig .tc .vmem S1x256x128 .f32) (h5 : a5.IsWhole) (a6 : Memref sig .tc .vmem S1x1x128 .f32) (h6 : a6.IsWhole) (a7 : Memref sig .tc .vmem S128x256 .f32) (h7 : a7.IsWhole) (a8 : Memref sig .tc .vmem S1x128x256 .f32) (h8 : a8.IsWhole) (a9 : Memref sig .tc .vmem S1x256 .f32) (h9 : a9.IsWhole) (a10 : Memref sig .tc .vmem S256x128 .f32) (h10 : a10.IsWhole) (a11 : Memref sig .tc .vmem S1x128 .f32) (h11 : a11.IsWhole) (a12 : Memref sig .tc .vmem S1x128 .f32) (h12 : a12.IsWhole) (a13 : Memref sig .tc .vmem S1x1 .f32) (h13 : a13.IsWhole) (a14 : Memref sig .tc .vmem S1792x1 .f32) (h14 : a14.IsWhole) (a15 : Memref sig .tc .vmem S1792x256 .f32) (h15 : a15.IsWhole) (hc0 : cond0_0 i) (hc1 : ¬cond0_1 i)
    (x0 : Vec F S1x1792x1792 .f32) (x1 : Vec F S1792x128 .f32) (x2 : Vec F S1x128x256 .f32) (x3 : Vec F S1x1x256 .f32) (x4 : Vec F S1x256x128 .f32) (x5 : Vec F S1x1x128 .f32) (x6 : Vec F S128x256 .f32) (x7 : Vec F S1x128x256 .f32) (x8 : Vec F S1x256 .f32) (x9 : Vec F S256x128 .f32) (x10 : Vec F S1x128 .f32) (x11 : Vec F S1x128 .f32) (x12 : Vec F S1x1 .f32) :
    sout0_A_0 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 x8 x9 x10 x11 x12 = k0_pay1 (k0_pay3 x1 x6 x8) (k0_pay4 x0 x1 x2 x3 x4 x5 x7) := by
  unfold sout0_A_0
  rw [View.read_writes_eq_canon _ _ _ (scover0_A_0 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 x8 x9 x10 x11 x12)]
  unfold kernelRun0_A
  dsimp only
  sl_unfold_words
  rw [View.canon_cons_unit_zero (S := S1792x256) hz2]
  simp only [View.readCov_unit_zero (S := S1792x256) _ hz2, View.readAt_eq_ld, h1.read_unread, h2.read_unread, h3.read_unread, h4.read_unread, h5.read_unread, h6.read_unread, h7.read_unread, h8.read_unread, h9.read_unread, h10.read_unread, h11.read_unread, h12.read_unread, h13.read_unread, h15.read_unread,
    View.ld_unit_zero (S := S1x1792x1792) hz3, View.ld_unit_zero (S := S1792x128) hz2, View.ld_unit_zero (S := S1x128x256) hz3, View.ld_unit_zero (S := S1x1x256) hz3, View.ld_unit_zero (S := S1x256x128) hz3, View.ld_unit_zero (S := S1x1x128) hz3, View.ld_unit_zero (S := S128x256) hz2, View.ld_unit_zero (S := S1x256) hz2, View.ld_unit_zero (S := S256x128) hz2, View.ld_unit_zero (S := S1x128) hz2, View.ld_unit_zero (S := S1x1) hz2, View.ld_unit_zero (S := S1792x256) hz2]

/-- The second point's output column: the head of that point's accumulator (stored whole, then read back). -/
theorem out_B (c : Dev nD) (i : grid0.Coords) (a1 : Memref sig .tc .vmem S1x1792x1792 .f32) (h1 : a1.IsWhole) (a2 : Memref sig .tc .vmem S1792x128 .f32) (h2 : a2.IsWhole) (a3 : Memref sig .tc .vmem S1x128x256 .f32) (h3 : a3.IsWhole) (a4 : Memref sig .tc .vmem S1x1x256 .f32) (h4 : a4.IsWhole) (a5 : Memref sig .tc .vmem S1x256x128 .f32) (h5 : a5.IsWhole) (a6 : Memref sig .tc .vmem S1x1x128 .f32) (h6 : a6.IsWhole) (a7 : Memref sig .tc .vmem S128x256 .f32) (h7 : a7.IsWhole) (a8 : Memref sig .tc .vmem S1x128x256 .f32) (h8 : a8.IsWhole) (a9 : Memref sig .tc .vmem S1x256 .f32) (h9 : a9.IsWhole) (a10 : Memref sig .tc .vmem S256x128 .f32) (h10 : a10.IsWhole) (a11 : Memref sig .tc .vmem S1x128 .f32) (h11 : a11.IsWhole) (a12 : Memref sig .tc .vmem S1x128 .f32) (h12 : a12.IsWhole) (a13 : Memref sig .tc .vmem S1x1 .f32) (h13 : a13.IsWhole) (a14 : Memref sig .tc .vmem S1792x1 .f32) (h14 : a14.IsWhole) (a15 : Memref sig .tc .vmem S1792x256 .f32) (h15 : a15.IsWhole) (hc0 : ¬cond0_0 i) (hc1 : cond0_1 i)
    (x0 : Vec F S1x1792x1792 .f32) (x1 : Vec F S1792x128 .f32) (x2 : Vec F S1x128x256 .f32) (x3 : Vec F S1x1x256 .f32) (x4 : Vec F S1x256x128 .f32) (x5 : Vec F S1x1x128 .f32) (x6 : Vec F S128x256 .f32) (x7 : Vec F S1x128x256 .f32) (x8 : Vec F S1x256 .f32) (x9 : Vec F S256x128 .f32) (x10 : Vec F S1x128 .f32) (x11 : Vec F S1x128 .f32) (x12 : Vec F S1x1 .f32) (xs0 : Vec F S1792x256 .f32) :
    out0_B_13 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 x8 x9 x10 x11 x12 xs0 = k0_pay2 (k0_pay1 xs0 (k0_pay4 x0 x1 x2 x3 x4 x5 x7)) x9 x10 x11 x12 := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 x8 x9 x10 x11 x12 xs0)]
  unfold kernelRun0_B
  dsimp only
  sl_unfold_words
  rw [View.canon_unit_zero hz2]
  simp only [View.readCov_unit_zero (S := S1792x256) _ hz2, View.readAt_eq_ld, h1.read_unread, h2.read_unread, h3.read_unread, h4.read_unread, h5.read_unread, h6.read_unread, h7.read_unread, h8.read_unread, h9.read_unread, h10.read_unread, h11.read_unread, h12.read_unread, h13.read_unread, h15.read_unread,
    View.ld_unit_zero (S := S1x1792x1792) hz3, View.ld_unit_zero (S := S1792x128) hz2, View.ld_unit_zero (S := S1x128x256) hz3, View.ld_unit_zero (S := S1x1x256) hz3, View.ld_unit_zero (S := S1x256x128) hz3, View.ld_unit_zero (S := S1x1x128) hz3, View.ld_unit_zero (S := S128x256) hz2, View.ld_unit_zero (S := S1x256) hz2, View.ld_unit_zero (S := S256x128) hz2, View.ld_unit_zero (S := S1x128) hz2, View.ld_unit_zero (S := S1x1) hz2, View.ld_unit_zero (S := S1792x256) hz2]

/-! ## The two points chained -/

variable (m : (ℓ : Loc nD τ sig) → Buf (Elt F) ℓ) (ρ : Dev nD → PrngReg)

/-- the accumulator after the first point -/
def acc0 (c : Dev nD) : Vec F S1792x256 .f32 :=
  k0_pay1 (k0_pay3 (iblk m c 1 t0_0) (iblk m c 6 t0_0) (iblk m c 8 t0_0))
    (k0_pay4 (iblk m c 0 t0_0) (iblk m c 1 t0_0) (iblk m c 2 t0_0) (iblk m c 3 t0_0) (iblk m c 4 t0_0) (iblk m c 5 t0_0) (iblk m c 7 t0_0))

/-- the accumulator after the second point -/
def acc1 (c : Dev nD) : Vec F S1792x256 .f32 :=
  k0_pay1 (acc0 m c)
    (k0_pay4 (iblk m c 0 t0_1) (iblk m c 1 t0_1) (iblk m c 2 t0_1) (iblk m c 3 t0_1) (iblk m c 4 t0_1) (iblk m c 5 t0_1) (iblk m c 7 t0_1))

/-- the output column -/
def result (c : Dev nD) : Buf (Elt F) ((c : Thread nD τ).loc main_v0) :=
  k0_pay2 (acc1 m c) (iblk m c 9 t0_1) (iblk m c 10 t0_1) (iblk m c 11 t0_1) (iblk m c 12 t0_1)

theorem outs0 (c : Dev nD) : (outsAt0 m c t0_0.val t0_0.isLt).2 = acc0 m c := by
  rw [outsAt0_A m c t0_0 rfl (by decide)]
  dsimp only
  exact sout_A c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (ms0_11 t0_0) (hs0_11 t0_0) (ms0_12 t0_0) (hs0_12 t0_0) (ms0_13 t0_0) (hs0_13 t0_0) scM0_0 (Memref.isWhole_whole _) _ _ (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0)

theorem outs1_acc (c : Dev nD) : (outsAt0 m c t0_1.val t0_1.isLt).2 = acc1 m c := by
  rw [outsAt0_B m c t0_1 (by decide) rfl]
  dsimp only
  rw [show (outsAt0 m c (t0_1.val - 1) (Nat.lt_of_le_of_lt (Nat.sub_le _ _) t0_1.isLt)).2 = acc0 m c from outs0 m c]
  exact sout_B c (grid0.coords t0_1) (ms0_0 t0_1) (hs0_0 t0_1) (ms0_1 t0_1) (hs0_1 t0_1) (ms0_2 t0_1) (hs0_2 t0_1) (ms0_3 t0_1) (hs0_3 t0_1) (ms0_4 t0_1) (hs0_4 t0_1) (ms0_5 t0_1) (hs0_5 t0_1) (ms0_6 t0_1) (hs0_6 t0_1) (ms0_7 t0_1) (hs0_7 t0_1) (ms0_8 t0_1) (hs0_8 t0_1) (ms0_9 t0_1) (hs0_9 t0_1) (ms0_10 t0_1) (hs0_10 t0_1) (ms0_11 t0_1) (hs0_11 t0_1) (ms0_12 t0_1) (hs0_12 t0_1) (ms0_13 t0_1) (hs0_13 t0_1) scM0_0 (Memref.isWhole_whole _) _ _ (iblk m c 0 t0_1) (iblk m c 1 t0_1) (iblk m c 2 t0_1) (iblk m c 3 t0_1) (iblk m c 4 t0_1) (iblk m c 5 t0_1) (iblk m c 6 t0_1) (iblk m c 7 t0_1) (iblk m c 8 t0_1) (iblk m c 9 t0_1) (iblk m c 10 t0_1) (iblk m c 11 t0_1) (iblk m c 12 t0_1) (acc0 m c)

theorem outs1 (c : Dev nD) : (outsAt0 m c t0_1.val t0_1.isLt).1 = result m c := by
  rw [outsAt0_B m c t0_1 (by decide) rfl]
  dsimp only
  rw [show (outsAt0 m c (t0_1.val - 1) (Nat.lt_of_le_of_lt (Nat.sub_le _ _) t0_1.isLt)).2 = acc0 m c from outs0 m c]
  exact out_B c (grid0.coords t0_1) (ms0_0 t0_1) (hs0_0 t0_1) (ms0_1 t0_1) (hs0_1 t0_1) (ms0_2 t0_1) (hs0_2 t0_1) (ms0_3 t0_1) (hs0_3 t0_1) (ms0_4 t0_1) (hs0_4 t0_1) (ms0_5 t0_1) (hs0_5 t0_1) (ms0_6 t0_1) (hs0_6 t0_1) (ms0_7 t0_1) (hs0_7 t0_1) (ms0_8 t0_1) (hs0_8 t0_1) (ms0_9 t0_1) (hs0_9 t0_1) (ms0_10 t0_1) (hs0_10 t0_1) (ms0_11 t0_1) (hs0_11 t0_1) (ms0_12 t0_1) (hs0_12 t0_1) (ms0_13 t0_1) (hs0_13 t0_1) scM0_0 (Memref.isWhole_whole _) _ _ (iblk m c 0 t0_1) (iblk m c 1 t0_1) (iblk m c 2 t0_1) (iblk m c 3 t0_1) (iblk m c 4 t0_1) (iblk m c 5 t0_1) (iblk m c 6 t0_1) (iblk m c 7 t0_1) (iblk m c 8 t0_1) (iblk m c 9 t0_1) (iblk m c 10 t0_1) (iblk m c 11 t0_1) (iblk m c 12 t0_1) (acc0 m c)

/-! ## The output array after the run -/

/-- The one write-back, at the second point, writes the output column: the window's block is the whole `[1792, 1]`
    array read through zero offsets. -/
theorem flushed_eq (c : Dev nD) (t : Fin cfg0.N) (hf : (cfg0.win 13).flush t = true) :
    (dats m 0 c).flushed 13 t = ((cfg0.win 13).blk t).view.read (Elt F) (result m c) := by
  have hN : cfg0.N = 2 := N_0
  have h1 : t.val = 1 := by have := (flush0_13 t).mp hf; have := t.isLt; omega
  obtain rfl : t = t0_1 := Fin.ext h1
  rw [Value.flushed13, outs1]
  have hz' : (fun a => win0_13.index t0_1 a * main_v0.ty.shape.size a) = fun _ => 0 := funext fun a => by fin_cases a <;> decide
  exact (Memref.read_access_unit_zero (Elt F) main_v0 hz' (fun a => by rw [congrFun hz' a]; simp) (result m c)).symm

/-- So the output array ends holding the output column: the second point's block covers it. -/
theorem final (c : Dev nD) : (dats m 0 c).arrAt 13 cfg0.N = result m c :=
  (dats m 0 c).arrAt_eq_of_cover 13 (result m c) (flushed_eq m c) fun i =>
    ⟨t0_1, (flush0_13 t0_1).mpr rfl, by
      show i ∈ ((View.whole main_v0).slice (win0_13.rect t0_1)).set
      rw [View.set_slice_whole, Rect.mem_set_unit]
      intro a
      have h0 : (i 0 : Nat) < 1792 := (i 0).isLt
      have h1 : (i 1 : Nat) < 1 := (i 1).isLt
      match a with
      | ⟨0, _⟩ =>
        show win0_13.index t0_1 0 * win0_13.size 0 ≤ (i 0 : Nat) ∧ (i 0 : Nat) < win0_13.index t0_1 0 * win0_13.size 0 + win0_13.xsize (grid0.coords t0_1) 0
        rw [show win0_13.index t0_1 0 * win0_13.size 0 = 0 from by decide +kernel, show win0_13.xsize (grid0.coords t0_1) 0 = 1792 from by decide +kernel]; omega
      | ⟨1, _⟩ =>
        show win0_13.index t0_1 1 * win0_13.size 1 ≤ (i 1 : Nat) ∧ (i 1 : Nat) < win0_13.index t0_1 1 * win0_13.size 1 + win0_13.xsize (grid0.coords t0_1) 1
        rw [show win0_13.index t0_1 1 * win0_13.size 1 = 0 from by decide +kernel, show win0_13.xsize (grid0.coords t0_1) 1 = 1 from by decide +kernel]; omega⟩

/-- The run, read: the output array at the output column, every argument unchanged. -/
theorem run : θ_run defs (onTc (τ := τ) (main (F := F))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final m c), (h c).2⟩) (Value.run_blocks m ρ)

end Cert.ReferenceIdeal.Acc

end
-- ==== Proof.RefPay.lean ====
/-
  The reference's four stored values, read at an index at the exact values.

  The reference's body stores, at the first grid point, the reset of the accumulator to `x · w0x + b0` (a plain product
  plus a row bias); at every point, the accumulator plus the graph type's contribution, computed row-major (nodes by
  features: see the algebra module's `graphR`), which is handed on as its own value before it is added; and at the last
  point the MLP head of the finished accumulator, to the output column. Each is one pure term of the blocks the body
  loads; read at an index `(n, k)`, every matrix product is the sum over its contracted coordinate, every leading unit
  axis reads at `0`, a bias row `[1, 1, b]` reads its one row, and the splat zero is the extended real `0`.
-/
import proofs.«132511_g2000706234556652_pallaspilot1_280_5_alg».proof.Proof.Gen.ReferenceIdeal.Skeleton
import proofs.«132511_g2000706234556652_pallaspilot1_280_5_alg».proof.Proof.LibContract2
import proofs.«132511_g2000706234556652_pallaspilot1_280_5_alg».proof.Proof.LibColumn
import proofs.«132511_g2000706234556652_pallaspilot1_280_5_alg».proof.Proof.Algebra
import Idealize.ShloMosaic.Lib.ValueLayout

noncomputable section

open Idealize.ShloMosaic Idealize.ShloMosaic.ValueIdx

namespace Cert.ReferenceIdeal.Pay

open Cert.ReferenceIdeal Cert.ReferenceIdeal.Gen TabGnn

/-! ## The loaded blocks as matrices -/

/-- The adjacency block `[1, N, N]` as a matrix. -/
abbrev rdA (x : Vec Ideal S1x1792x1792 .f32) : Fin 1792 → Fin 1792 → EReal := fun n m => x (ix3 (0 : Fin 1) n m)
/-- The node features `[N, 128]`. -/
abbrev rdX (x : Vec Ideal S1792x128 .f32) : Fin 1792 → Fin 128 → EReal := fun n f => x (ix2 n f)
/-- A weight block `[1, 128, 256]` as a matrix. -/
abbrev rdW (x : Vec Ideal S1x128x256 .f32) : Fin 128 → Fin 256 → EReal := fun f h => x (ix3 (0 : Fin 1) f h)
/-- The first layer's bias block, stored as a row `[1, 1, 256]`. -/
abbrev rdB0 (x : Vec Ideal S1x1x256 .f32) : Fin 256 → EReal := fun h => x (ix3 (0 : Fin 1) (0 : Fin 1) h)
/-- The second layer's weight block `[1, 256, 128]` as a matrix. -/
abbrev rdW1 (x : Vec Ideal S1x256x128 .f32) : Fin 256 → Fin 128 → EReal := fun h o => x (ix3 (0 : Fin 1) h o)
/-- The second layer's bias block, stored as a row `[1, 1, 128]`. -/
abbrev rdB1 (x : Vec Ideal S1x1x128 .f32) : Fin 128 → EReal := fun o => x (ix3 (0 : Fin 1) (0 : Fin 1) o)
/-- A plain matrix `[128, 256]`. -/
abbrev rdM (x : Vec Ideal S128x256 .f32) : Fin 128 → Fin 256 → EReal := fun f k => x (ix2 f k)
/-- A row `[1, 256]`. -/
abbrev rdRow256 (x : Vec Ideal S1x256 .f32) : Fin 256 → EReal := fun k => x (ix2 (0 : Fin 1) k)
/-- The MLP's second weight matrix `[256, 128]`. -/
abbrev rdM2 (x : Vec Ideal S256x128 .f32) : Fin 256 → Fin 128 → EReal := fun k j => x (ix2 k j)
/-- A row `[1, 128]`. -/
abbrev rdRow128 (x : Vec Ideal S1x128 .f32) : Fin 128 → EReal := fun j => x (ix2 (0 : Fin 1) j)
/-- The accumulator `[N, 256]` as a matrix. -/
abbrev rdAcc (x : Vec Ideal S1792x256 .f32) : Fin 1792 → Fin 256 → EReal := fun n k => x (ix2 n k)

/-! ## The body's matrix products, each the sum over its contracted coordinate

All four dimension-number records contract the second axis of the left operand against the first of the right. -/

/-- `[N, 128] · [128, 256]`: the feature products `x · w` and the last product `emb · wg`. -/
theorem mm_xw (l : FVec Ideal S1792x128 .f32) (r : FVec Ideal S128x256 .f32) (n : Fin 1792) (k : Fin 256) :
    matmul dot_S1792x128_S128x256_S1792x256_1_0_0_1_n_n none l r (constant (F := Ideal) S1792x256 .f32 0x00000000#32) (ix2 n k)
      = ∑ f : Fin 128, l (ix2 n f) * r (ix2 f k) :=
  LibContract2.matmul_nn _ rfl rfl rfl rfl rfl rfl none l r n k

/-- `[N, N] · [N, 256]`: the first aggregation over the neighbours. -/
theorem mm_agg (l : FVec Ideal S1792x1792 .f32) (r : FVec Ideal S1792x256 .f32) (n : Fin 1792) (h : Fin 256) :
    matmul dot_S1792x1792_S1792x256_S1792x256_1_0_0_1_n_n none l r (constant (F := Ideal) S1792x256 .f32 0x00000000#32) (ix2 n h)
      = ∑ m : Fin 1792, l (ix2 n m) * r (ix2 m h) :=
  LibContract2.matmul_nn _ rfl rfl rfl rfl rfl rfl none l r n h

/-- `[N, 256] · [256, 128]`: the projection of the hidden layer, and the MLP's second layer. -/
theorem mm_proj (l : FVec Ideal S1792x256 .f32) (r : FVec Ideal S256x128 .f32) (n : Fin 1792) (o : Fin 128) :
    matmul dot_S1792x256_S256x128_S1792x128_1_0_0_1_n_n none l r (constant (F := Ideal) S1792x128 .f32 0x00000000#32) (ix2 n o)
      = ∑ h : Fin 256, l (ix2 n h) * r (ix2 h o) :=
  LibContract2.matmul_nn _ rfl rfl rfl rfl rfl rfl none l r n o

/-- `[N, N] · [N, 128]`: the second aggregation over the neighbours. -/
theorem mm_emb (l : FVec Ideal S1792x1792 .f32) (r : FVec Ideal S1792x128 .f32) (n : Fin 1792) (o : Fin 128) :
    matmul dot_S1792x1792_S1792x128_S1792x128_1_0_0_1_n_n none l r (constant (F := Ideal) S1792x128 .f32 0x00000000#32) (ix2 n o)
      = ∑ m : Fin 1792, l (ix2 n m) * r (ix2 m o) :=
  LibContract2.matmul_nn _ rfl rfl rfl rfl rfl rfl none l r n o

/-- The splat zero is the extended real zero. -/
theorem zero_f32 : Scalar.ofBits (F := Ideal) .f32 0x00000000#32 = (0 : EReal) := Ideal.ofBits_zero_f32

/-- A lane sum over the second axis of an `[N, 128]` block, read at row `n`: the sum of the row's entries. -/
theorem rowsum_apply (v : FVec Ideal S1792x128 .f32) (h : S1792x128.Reduces [1] S1792) (hφ : FKind.Formats .f32)
    (hacc : (0x00000000#32 : BitVec 32) = 0x00000000#32) (n : Fin 1792) :
    multiReduction .add [1] S1792 v 0x00000000#32 h hφ hacc (ix1 n) = ∑ j : Fin 128, v (ix2 n j) := by
  refine (Ideal.multiReduction_add_single v 0x00000000#32 h hφ hacc (ix1 n)).trans ?_
  exact Finset.sum_congr rfl fun j _ => congrArg v (funext fun a => Fin.ext (by
    match a with
    | ⟨0, _⟩ => rfl
    | ⟨1, _⟩ => rfl))

/-! ## The four stored values -/

/-- The first point's reset: `x · w0x + b0`. -/
theorem pay3_apply (x1 : Vec Ideal S1792x128 .f32) (x6 : Vec Ideal S128x256 .f32) (x8 : Vec Ideal S1x256 .f32) (n : Fin 1792) (k : Fin 256) :
    k0_pay3 (F := Ideal) x1 x6 x8 (ix2 n k) = lin (rdX x1) (rdM x6) (rdRow256 x8) n k := by
  unfold k0_pay3
  simp only [shapeCast_self, addf_apply, mm_xw, broadcastTo_1b_ab_apply]
  rfl

/-- The graph type's row-major contribution, the value every point adds to the accumulator. -/
theorem pay4_apply (x0 : Vec Ideal S1x1792x1792 .f32) (x1 : Vec Ideal S1792x128 .f32) (x2 : Vec Ideal S1x128x256 .f32) (x3 : Vec Ideal S1x1x256 .f32) (x4 : Vec Ideal S1x256x128 .f32) (x5 : Vec Ideal S1x1x128 .f32) (x7 : Vec Ideal S1x128x256 .f32) (n : Fin 1792) (k : Fin 256) :
    k0_pay4 (F := Ideal) x0 x1 x2 x3 x4 x5 x7 (ix2 n k) = graphR (rdA x0) (rdX x1) (rdW x2) (rdB0 x3) (rdW1 x4) (rdB1 x5) (rdW x7) n k := by
  unfold k0_pay4
  simp only [addf_apply, maximumf_apply, broadcast_apply, mm_xw, mm_emb, mm_proj, mm_agg, shapeCast_1ab_ab_apply,
    broadcastTo_1b_ab_apply, zero_f32]
  rfl

/-- Every point's update: the accumulator plus the contribution handed on. -/
theorem pay1_apply (acc : Vec Ideal S1792x256 .f32) (v : FVec Ideal S1792x256 .f32) (n : Fin 1792) (k : Fin 256) :
    k0_pay1 (F := Ideal) acc v (ix2 n k) = acc (ix2 n k) + v (ix2 n k) := by
  unfold k0_pay1
  simp only [shapeCast_self, addf_apply]

/-- The last point's output column: the MLP head of the accumulator. -/
theorem pay2_apply (acc : Vec Ideal S1792x256 .f32) (x9 : Vec Ideal S256x128 .f32) (x10 x11 : Vec Ideal S1x128 .f32) (x12 : Vec Ideal S1x1 .f32) (n : Fin 1792) (u : Fin 1) :
    k0_pay2 (F := Ideal) acc x9 x10 x11 x12 (ix2 n u) = headF (rdAcc acc) (rdM2 x9) (rdRow128 x10) (rdRow128 x11) (x12 (ix2 (0 : Fin 1) (0 : Fin 1))) n := by
  obtain rfl : u = 0 := Subsingleton.elim _ _
  unfold k0_pay2
  simp only [addf_apply, LibColumn.shapeCast_a_a1_apply, broadcastTo_1b_ab_apply]
  refine congrArg (· + x12 (ix2 (0 : Fin 1) (0 : Fin 1))) ?_
  refine (rowsum_apply _ _ _ _ n).trans ?_
  simp only [mulf_apply, maximumf_apply, addf_apply, broadcast_apply, mm_proj, broadcastTo_1b_ab_apply, zero_f32]

end Cert.ReferenceIdeal.Pay

end
-- ==== Proof.RefVal.lean ====
/-
  The reference's output column as the common function of the argument arrays.

  The chained payloads of the two grid points are read at an index (the payload module), and every block the body
  loaded is read where it lies in its array: graph type `g`'s slab of a stacked array at the point `g`, a resident
  array whole. The reference's @main is the call alone, so each array is the launched argument itself. The accumulator
  after the second point is then the specification's `accR`, the reset `x · w0x + b0` plus the two row-major
  contributions in order, and the output column is its MLP head.
-/
import proofs.«132511_g2000706234556652_pallaspilot1_280_5_alg».proof.Proof.RefAcc
import proofs.«132511_g2000706234556652_pallaspilot1_280_5_alg».proof.Proof.RefPay
import proofs.«132511_g2000706234556652_pallaspilot1_280_5_alg».proof.Proof.Spec

noncomputable section

open Idealize.ShloMosaic Idealize.ShloMosaic.TcCoe Idealize.SL.Sem Idealize.ShloMosaic.ValueIdx
open Idealize.ShloMosaic.Pipeline (Dat)

namespace Cert.ReferenceIdeal.Val

open Cert.ReferenceIdeal Cert.ReferenceIdeal.Gen TabGnn

/-! ## Where each loaded block lies in its array -/

section Blocks

variable {F : FTy → Type} [FloatOps F]
variable (m : (ℓ : Loc nD τ sig) → Buf (Elt F) ℓ)

/-- The adjacency block at point `t` is graph type `t`'s slab of the stacked adjacency. -/
theorem blk0_apply (c : Dev nD) (t : Fin cfg0.N) (g : Fin 2) (hg : g.val = t.val) (i : Fin 1792) (j : Fin 1792) :
    (iblk m c 0 t : Vec F S1x1792x1792 .f32) (ix3 (0 : Fin 1) i j) = (V m c main_arg0 : Vec F S2x1792x1792 .f32) (ix3 g i j) := by
  have hi : win0_0.index t 0 = t.val ∧ win0_0.index t 1 = 0 ∧ win0_0.index t 2 = 0 := by
    rcases fin_N0 t with rfl | rfl <;> decide
  unfold iblk
  rw [View.read_apply]
  show V m c main_arg0 _ = V m c main_arg0 _
  congr 1
  funext a
  apply Fin.ext
  match a with
  | ⟨0, _⟩ => show win0_0.index t 0 * 1 + 1 * ((0 : Fin 1) : ℕ) = (g : ℕ); rw [hi.1]; omega
  | ⟨1, _⟩ => show win0_0.index t 1 * 1792 + 1 * (i : ℕ) = (i : ℕ); rw [hi.2.1]; omega
  | ⟨2, _⟩ => show win0_0.index t 2 * 1792 + 1 * (j : ℕ) = (j : ℕ); rw [hi.2.2]; omega

/-- The first layer's weight block at point `t` is graph type `t`'s slab. -/
theorem blk2_apply (c : Dev nD) (t : Fin cfg0.N) (g : Fin 2) (hg : g.val = t.val) (i : Fin 128) (j : Fin 256) :
    (iblk m c 2 t : Vec F S1x128x256 .f32) (ix3 (0 : Fin 1) i j) = (V m c main_arg2 : Vec F S2x128x256 .f32) (ix3 g i j) := by
  have hi : win0_2.index t 0 = t.val ∧ win0_2.index t 1 = 0 ∧ win0_2.index t 2 = 0 := by
    rcases fin_N0 t with rfl | rfl <;> decide
  unfold iblk
  rw [View.read_apply]
  show V m c main_arg2 _ = V m c main_arg2 _
  congr 1
  funext a
  apply Fin.ext
  match a with
  | ⟨0, _⟩ => show win0_2.index t 0 * 1 + 1 * ((0 : Fin 1) : ℕ) = (g : ℕ); rw [hi.1]; omega
  | ⟨1, _⟩ => show win0_2.index t 1 * 128 + 1 * (i : ℕ) = (i : ℕ); rw [hi.2.1]; omega
  | ⟨2, _⟩ => show win0_2.index t 2 * 256 + 1 * (j : ℕ) = (j : ℕ); rw [hi.2.2]; omega

/-- The first layer's bias row at point `t` is graph type `t`'s row of the stacked biases. -/
theorem blk3_apply (c : Dev nD) (t : Fin cfg0.N) (g : Fin 2) (hg : g.val = t.val) (i : Fin 1) (j : Fin 256) :
    (iblk m c 3 t : Vec F S1x1x256 .f32) (ix3 (0 : Fin 1) i j) = (V m c main_arg4 : Vec F S2x1x256 .f32) (ix3 g i j) := by
  have hi : win0_3.index t 0 = t.val ∧ win0_3.index t 1 = 0 ∧ win0_3.index t 2 = 0 := by
    rcases fin_N0 t with rfl | rfl <;> decide
  unfold iblk
  rw [View.read_apply]
  show V m c main_arg4 _ = V m c main_arg4 _
  congr 1
  funext a
  apply Fin.ext
  match a with
  | ⟨0, _⟩ => show win0_3.index t 0 * 1 + 1 * ((0 : Fin 1) : ℕ) = (g : ℕ); rw [hi.1]; omega
  | ⟨1, _⟩ => show win0_3.index t 1 * 1 + 1 * (i : ℕ) = (i : ℕ); rw [hi.2.1]; omega
  | ⟨2, _⟩ => show win0_3.index t 2 * 256 + 1 * (j : ℕ) = (j : ℕ); rw [hi.2.2]; omega

/-- The second layer's weight block at point `t` is graph type `t`'s slab. -/
theorem blk4_apply (c : Dev nD) (t : Fin cfg0.N) (g : Fin 2) (hg : g.val = t.val) (i : Fin 256) (j : Fin 128) :
    (iblk m c 4 t : Vec F S1x256x128 .f32) (ix3 (0 : Fin 1) i j) = (V m c main_arg3 : Vec F S2x256x128 .f32) (ix3 g i j) := by
  have hi : win0_4.index t 0 = t.val ∧ win0_4.index t 1 = 0 ∧ win0_4.index t 2 = 0 := by
    rcases fin_N0 t with rfl | rfl <;> decide
  unfold iblk
  rw [View.read_apply]
  show V m c main_arg3 _ = V m c main_arg3 _
  congr 1
  funext a
  apply Fin.ext
  match a with
  | ⟨0, _⟩ => show win0_4.index t 0 * 1 + 1 * ((0 : Fin 1) : ℕ) = (g : ℕ); rw [hi.1]; omega
  | ⟨1, _⟩ => show win0_4.index t 1 * 256 + 1 * (i : ℕ) = (i : ℕ); rw [hi.2.1]; omega
  | ⟨2, _⟩ => show win0_4.index t 2 * 128 + 1 * (j : ℕ) = (j : ℕ); rw [hi.2.2]; omega

/-- The second layer's bias row at point `t` is graph type `t`'s row of the stacked biases. -/
theorem blk5_apply (c : Dev nD) (t : Fin cfg0.N) (g : Fin 2) (hg : g.val = t.val) (i : Fin 1) (j : Fin 128) :
    (iblk m c 5 t : Vec F S1x1x128 .f32) (ix3 (0 : Fin 1) i j) = (V m c main_arg5 : Vec F S2x1x128 .f32) (ix3 g i j) := by
  have hi : win0_5.index t 0 = t.val ∧ win0_5.index t 1 = 0 ∧ win0_5.index t 2 = 0 := by
    rcases fin_N0 t with rfl | rfl <;> decide
  unfold iblk
  rw [View.read_apply]
  show V m c main_arg5 _ = V m c main_arg5 _
  congr 1
  funext a
  apply Fin.ext
  match a with
  | ⟨0, _⟩ => show win0_5.index t 0 * 1 + 1 * ((0 : Fin 1) : ℕ) = (g : ℕ); rw [hi.1]; omega
  | ⟨1, _⟩ => show win0_5.index t 1 * 1 + 1 * (i : ℕ) = (i : ℕ); rw [hi.2.1]; omega
  | ⟨2, _⟩ => show win0_5.index t 2 * 128 + 1 * (j : ℕ) = (j : ℕ); rw [hi.2.2]; omega

/-- The MLP's per-graph-type weight block at point `t` is graph type `t`'s slab. -/
theorem blk7_apply (c : Dev nD) (t : Fin cfg0.N) (g : Fin 2) (hg : g.val = t.val) (i : Fin 128) (j : Fin 256) :
    (iblk m c 7 t : Vec F S1x128x256 .f32) (ix3 (0 : Fin 1) i j) = (V m c main_arg7 : Vec F S2x128x256 .f32) (ix3 g i j) := by
  have hi : win0_7.index t 0 = t.val ∧ win0_7.index t 1 = 0 ∧ win0_7.index t 2 = 0 := by
    rcases fin_N0 t with rfl | rfl <;> decide
  unfold iblk
  rw [View.read_apply]
  show V m c main_arg7 _ = V m c main_arg7 _
  congr 1
  funext a
  apply Fin.ext
  match a with
  | ⟨0, _⟩ => show win0_7.index t 0 * 1 + 1 * ((0 : Fin 1) : ℕ) = (g : ℕ); rw [hi.1]; omega
  | ⟨1, _⟩ => show win0_7.index t 1 * 128 + 1 * (i : ℕ) = (i : ℕ); rw [hi.2.1]; omega
  | ⟨2, _⟩ => show win0_7.index t 2 * 256 + 1 * (j : ℕ) = (j : ℕ); rw [hi.2.2]; omega

/-- The node features are resident: the block is the whole array. -/
theorem blk1_eq (c : Dev nD) (t : Fin cfg0.N) : (iblk m c 1 t : Vec F S1792x128 .f32) = V m c main_arg1 := by
  have hz' : (fun a => win0_1.index t a * main_arg1.ty.shape.size a) = fun _ => 0 :=
    funext fun a => by rcases fin_N0 t with rfl | rfl <;> fin_cases a <;> decide
  exact Memref.read_access_unit_zero (Elt F) main_arg1 hz' (fun a => by rw [congrFun hz' a]; simp) (V m c main_arg1)

/-- The MLP's feature weights are resident. -/
theorem blk6_eq (c : Dev nD) (t : Fin cfg0.N) : (iblk m c 6 t : Vec F S128x256 .f32) = V m c main_arg6 := by
  have hz' : (fun a => win0_6.index t a * main_arg6.ty.shape.size a) = fun _ => 0 :=
    funext fun a => by rcases fin_N0 t with rfl | rfl <;> fin_cases a <;> decide
  exact Memref.read_access_unit_zero (Elt F) main_arg6 hz' (fun a => by rw [congrFun hz' a]; simp) (V m c main_arg6)

/-- The MLP's first bias is resident. -/
theorem blk8_eq (c : Dev nD) (t : Fin cfg0.N) : (iblk m c 8 t : Vec F S1x256 .f32) = V m c main_arg8 := by
  have hz' : (fun a => win0_8.index t a * main_arg8.ty.shape.size a) = fun _ => 0 :=
    funext fun a => by rcases fin_N0 t with rfl | rfl <;> fin_cases a <;> decide
  exact Memref.read_access_unit_zero (Elt F) main_arg8 hz' (fun a => by rw [congrFun hz' a]; simp) (V m c main_arg8)

/-- The MLP's second weight matrix is resident. -/
theorem blk9_eq (c : Dev nD) (t : Fin cfg0.N) : (iblk m c 9 t : Vec F S256x128 .f32) = V m c main_arg9 := by
  have hz' : (fun a => win0_9.index t a * main_arg9.ty.shape.size a) = fun _ => 0 :=
    funext fun a => by rcases fin_N0 t with rfl | rfl <;> fin_cases a <;> decide
  exact Memref.read_access_unit_zero (Elt F) main_arg9 hz' (fun a => by rw [congrFun hz' a]; simp) (V m c main_arg9)

/-- The MLP's second bias is resident. -/
theorem blk10_eq (c : Dev nD) (t : Fin cfg0.N) : (iblk m c 10 t : Vec F S1x128 .f32) = V m c main_arg10 := by
  have hz' : (fun a => win0_10.index t a * main_arg10.ty.shape.size a) = fun _ => 0 :=
    funext fun a => by rcases fin_N0 t with rfl | rfl <;> fin_cases a <;> decide
  exact Memref.read_access_unit_zero (Elt F) main_arg10 hz' (fun a => by rw [congrFun hz' a]; simp) (V m c main_arg10)

/-- The last layer's weight row is resident. -/
theorem blk11_eq (c : Dev nD) (t : Fin cfg0.N) : (iblk m c 11 t : Vec F S1x128 .f32) = V m c main_arg11 := by
  have hz' : (fun a => win0_11.index t a * main_arg11.ty.shape.size a) = fun _ => 0 :=
    funext fun a => by rcases fin_N0 t with rfl | rfl <;> fin_cases a <;> decide
  exact Memref.read_access_unit_zero (Elt F) main_arg11 hz' (fun a => by rw [congrFun hz' a]; simp) (V m c main_arg11)

/-- The last layer's bias is resident. -/
theorem blk12_eq (c : Dev nD) (t : Fin cfg0.N) : (iblk m c 12 t : Vec F S1x1 .f32) = V m c main_arg12 := by
  have hz' : (fun a => win0_12.index t a * main_arg12.ty.shape.size a) = fun _ => 0 :=
    funext fun a => by rcases fin_N0 t with rfl | rfl <;> fin_cases a <;> decide
  exact Memref.read_access_unit_zero (Elt F) main_arg12 hz' (fun a => by rw [congrFun hz' a]; simp) (V m c main_arg12)

end Blocks

/-! ## The loaded blocks as the matrices of the specification -/

section Matrices

variable (m : (ℓ : Loc nD τ sig) → Buf (Elt Ideal) ℓ) (c : Dev nD)

/-- The adjacency block as a matrix is graph type `g`'s adjacency. -/
theorem rdA_blk0 (t : Fin cfg0.N) (g : Fin 2) (hg : g.val = t.val) :
    Pay.rdA (iblk m c 0 t) = slab (α := EReal) (m ((c : Thread nD τ).loc main_arg0)) g := by
  funext i j
  exact blk0_apply m c t g hg i j

/-- The feature block as a matrix is the feature array. -/
theorem rdX_blk1 (t : Fin cfg0.N) : Pay.rdX (iblk m c 1 t) = mat (α := EReal) (m ((c : Thread nD τ).loc main_arg1)) := by
  funext i j
  exact congrFun (blk1_eq m c t) (ix2 i j)

/-- The first layer's weight block as a matrix is graph type `g`'s weights. -/
theorem rdW_blk2 (t : Fin cfg0.N) (g : Fin 2) (hg : g.val = t.val) :
    Pay.rdW (iblk m c 2 t) = slab (α := EReal) (m ((c : Thread nD τ).loc main_arg2)) g := by
  funext i j
  exact blk2_apply m c t g hg i j

/-- The first layer's bias block as a row is graph type `g`'s bias. -/
theorem rdB0_blk3 (t : Fin cfg0.N) (g : Fin 2) (hg : g.val = t.val) :
    Pay.rdB0 (iblk m c 3 t) = slabRow (α := EReal) (m ((c : Thread nD τ).loc main_arg4)) g := by
  funext j
  exact blk3_apply m c t g hg 0 j

/-- The second layer's weight block as a matrix is graph type `g`'s weights. -/
theorem rdW1_blk4 (t : Fin cfg0.N) (g : Fin 2) (hg : g.val = t.val) :
    Pay.rdW1 (iblk m c 4 t) = slab (α := EReal) (m ((c : Thread nD τ).loc main_arg3)) g := by
  funext i j
  exact blk4_apply m c t g hg i j

/-- The second layer's bias block as a row is graph type `g`'s bias. -/
theorem rdB1_blk5 (t : Fin cfg0.N) (g : Fin 2) (hg : g.val = t.val) :
    Pay.rdB1 (iblk m c 5 t) = slabRow (α := EReal) (m ((c : Thread nD τ).loc main_arg5)) g := by
  funext j
  exact blk5_apply m c t g hg 0 j

/-- The MLP's feature weight block as a matrix is the weight array. -/
theorem rdM_blk6 (t : Fin cfg0.N) : Pay.rdM (iblk m c 6 t) = mat (α := EReal) (m ((c : Thread nD τ).loc main_arg6)) := by
  funext i j
  exact congrFun (blk6_eq m c t) (ix2 i j)

/-- The MLP's per-graph-type weight block as a matrix is graph type `g`'s weights. -/
theorem rdW_blk7 (t : Fin cfg0.N) (g : Fin 2) (hg : g.val = t.val) :
    Pay.rdW (iblk m c 7 t) = slab (α := EReal) (m ((c : Thread nD τ).loc main_arg7)) g := by
  funext i j
  exact blk7_apply m c t g hg i j

/-- The MLP's first bias block as a row is the bias array's row. -/
theorem rdRow_blk8 (t : Fin cfg0.N) : Pay.rdRow256 (iblk m c 8 t) = row (α := EReal) (m ((c : Thread nD τ).loc main_arg8)) := by
  funext j
  exact congrFun (blk8_eq m c t) (ix2 (0 : Fin 1) j)

/-- The MLP's second weight block as a matrix is the weight array. -/
theorem rdM2_blk9 (t : Fin cfg0.N) : Pay.rdM2 (iblk m c 9 t) = mat (α := EReal) (m ((c : Thread nD τ).loc main_arg9)) := by
  funext i j
  exact congrFun (blk9_eq m c t) (ix2 i j)

/-- The MLP's second bias block as a row is the bias array's row. -/
theorem rdRow_blk10 (t : Fin cfg0.N) : Pay.rdRow128 (iblk m c 10 t) = row (α := EReal) (m ((c : Thread nD τ).loc main_arg10)) := by
  funext j
  exact congrFun (blk10_eq m c t) (ix2 (0 : Fin 1) j)

/-- The last layer's weight block as a row is the weight array's row. -/
theorem rdRow_blk11 (t : Fin cfg0.N) : Pay.rdRow128 (iblk m c 11 t) = row (α := EReal) (m ((c : Thread nD τ).loc main_arg11)) := by
  funext j
  exact congrFun (blk11_eq m c t) (ix2 (0 : Fin 1) j)

/-- The last layer's bias block holds the bias array's one entry. -/
theorem blk12_at (t : Fin cfg0.N) :
    (iblk m c 12 t : Vec Ideal S1x1 .f32) (ix2 (0 : Fin 1) (0 : Fin 1))
      = (m ((c : Thread nD τ).loc main_arg12) : S1x1.Idx → EReal) (ix2 (0 : Fin 1) (0 : Fin 1)) :=
  congrFun (blk12_eq m c t) (ix2 (0 : Fin 1) (0 : Fin 1))

end Matrices

/-! ## The accumulator and the output column -/

/-- The accumulator after the second point is the specification's: the reset `x · w0x + b0`, plus graph type 0's
    contribution (the first point), plus graph type 1's (the second). -/
theorem acc1_apply (m : (ℓ : Loc nD τ sig) → Buf (Elt Ideal) ℓ) (c : Dev nD) (n : Fin 1792) (k : Fin 256) :
    Acc.acc1 m c (ix2 n k)
      = accRE (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) n k := by
  unfold Acc.acc1 Acc.acc0
  rw [Pay.pay1_apply, Pay.pay1_apply, Pay.pay3_apply, Pay.pay4_apply, Pay.pay4_apply]
  rw [rdX_blk1 m c t0_0, rdM_blk6 m c t0_0, rdRow_blk8 m c t0_0,
    rdA_blk0 m c t0_0 0 rfl, rdW_blk2 m c t0_0 0 rfl, rdB0_blk3 m c t0_0 0 rfl, rdW1_blk4 m c t0_0 0 rfl,
    rdB1_blk5 m c t0_0 0 rfl, rdW_blk7 m c t0_0 0 rfl,
    rdX_blk1 m c t0_1, rdA_blk0 m c t0_1 1 rfl, rdW_blk2 m c t0_1 1 rfl, rdB0_blk3 m c t0_1 1 rfl,
    rdW1_blk4 m c t0_1 1 rfl, rdB1_blk5 m c t0_1 1 rfl, rdW_blk7 m c t0_1 1 rfl]
  unfold accRE accR
  rfl

/-- The output column is the MLP head of the specification's accumulator, at the MLP's own arrays. -/
theorem result_apply (m : (ℓ : Loc nD τ sig) → Buf (Elt Ideal) ℓ) (c : Dev nD) (n : Fin 1792) (u : Fin 1) :
    Acc.result m c (ix2 n u)
      = outE (accRE (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8)))
          (m ((c : Thread nD τ).loc main_arg9)) (m ((c : Thread nD τ).loc main_arg10)) (m ((c : Thread nD τ).loc main_arg11))
          (m ((c : Thread nD τ).loc main_arg12)) n := by
  have hacc : Pay.rdAcc (Acc.acc1 m c) = accRE (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) :=
    funext fun n => funext fun k => acc1_apply m c n k
  unfold Acc.result
  rw [Pay.pay2_apply, hacc, rdM2_blk9 m c t0_1, rdRow_blk10 m c t0_1, rdRow_blk11 m c t0_1, blk12_at m c t0_1]

end Cert.ReferenceIdeal.Val

end
-- ==== Proof.Finite.lean ====
/-
  From the precondition to real entries.

  The precondition is the conjunction, over the thirteen argument arrays, of "every entry's absolute value is below
  +infinity". At the exact values an entry is an extended real, and an extended real whose absolute value is below
  +infinity is neither infinity: it is the coercion of a real number. This module reads the printed predicate back to
  that fact, array by array.
-/
import proofs.«132511_g2000706234556652_pallaspilot1_280_5_alg».proof.Pre_finite_inputs
import proofs.«132511_g2000706234556652_pallaspilot1_280_5_alg».proof.Proof.Gen.Pre_finite_inputs
import Idealize.ShloMosaic.PureOps.Ideal
import Idealize.ShloMosaic.Lib.ReduceAll
import Idealize.ShloMosaic.Lib.ValueIdx

noncomputable section

open Idealize.ShloMosaic

namespace Cert.Pre_finite_inputs.Finite

open Cert.Pre_finite_inputs

/-- Every entry of the array is (the coercion of) a real number. -/
def IsReal {s : Shape} (x : s.Idx → EReal) : Prop := ∀ i, ∃ r : ℝ, x i = (r : EReal)

/-- The pattern 0x7F800000 denotes +infinity. -/
theorem inf_bits : Ideal.ofBits .f32 0x7F800000#32 = (⊤ : EReal) := by simp [Ideal.ofBits, Ideal.ieee]

/-- The comparison "less than" at the exact values answers 1 only where it holds. -/
theorem lt_of_cmp_olt {x y : EReal} (h : Ideal.cmp .olt x y = 1#1) : x < y := by
  by_contra hn
  have h0 : Ideal.cmp .olt x y = 0#1 := by simp [Ideal.cmp, hn]
  rw [h0] at h
  exact absurd h (by decide)

/-- An extended real whose absolute value max x (-x) is below +infinity is neither infinity: it is a real. -/
theorem real_of_abs_lt_top (x : EReal) (h : max x (-x) < ⊤) : ∃ r : ℝ, x = (r : EReal) := by
  induction x using EReal.rec with
  | bot => simp at h
  | coe r => exact ⟨r, rfl⟩
  | top => simp at h

/-- One conjunct of the predicate, over any shape: if "|x| < +infinity", reduced by "and" over every axis from 1, is 1,
    then every entry of x is a real. -/
theorem isReal_of_all {s : Shape} {axes : List (Fin s.rank)} (x : FVec Ideal s .f32)
    (hb : S_.BroadcastsInDim s (![] : Fin 0 → Fin s.rank)) (hred : s.ReducesTo axes S_) (hS : 0 < S_.numel) (j : S_.Idx)
    (h : Host.reduce IntOp.andi (cmpf .olt (Host.absf x) (broadcastInDim s ![] hb (constant S_ .f32 0x7F800000#32)))
      (constantI S_ 1 1#1) hred hS j = 1#1) : IsReal x := by
  intro i
  -- the result of a reduction over every axis has a single index
  haveI : Subsingleton S_.Idx := ⟨fun a b => funext fun d => d.elim0⟩
  have e := Host.reduce_andi_all _ _ hred hS j h i
  have e2 : Ideal.cmp .olt (max (x i) (-(x i))) (Ideal.ofBits .f32 0x7F800000#32) = 1#1 := e
  rw [inf_bits] at e2
  exact real_of_abs_lt_top _ (lt_of_cmp_olt e2)

variable [Facts]

/-- Where the precondition holds, every entry of every argument array is a real number. -/
theorem real_of_pre (a0 : FVec Ideal S2x1792x1792 .f32) (a1 : FVec Ideal S1792x128 .f32) (a2 : FVec Ideal S2x128x256 .f32)
    (a3 : FVec Ideal S2x256x128 .f32) (a4 : FVec Ideal S2x1x256 .f32) (a5 : FVec Ideal S2x1x128 .f32)
    (a6 : FVec Ideal S128x256 .f32) (a7 : FVec Ideal S2x128x256 .f32) (a8 : FVec Ideal S1x256 .f32)
    (a9 : FVec Ideal S256x128 .f32) (a10 : FVec Ideal S1x128 .f32) (a11 : FVec Ideal S1x128 .f32) (a12 : FVec Ideal S1x1 .f32)
    (h : fn (F := Ideal) a0 a1 a2 a3 a4 a5 a6 a7 a8 a9 a10 a11 a12 = fun _ => 1#1) :
    IsReal a0 ∧ IsReal a1 ∧ IsReal a2 ∧ IsReal a3 ∧ IsReal a4 ∧ IsReal a5 ∧ IsReal a6 ∧ IsReal a7 ∧ IsReal a8 ∧ IsReal a9
      ∧ IsReal a10 ∧ IsReal a11 ∧ IsReal a12 := by
  -- the one index of the result
  have h0 := congrFun h ValueIdx.ix0
  -- the printed chain, then the twelve "and"s that join its thirteen conjuncts
  dsimp only [fn, fn_part1, fn_part2, fn_part3] at h0
  dsimp only [andi] at h0
  simp only [IntOp.andi_eq_one] at h0
  obtain ⟨⟨⟨⟨⟨⟨⟨⟨⟨⟨⟨⟨h0, h1⟩, h2⟩, h3⟩, h4⟩, h5⟩, h6⟩, h7⟩, h8⟩, h9⟩, h10⟩, h11⟩, h12⟩ := h0
  exact ⟨isReal_of_all _ _ _ _ _ h0, isReal_of_all _ _ _ _ _ h1, isReal_of_all _ _ _ _ _ h2, isReal_of_all _ _ _ _ _ h3,
    isReal_of_all _ _ _ _ _ h4, isReal_of_all _ _ _ _ _ h5, isReal_of_all _ _ _ _ _ h6, isReal_of_all _ _ _ _ _ h7,
    isReal_of_all _ _ _ _ _ h8, isReal_of_all _ _ _ _ _ h9, isReal_of_all _ _ _ _ _ h10, isReal_of_all _ _ _ _ _ h11,
    isReal_of_all _ _ _ _ _ h12⟩

end Cert.Pre_finite_inputs.Finite

end
-- ==== Proof.lean ====
/-
  The certificate of a fused two-graph-type GCN + MLP forward pass (1792 nodes, 128 input features) against its
  row-major reference, over the extended reals.

  Both programs are one Pallas call on a grid of two points, one per graph type, with an accumulator carried in scratch
  memory: the first MLP layer's pre-activation `x · w0x + b0 + ∑_g emb_g · w0g_g`, where `emb_g` is the two-layer graph
  convolution `A_g · (relu (A_g · (x · W0_g) + B0_g) · W1_g) + B1_g`; at the last point the remaining MLP layers (a ReLU, a
  256 × 128 product with bias, a ReLU, and the last layer as a weighted row sum) turn the accumulator into the output
  column. The reference computes each `emb_g` as written. The kernel computes everything transposed (features by
  nodes) — `(A_g · x)ᵀ` first, then the weights from the left — leaves `B1_g` out of `emb_g`, and instead starts the
  accumulator from the bias `b0 + B1_0 · w0g_0 + B1_1 · w0g_1`, which @main computes before the call.

  Over the reals the two are the same number entry by entry: `A · (x · W0) = (A · x) · W0` (a double sum exchanged) and
  `(E + B1) · w0g = E · w0g + B1 · w0g` (distributivity), see the algebra and specification modules. Both laws fail at
  infinite entries, so the proof uses the precondition: every entry of every argument is finite, hence a real, and on
  reals each side's extended-real value is the coercion of its real value. The MLP head is the same function on both
  sides and is never opened.

  The three frames are the generated frame runs (the reference is itself a kernel program and has one); the
  idealization rewrote nothing, so `preserves` is trivial.
-/
import proofs.«132511_g2000706234556652_pallaspilot1_280_5_alg».proof.Defs
import proofs.«132511_g2000706234556652_pallaspilot1_280_5_alg».proof.Proof.Gen.Kernel.Frame
import proofs.«132511_g2000706234556652_pallaspilot1_280_5_alg».proof.Proof.Gen.Pre_finite_inputs
import proofs.«132511_g2000706234556652_pallaspilot1_280_5_alg».proof.Proof.KernelVal
import proofs.«132511_g2000706234556652_pallaspilot1_280_5_alg».proof.Proof.RefVal
import proofs.«132511_g2000706234556652_pallaspilot1_280_5_alg».proof.Proof.Finite
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

theorem preserves : Cert.preserves_Kernel_KernelIdeal := trivial

/-- From memories agreeing on the arguments, both programs end with the same output column: at node `n` each is the MLP
    head of its accumulator, and the accumulators agree because every argument entry is real. -/
theorem algebraic : Cert.algebraic_KernelIdeal_ReferenceIdeal := by
  intro m ρ m' ρ' hpre hagree
  refine ⟨fun c => Cert.KernelIdeal.Acc.result m c, Cert.KernelIdeal.Acc.run (F := Ideal) m ρ, ?_⟩
  refine (θ_run Cert.ReferenceIdeal.defs _ _).mono (fun _ h c => ⟨(h c).1.trans ?_, (h c).2⟩)
    (Cert.ReferenceIdeal.Acc.run (F := Ideal) m' ρ')
  obtain ⟨r0, r1, r2, r3, r4, r5, r6, r7, r8, -, -, -, -⟩ :=
    Cert.Pre_finite_inputs.Finite.real_of_pre _ _ _ _ _ _ _ _ _ _ _ _ _ (hpre c)
  obtain ⟨a0, a1, a2, a3, a4, a5, a6, a7, a8, a9, a10, a11, a12⟩ := hagree c
  funext i
  obtain ⟨n, u, rfl⟩ : ∃ (n : Fin 1792) (u : Fin 1), i = ix2 n u := ⟨i 0, i 1, eq_ix2 i⟩
  show Cert.ReferenceIdeal.Acc.result m' c (ix2 n u) = Cert.KernelIdeal.Acc.result m c (ix2 n u)
  rw [Cert.ReferenceIdeal.Val.result_apply, Cert.KernelIdeal.Val.result_apply, a0, a1, a2, a3, a4, a5, a6, a7, a8, a9, a10, a11, a12]
  exact congrArg (fun acc => TabGnn.outE acc _ _ _ _ n)
    (funext fun n => funext fun k => (TabGnn.accK_eq_accR _ _ _ _ _ _ _ _ _ r0 r1 r2 r3 r4 r5 r6 r7 r8 n k).symm)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
